-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S2x262144 : Shape := ⟨2, ![2, 262144]⟩
abbrev S512x512 : Shape := ⟨2, ![512, 512]⟩
abbrev S512 : Shape := ⟨1, ![512]⟩
abbrev S4 : Shape := ⟨1, ![4]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S4 : S_.BroadcastsInDim S4 (![] : Fin 0 → Fin S4.rank)
  reducesTo_S4_S_d0 : S4.ReducesTo [0] S_

variable [Facts]

def fn_part1 {F : FTy → Type} [FloatOps F] (main_v13 : IVec S_ 1) (main_v16 : IVec S4 1) : IVec S_ 1 :=
  let main_c_5 : IVec S_ 1 := constantI S_ 1 1#1
  let main_v17 : IVec S_ 1 := (fun x v => Host.reduce IntOp.andi x v reducesTo_S4_S_d0 h_S_) main_v16 main_c_5
  let main_v18 : IVec S_ 1 := andi main_v13 main_v17
  main_v18

def fn {F : FTy → Type} [FloatOps F] (main_arg0 : FVec F S8192x512 .f32) (main_arg1 : IVec S2x262144 32) (main_arg2 : FVec F S512x512 .f32) (main_arg3 : FVec F S512 .f32) (main_arg4 : FVec F S4 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S4 .f32 := Host.absf main_arg4
  let main_cst_4 : FVec F S_ .f32 := constant S_ .f32 0x7F800000#32
  let main_v15 : FVec F S4 .f32 := broadcastInDim S4 ![] bcast_S_S4 main_cst_4
  let main_v16 : IVec S4 1 := cmpf .olt main_v14 main_v15
  fn_part1 (F := F) main_v13 main_v16
-- ==== Kernel.lean ====
abbrev S8192x512 : Shape := ⟨2, ![8192, 512]⟩
abbrev S2x262144 : Shape := ⟨2, ![2, 262144]⟩
abbrev S512x512 : Shape := ⟨2, ![512, 512]⟩
abbrev S512 : Shape := ⟨1, ![512]⟩
abbrev S4 : Shape := ⟨1, ![4]⟩
abbrev S1x512 : Shape := ⟨2, ![1, 512]⟩
abbrev S2048x512 : Shape := ⟨2, ![2048, 512]⟩
abbrev S1x262144 : Shape := ⟨2, ![1, 262144]⟩
abbrev S262144 : Shape := ⟨1, ![262144]⟩
abbrev S_ : Shape := ⟨0, ![]⟩
abbrev S8192x8192 : Shape := ⟨2, ![8192, 8192]⟩
abbrev S262144x1 : Shape := ⟨2, ![262144, 1]⟩
abbrev S262144x2 : Shape := ⟨2, ![262144, 2]⟩
abbrev S8192 : Shape := ⟨1, ![8192]⟩
abbrev S8192x1 : Shape := ⟨2, ![8192, 1]⟩
abbrev S1 : Shape := ⟨1, ![1]⟩
abbrev S1024x2048 : Shape := ⟨2, ![1024, 2048]⟩
abbrev S1024x512 : Shape := ⟨2, ![1024, 512]⟩

abbrev nBuf : Space → Nat
  | .hbm => 100
  | .vmem => 27
  | .smem => 0
  | _ => 0

abbrev bufTy : (tb : Table) → Fin (tcTables nBuf tb) → BufTy
  | .hbm, ⟨0, _⟩ => ⟨S8192x512, .f32⟩
  | .hbm, ⟨1, _⟩ => ⟨S2x262144, .i32⟩
  | .hbm, ⟨2, _⟩ => ⟨S512x512, .f32⟩
  | .hbm, ⟨3, _⟩ => ⟨S512, .f32⟩
  | .hbm, ⟨4, _⟩ => ⟨S4, .f32⟩
  | .hbm, ⟨5, _⟩ => ⟨S8192x512, .bf16⟩
  | .hbm, ⟨6, _⟩ => ⟨S512x512, .bf16⟩
  | .hbm, ⟨7, _⟩ => ⟨S1x512, .f32⟩
  | .hbm, ⟨8, _⟩ => ⟨S8192x512, .f32⟩
  | .hbm, ⟨9, _⟩ => ⟨S1x262144, .i32⟩
  | .hbm, ⟨10, _⟩ => ⟨S262144, .i32⟩
  | .hbm, ⟨11, _⟩ => ⟨S1x262144, .i32⟩
  | .hbm, ⟨12, _⟩ => ⟨S262144, .i32⟩
  | .hbm, ⟨13, _⟩ => ⟨S_, .f32⟩
  | .hbm, ⟨14, _⟩ => ⟨S8192x8192, .f32⟩
  | .hbm, ⟨15, _⟩ => ⟨S_, .i32⟩
  | .hbm, ⟨16, _⟩ => ⟨S262144, .i32⟩
  | .hbm, ⟨17, _⟩ => ⟨S262144, .i1⟩
  | .hbm, ⟨18, _⟩ => ⟨S_, .i32⟩
  | .hbm, ⟨19, _⟩ => ⟨S262144, .i32⟩
  | .hbm, ⟨20, _⟩ => ⟨S262144, .i32⟩
  | .hbm, ⟨21, _⟩ => ⟨S262144, .i32⟩
  | .hbm, ⟨22, _⟩ => ⟨S_, .i32⟩
  | .hbm, ⟨23, _⟩ => ⟨S262144, .i32⟩
  | .hbm, ⟨24, _⟩ => ⟨S262144, .i1⟩
  | .hbm, ⟨25, _⟩ => ⟨S_, .i32⟩
  | .hbm, ⟨26, _⟩ => ⟨S262144, .i32⟩
  | .hbm, ⟨27, _⟩ => ⟨S262144, .i32⟩
  | .hbm, ⟨28, _⟩ => ⟨S262144, .i32⟩
  | .hbm, ⟨29, _⟩ => ⟨S262144x1, .i32⟩
  | .hbm, ⟨30, _⟩ => ⟨S262144x1, .i32⟩
  | .hbm, ⟨31, _⟩ => ⟨S262144x2, .i32⟩
  | .hbm, ⟨32, _⟩ => ⟨S_, .f32⟩
  | .hbm, ⟨33, _⟩ => ⟨S262144, .f32⟩
  | .hbm, ⟨34, _⟩ => ⟨S8192x8192, .f32⟩
  | .hbm, ⟨35, _⟩ => ⟨S_, .i32⟩
  | .hbm, ⟨36, _⟩ => ⟨S262144, .i32⟩
  | .hbm, ⟨37, _⟩ => ⟨S262144, .i1⟩
  | .hbm, ⟨38, _⟩ => ⟨S_, .i32⟩
  | .hbm, ⟨39, _⟩ => ⟨S262144, .i32⟩
  | .hbm, ⟨40, _⟩ => ⟨S262144, .i32⟩
  | .hbm, ⟨41, _⟩ => ⟨S262144, .i32⟩
  | .hbm, ⟨42, _⟩ => ⟨S_, .i32⟩
  | .hbm, ⟨43, _⟩ => ⟨S262144, .i32⟩
  | .hbm, ⟨44, _⟩ => ⟨S262144, .i1⟩
  | .hbm, ⟨45, _⟩ => ⟨S_, .i32⟩
  | .hbm, ⟨46, _⟩ => ⟨S262144, .i32⟩
  | .hbm, ⟨47, _⟩ => ⟨S262144, .i32⟩
  | .hbm, ⟨48, _⟩ => ⟨S262144, .i32⟩
  | .hbm, ⟨49, _⟩ => ⟨S262144x1, .i32⟩
  | .hbm, ⟨50, _⟩ => ⟨S262144x1, .i32⟩
  | .hbm, ⟨51, _⟩ => ⟨S262144x2, .i32⟩
  | .hbm, ⟨52, _⟩ => ⟨S_, .f32⟩
  | .hbm, ⟨53, _⟩ => ⟨S262144, .f32⟩
  | .hbm, ⟨54, _⟩ => ⟨S8192x8192, .f32⟩
  | .hbm, ⟨55, _⟩ => ⟨S8192x8192, .i32⟩
  | .hbm, ⟨56, _⟩ => ⟨S8192x8192, .i32⟩
  | .hbm, ⟨57, _⟩ => ⟨S_, .i32⟩
  | .hbm, ⟨58, _⟩ => ⟨S8192x8192, .i32⟩
  | .hbm, ⟨59, _⟩ => ⟨S8192x8192, .i32⟩
  | .hbm, ⟨60, _⟩ => ⟨S8192x8192, .i1⟩
  | .hbm, ⟨61, _⟩ => ⟨S8192x8192, .f32⟩
  | .hbm, ⟨62, _⟩ => ⟨S8192x8192, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S8192x8192, .f32⟩
  | .hbm, ⟨70, _⟩ => ⟨S8192x8192, .f32⟩
  | .hbm, ⟨71, _⟩ => ⟨S8192x8192, .bf16⟩
  | .hbm, ⟨72, _⟩ => ⟨S1, .f32⟩
  | .hbm, ⟨73, _⟩ => ⟨S_, .f32⟩
  | .hbm, ⟨74, _⟩ => ⟨S8192x512, .f32⟩
  | .hbm, ⟨75, _⟩ => ⟨S8192x512, .f32⟩
  | .hbm, ⟨76, _⟩ => ⟨S8192x512, .bf16⟩
  | .hbm, ⟨77, _⟩ => ⟨S8192x512, .f32⟩
  | .hbm, ⟨78, _⟩ => ⟨S1, .f32⟩
  | .hbm, ⟨79, _⟩ => ⟨S_, .f32⟩
  | .hbm, ⟨80, _⟩ => ⟨S8192x512, .f32⟩
  | .hbm, ⟨81, _⟩ => ⟨S8192x512, .f32⟩
  | .hbm, ⟨82, _⟩ => ⟨S8192x512, .f32⟩
  | .hbm, ⟨83, _⟩ => ⟨S8192x512, .bf16⟩
  | .hbm, ⟨84, _⟩ => ⟨S8192x512, .f32⟩
  | .hbm, ⟨85, _⟩ => ⟨S1, .f32⟩
  | .hbm, ⟨86, _⟩ => ⟨S_, .f32⟩
  | .hbm, ⟨87, _⟩ => ⟨S8192x512, .f32⟩
  | .hbm, ⟨88, _⟩ => ⟨S8192x512, .f32⟩
  | .hbm, ⟨89, _⟩ => ⟨S8192x512, .f32⟩
  | .hbm, ⟨90, _⟩ => ⟨S8192x512, .bf16⟩
  | .hbm, ⟨91, _⟩ => ⟨S8192x512, .f32⟩
  | .hbm, ⟨92, _⟩ => ⟨S1, .f32⟩
  | .hbm, ⟨93, _⟩ => ⟨S_, .f32⟩
  | .hbm, ⟨94, _⟩ => ⟨S8192x512, .f32⟩
  | .hbm, ⟨95, _⟩ => ⟨S8192x512, .f32⟩
  | .hbm, ⟨96, _⟩ => ⟨S8192x512, .f32⟩
  | .hbm, ⟨97, _⟩ => ⟨S_, .f32⟩
  | .hbm, ⟨98, _⟩ => ⟨S8192x512, .f32⟩
  | .hbm, ⟨99, _⟩ => ⟨S8192x512, .f32⟩
  | .local _ .vmem, ⟨0, _⟩ => ⟨S2048x512, .bf16⟩
  | .local _ .vmem, ⟨1, _⟩ => ⟨S2048x512, .bf16⟩
  | .local _ .vmem, ⟨2, _⟩ => ⟨S512x512, .bf16⟩
  | .local _ .vmem, ⟨3, _⟩ => ⟨S1x512, .f32⟩
  | .local _ .vmem, ⟨4, _⟩ => ⟨S2048x512, .f32⟩
  | .local _ .vmem, ⟨5, _⟩ => ⟨S2048x512, .f32⟩
  | .local _ .vmem, ⟨6, _⟩ => ⟨S1024x2048, .bf16⟩
  | .local _ .vmem, ⟨7, _⟩ => ⟨S1024x2048, .bf16⟩
  | .local _ .vmem, ⟨8, _⟩ => ⟨S2048x512, .bf16⟩
  | .local _ .vmem, ⟨9, _⟩ => ⟨S2048x512, .bf16⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x2048, .bf16⟩
  | .local _ .vmem, ⟨14, _⟩ => ⟨S1024x2048, .bf16⟩
  | .local _ .vmem, ⟨15, _⟩ => ⟨S2048x512, .bf16⟩
  | .local _ .vmem, ⟨16, _⟩ => ⟨S2048x512, .bf16⟩
  | .local _ .vmem, ⟨17, _⟩ => ⟨S1024x512, .f32⟩
  | .local _ .vmem, ⟨18, _⟩ => ⟨S1024x512, .f32⟩
  | .local _ .vmem, ⟨19, _⟩ => ⟨S1024x512, .f32⟩
  | .local _ .vmem, ⟨20, _⟩ => ⟨S1024x2048, .bf16⟩
  | .local _ .vmem, ⟨21, _⟩ => ⟨S1024x2048, .bf16⟩
  | .local _ .vmem, ⟨22, _⟩ => ⟨S2048x512, .bf16⟩
  | .local _ .vmem, ⟨23, _⟩ => ⟨S2048x512, .bf16⟩
  | .local _ .vmem, ⟨24, _⟩ => ⟨S1024x512, .f32⟩
  | .local _ .vmem, ⟨25, _⟩ => ⟨S1024x512, .f32⟩
  | .local _ .vmem, ⟨26, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_v25 : Ref sig .tc := ⟨.hbm, 37, rfl⟩
abbrev main_c_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_6 : Ref sig .tc := ⟨.hbm, 42, rfl⟩
abbrev main_v29 : Ref sig .tc := ⟨.hbm, 43, rfl⟩
abbrev main_v30 : Ref sig .tc := ⟨.hbm, 44, rfl⟩
abbrev main_c_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_9 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_call0_cst : Ref sig .tc := ⟨.hbm, 97, rfl⟩
abbrev main_call0_v0 : Ref sig .tc := ⟨.hbm, 98, rfl⟩
abbrev main_v78 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_scratch0 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_scratch0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![8, 4], ![false, false]⟩

def k2_cond2 (i : grid2.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![8, 4], ![false, false]⟩

def k3_cond2 (i : grid3.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

class Facts₀ : Prop where
  bitsLt_bf16_f32 : FTy.bits .bf16 < FTy.bits .f32
  shapeCasts_S512_S1x512 : S512.ShapeCasts S1x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S8192x8192 : S_.BroadcastsInDim S8192x8192 (![] : Fin 0 → Fin S8192x8192.rank)
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x8192_0_1 : S8192x1.BroadcastsInDim S8192x8192 (![0, 1] : Fin 2 → Fin S8192x8192.rank)
  slices_S4_S1_0 : S4.Slices ![0] S1
  shapeCasts_S1_S_ : S1.ShapeCasts S_
  bcast_S_S8192x512 : S_.BroadcastsInDim S8192x512 (![] : Fin 0 → Fin S8192x512.rank)
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  slices_S4_S1_1 : S4.Slices ![1] S1
  slices_S4_S1_2 : S4.Slices ![2] S1
  slices_S4_S1_3 : S4.Slices ![3] S1
  dot_S2048x512_S512x512_S2048x512_1_0_0_1_n_n_wf : DotDims.WF S2048x512 S512x512 S2048x512 [1] [0] [0] [1] [] []
  scatter_S8192x8192_S262144x2_S262144_n_01_01_1_wf : ScatterDims.WF S8192x8192 S262144x2 S262144 [] [0, 1] [0, 1] 1
  dot_S1024x2048_S2048x512_S1024x512_1_0_0_1_n_n_wf : DotDims.WF S1024x2048 S2048x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x512.size a
  hwx0_0 : ∀ i : grid0.Coords, EltTy.bits .bf16 = 32 ∨ (Rect.block (s := S8192x512) S2048x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S8192x512.size a
  hwx0_3 : ∀ i : grid0.Coords, EltTy.bits .f32 = 32 ∨ (Rect.block (s := S8192x512) S2048x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .bf16 = 32 ∨ (Rect.block (s := S8192x8192) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S8192x512.size a
  hwx1_1 : ∀ i : grid1.Coords, EltTy.bits .bf16 = 32 ∨ (Rect.block (s := S8192x512) S2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S8192x512.size a
  hwx1_2 : ∀ i : grid1.Coords, EltTy.bits .f32 = 32 ∨ (Rect.block (s := S8192x512) S1024x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S8192x8192.size a
  hwx2_0 : ∀ i : grid2.Coords, EltTy.bits .bf16 = 32 ∨ (Rect.block (s := S8192x8192) S1024x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x512.size a ≤ S8192x512.size a
  hwx2_1 : ∀ i : grid2.Coords, EltTy.bits .bf16 = 32 ∨ (Rect.block (s := S8192x512) S2048x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x512.size a ≤ S8192x512.size a
  hwx2_2 : ∀ i : grid2.Coords, EltTy.bits .f32 = 32 ∨ (Rect.block (s := S8192x512) S1024x512.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x2048.size a ≤ S8192x8192.size a
  hwx3_0 : ∀ i : grid3.Coords, EltTy.bits .bf16 = 32 ∨ (Rect.block (s := S8192x8192) S1024x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x512.size a ≤ S8192x512.size a
  hwx3_1 : ∀ i : grid3.Coords, EltTy.bits .bf16 = 32 ∨ (Rect.block (s := S8192x512) S2048x512.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x512.size a ≤ S8192x512.size a
  hwx3_2 : ∀ i : grid3.Coords, EltTy.bits .f32 = 32 ∨ (Rect.block (s := S8192x512) S1024x512.size (cc3_transform_2 i) (hinb3_2 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v52) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v57) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v58) S1024x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v52) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S2048x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v65) S1024x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v52) S1024x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v71) S2048x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v72) S1024x512.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

class Facts : Prop extends Facts₀ where

variable [Facts]
-- ==== ReferenceIdeal.lean ====
abbrev S8192x512 : Shape := ⟨2, ![8192, 512]⟩
abbrev S2x262144 : Shape := ⟨2, ![2, 262144]⟩
abbrev S512x512 : Shape := ⟨2, ![512, 512]⟩
abbrev S512 : Shape := ⟨1, ![512]⟩
abbrev S4 : Shape := ⟨1, ![4]⟩
abbrev S1x512 : Shape := ⟨2, ![1, 512]⟩
abbrev S1x262144 : Shape := ⟨2, ![1, 262144]⟩
abbrev S262144 : Shape := ⟨1, ![262144]⟩
abbrev S_ : Shape := ⟨0, ![]⟩
abbrev S8192x8192 : Shape := ⟨2, ![8192, 8192]⟩
abbrev S262144x1 : Shape := ⟨2, ![262144, 1]⟩
abbrev S262144x2 : Shape := ⟨2, ![262144, 2]⟩
abbrev S8192 : Shape := ⟨1, ![8192]⟩
abbrev S8192x1 : Shape := ⟨2, ![8192, 1]⟩
abbrev S1 : Shape := ⟨1, ![1]⟩

abbrev nBuf : Space → Nat
  | .hbm => 96
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S2x262144, .i32⟩
  | .hbm, ⟨2, _⟩ => ⟨S512x512, .f32⟩
  | .hbm, ⟨3, _⟩ => ⟨S512, .f32⟩
  | .hbm, ⟨4, _⟩ => ⟨S4, .f32⟩
  | .hbm, ⟨5, _⟩ => ⟨S8192x512, .f32⟩
  | .hbm, ⟨6, _⟩ => ⟨S1x512, .f32⟩
  | .hbm, ⟨7, _⟩ => ⟨S8192x512, .f32⟩
  | .hbm, ⟨8, _⟩ => ⟨S8192x512, .f32⟩
  | .hbm, ⟨9, _⟩ => ⟨S1x262144, .i32⟩
  | .hbm, ⟨10, _⟩ => ⟨S262144, .i32⟩
  | .hbm, ⟨11, _⟩ => ⟨S1x262144, .i32⟩
  | .hbm, ⟨12, _⟩ => ⟨S262144, .i32⟩
  | .hbm, ⟨13, _⟩ => ⟨S_, .f32⟩
  | .hbm, ⟨14, _⟩ => ⟨S8192x8192, .f32⟩
  | .hbm, ⟨15, _⟩ => ⟨S_, .i32⟩
  | .hbm, ⟨16, _⟩ => ⟨S262144, .i32⟩
  | .hbm, ⟨17, _⟩ => ⟨S262144, .i1⟩
  | .hbm, ⟨18, _⟩ => ⟨S_, .i32⟩
  | .hbm, ⟨19, _⟩ => ⟨S262144, .i32⟩
  | .hbm, ⟨20, _⟩ => ⟨S262144, .i32⟩
  | .hbm, ⟨21, _⟩ => ⟨S262144, .i32⟩
  | .hbm, ⟨22, _⟩ => ⟨S_, .i32⟩
  | .hbm, ⟨23, _⟩ => ⟨S262144, .i32⟩
  | .hbm, ⟨24, _⟩ => ⟨S262144, .i1⟩
  | .hbm, ⟨25, _⟩ => ⟨S_, .i32⟩
  | .hbm, ⟨26, _⟩ => ⟨S262144, .i32⟩
  | .hbm, ⟨27, _⟩ => ⟨S262144, .i32⟩
  | .hbm, ⟨28, _⟩ => ⟨S262144, .i32⟩
  | .hbm, ⟨29, _⟩ => ⟨S262144x1, .i32⟩
  | .hbm, ⟨30, _⟩ => ⟨S262144x1, .i32⟩
  | .hbm, ⟨31, _⟩ => ⟨S262144x2, .i32⟩
  | .hbm, ⟨32, _⟩ => ⟨S_, .f32⟩
  | .hbm, ⟨33, _⟩ => ⟨S262144, .f32⟩
  | .hbm, ⟨34, _⟩ => ⟨S8192x8192, .f32⟩
  | .hbm, ⟨35, _⟩ => ⟨S_, .i32⟩
  | .hbm, ⟨36, _⟩ => ⟨S262144, .i32⟩
  | .hbm, ⟨37, _⟩ => ⟨S262144, .i1⟩
  | .hbm, ⟨38, _⟩ => ⟨S_, .i32⟩
  | .hbm, ⟨39, _⟩ => ⟨S262144, .i32⟩
  | .hbm, ⟨40, _⟩ => ⟨S262144, .i32⟩
  | .hbm, ⟨41, _⟩ => ⟨S262144, .i32⟩
  | .hbm, ⟨42, _⟩ => ⟨S_, .i32⟩
  | .hbm, ⟨43, _⟩ => ⟨S262144, .i32⟩
  | .hbm, ⟨44, _⟩ => ⟨S262144, .i1⟩
  | .hbm, ⟨45, _⟩ => ⟨S_, .i32⟩
  | .hbm, ⟨46, _⟩ => ⟨S262144, .i32⟩
  | .hbm, ⟨47, _⟩ => ⟨S262144, .i32⟩
  | .hbm, ⟨48, _⟩ => ⟨S262144, .i32⟩
  | .hbm, ⟨49, _⟩ => ⟨S262144x1, .i32⟩
  | .hbm, ⟨50, _⟩ => ⟨S262144x1, .i32⟩
  | .hbm, ⟨51, _⟩ => ⟨S262144x2, .i32⟩
  | .hbm, ⟨52, _⟩ => ⟨S_, .f32⟩
  | .hbm, ⟨53, _⟩ => ⟨S262144, .f32⟩
  | .hbm, ⟨54, _⟩ => ⟨S8192x8192, .f32⟩
  | .hbm, ⟨55, _⟩ => ⟨S8192x8192, .i32⟩
  | .hbm, ⟨56, _⟩ => ⟨S8192x8192, .i32⟩
  | .hbm, ⟨57, _⟩ => ⟨S_, .i32⟩
  | .hbm, ⟨58, _⟩ => ⟨S8192x8192, .i32⟩
  | .hbm, ⟨59, _⟩ => ⟨S8192x8192, .i32⟩
  | .hbm, ⟨60, _⟩ => ⟨S8192x8192, .i1⟩
  | .hbm, ⟨61, _⟩ => ⟨S8192x8192, .f32⟩
  | .hbm, ⟨62, _⟩ => ⟨S8192x8192, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S8192x8192, .f32⟩
  | .hbm, ⟨70, _⟩ => ⟨S8192x8192, .f32⟩
  | .hbm, ⟨71, _⟩ => ⟨S1, .f32⟩
  | .hbm, ⟨72, _⟩ => ⟨S_, .f32⟩
  | .hbm, ⟨73, _⟩ => ⟨S8192x512, .f32⟩
  | .hbm, ⟨74, _⟩ => ⟨S8192x512, .f32⟩
  | .hbm, ⟨75, _⟩ => ⟨S8192x512, .f32⟩
  | .hbm, ⟨76, _⟩ => ⟨S1, .f32⟩
  | .hbm, ⟨77, _⟩ => ⟨S_, .f32⟩
  | .hbm, ⟨78, _⟩ => ⟨S8192x512, .f32⟩
  | .hbm, ⟨79, _⟩ => ⟨S8192x512, .f32⟩
  | .hbm, ⟨80, _⟩ => ⟨S8192x512, .f32⟩
  | .hbm, ⟨81, _⟩ => ⟨S8192x512, .f32⟩
  | .hbm, ⟨82, _⟩ => ⟨S1, .f32⟩
  | .hbm, ⟨83, _⟩ => ⟨S_, .f32⟩
  | .hbm, ⟨84, _⟩ => ⟨S8192x512, .f32⟩
  | .hbm, ⟨85, _⟩ => ⟨S8192x512, .f32⟩
  | .hbm, ⟨86, _⟩ => ⟨S8192x512, .f32⟩
  | .hbm, ⟨87, _⟩ => ⟨S8192x512, .f32⟩
  | .hbm, ⟨88, _⟩ => ⟨S1, .f32⟩
  | .hbm, ⟨89, _⟩ => ⟨S_, .f32⟩
  | .hbm, ⟨90, _⟩ => ⟨S8192x512, .f32⟩
  | .hbm, ⟨91, _⟩ => ⟨S8192x512, .f32⟩
  | .hbm, ⟨92, _⟩ => ⟨S8192x512, .f32⟩
  | .hbm, ⟨93, _⟩ => ⟨S_, .f32⟩
  | .hbm, ⟨94, _⟩ => ⟨S8192x512, .f32⟩
  | .hbm, ⟨95, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_v25 : Ref sig .tc := ⟨.hbm, 37, rfl⟩
abbrev main_c_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_6 : Ref sig .tc := ⟨.hbm, 42, rfl⟩
abbrev main_v29 : Ref sig .tc := ⟨.hbm, 43, rfl⟩
abbrev main_v30 : Ref sig .tc := ⟨.hbm, 44, rfl⟩
abbrev main_c_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_9 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_call0_cst : Ref sig .tc := ⟨.hbm, 93, rfl⟩
abbrev main_call0_v0 : Ref sig .tc := ⟨.hbm, 94, rfl⟩
abbrev main_v74 : Ref sig .tc := ⟨.hbm, 95, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S8192x8192 : S_.BroadcastsInDim S8192x8192 (![] : Fin 0 → Fin S8192x8192.rank)
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x8192_0_1 : S8192x1.BroadcastsInDim S8192x8192 (![0, 1] : Fin 2 → Fin S8192x8192.rank)
  slices_S4_S1_0 : S4.Slices ![0] S1
  shapeCasts_S1_S_ : S1.ShapeCasts S_
  bcast_S_S8192x512 : S_.BroadcastsInDim S8192x512 (![] : Fin 0 → Fin S8192x512.rank)
  slices_S4_S1_1 : S4.Slices ![1] S1
  slices_S4_S1_2 : S4.Slices ![2] S1
  slices_S4_S1_3 : S4.Slices ![3] S1
  dot_S8192x512_S512x512_S8192x512_1_0_0_1_n_n_wf : DotDims.WF S8192x512 S512x512 S8192x512 [1] [0] [0] [1] [] []
  scatter_S8192x8192_S262144x2_S262144_n_01_01_1_wf : ScatterDims.WF S8192x8192 S262144x2 S262144 [] [0, 1] [0, 1] 1
  dot_S8192x8192_S8192x512_S8192x512_1_0_0_1_n_n_wf : DotDims.WF S8192x8192 S8192x512 S8192x512 [1] [0] [0] [1] [] []

variable [Facts₀]

def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf

class Facts : Prop extends Facts₀ where

variable [Facts]
-- ==== Proof.BitsLinear.lean ====
/-
  Region 0 of the kernel program as printed: the linear layer, one pallas_call on a grid of 4 row blocks.
  At point t the body reads the 2048x512 block t of the (already narrowed) input matrix, the whole 512x512
  weight matrix and the 1x512 bias row, and stores the block  x_t · W + b  (bias repeated down the rows) into
  the output's staging buffer, which the pipeline writes back as row block t of the 8192x512 result.
  Stated at any float instance F, at a parameter V: the contents of the core's buffers when the region is entered.
-/
import proofs.«122622_j10385230921953_1_alg».proof.Proof.Gen.Kernel.Launch
import proofs.«122622_j10385230921953_1_alg».proof.Proof.Gen.Kernel.Skeleton
import proofs.«122622_j10385230921953_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangle of the output's 2048x512 staging buffer. -/
abbrev rOut0 : Rect S2048x512 := Rect.unit (s := S2048x512) ![0, 0] S2048x512.size inb_S2048x512_S2048x512_0_0

/-- What the body leaves in the output's staging buffer: its one store, of the product-plus-bias block. -/
def out0 (x : Vec F S2048x512 .bf16) (w : Vec F S512x512 .bf16) (b : Vec F S1x512 .f32) : Vec F S2048x512 .f32 :=
  k0_pay1 x w b

theorem hz2 : (![0, 0] : Fin 2 → Nat) = fun _ => 0 := by funext a; fin_cases a <;> rfl

theorem cover_out0 (p0 : Vec F S2048x512 .f32) (y : S2048x512.Idx) :
    ∃ pc ∈ ([⟨rOut0, p0⟩] : List (View.Piece (Elt F) S2048x512 .f32)), y ∈ pc.1.set :=
  View.cover_of_tiled [⟨rOut0, p0⟩] S2048x512.size (by rfl) y

set_option maxHeartbeats 1000000 in
/-- The body on whole staging memrefs: the three inputs are read and left as they were, the output's buffer
    ends at out0 of them. -/
theorem sound_kernel0 (c : Dev nD) (E : Set ℕ) (i : grid0.Coords)
    (arg1 : Memref sig .tc .vmem S2048x512 .bf16) (harg1 : arg1.IsWhole) (arg2 : Memref sig .tc .vmem S512x512 .bf16) (harg2 : arg2.IsWhole)
    (arg3 : Memref sig .tc .vmem S1x512 .f32) (harg3 : arg3.IsWhole) (arg4 : Memref sig .tc .vmem S2048x512 .f32) (harg4 : arg4.IsWhole)
    (x : Vec F S2048x512 .bf16) (w : Vec F S512x512 .bf16) (b : Vec F S1x512 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (out0 x w b)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (cover_out0 (F := F) _), View.canon_unit_zero hz2]
  unfold out0
  simp only [View.readAt_eq_ld, View.ld_unit_zero (S := S2048x512) hz2, View.ld_unit_zero (S := S512x512) hz2, View.ld_unit_zero (S := S1x512) hz2]

/-! ## The proof data of the pipeline -/

/-- Each input window's current staging buffer holds its block at every point, fetched there or not, for any proof
    data whose array is V's and whose body leaves the block in place (the window is uncut and never idle). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The proof data of pipeline 0 on core c: the arrays as the region finds them; after the body at point t each
    input's buffer at its block and the output's at out0 of the three input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

/-! ## The invariant at the region's two ends: it is the plain one throughout -/

theorem hin0 (c : Dev nD) : Pipeline.ΦA spec0 c ⊢ (dat0 V c).Φ 0 := .rfl
theorem hout0 (c : Dev nD) : (dat0 V c).Φ (Fin.last cfg0.N) ⊢ Pipeline.ΦA spec0 c := .rfl

end Cert.Kernel.Hand

end
-- ==== Proof.BitsDiff1.lean ====
/-
  Region 1 of the kernel program as printed: one diffusion hop, the product of the 8192x8192 normalized adjacency with
  an 8192x512 matrix, on a grid of 8 row blocks by 4 column stretches. At point (i, k) the body reads the 1024x2048
  block (i, k) of the adjacency and the 2048x512 block k of the right factor. A scratch accumulator carried between
  the points is reset to zero where k = 0, the block product is added to it at every point, and where k = 3 the
  accumulator is copied into the output's staging buffer, which the pipeline writes back as row block i.
  Stated at any float instance F, at a parameter V: the contents of the core's buffers when the region is entered.
-/
import proofs.«122622_j10385230921953_1_alg».proof.Proof.Gen.Kernel.Launch
import proofs.«122622_j10385230921953_1_alg».proof.Proof.Gen.Kernel.Skeleton
import proofs.«122622_j10385230921953_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, for any proof data whose array is V's and
    whose body leaves the block in place (the window is uncut and never idle). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, decided over the grid -/

/-- The reset branch is taken where the second grid coordinate is 0. -/
abbrev condZ1 (i : grid1.Coords) : Prop := (Scalar.cmpi .ne (Scalar.extui (Scalar.cmpi .eq (BitVec.ofNat 32 (i 1).val) 0#32)) 0#32) = 1#1
theorem hcondZ1 : ∀ t : Fin cfg1.N, condZ1 (grid1.coords t) ↔ t.val % 4 = 0 :=
  (by decide +kernel : ∀ t : Fin grid1.N, condZ1 (grid1.coords t) ↔ t.val % 4 = 0)
/-- The copy-out branch is taken where the second grid coordinate is 3. -/
abbrev condL1 (i : grid1.Coords) : Prop := k1_cond2 i = 1#1
theorem hcondL1 : ∀ t : Fin cfg1.N, condL1 (grid1.coords t) ↔ t.val % 4 = 3 :=
  (by decide +kernel : ∀ t : Fin grid1.N, condL1 (grid1.coords t) ↔ t.val % 4 = 3)

/-- Where the copy-out branch is not taken the output window is idle and is not written back; where it is taken the
    window is live. -/
theorem idleAt1 : ∀ t : Fin grid1.N, ¬condL1 (grid1.coords t) → idle1 2 (grid1.coords t) = true := by decide +kernel
theorem noFlush1 : ∀ t : Fin grid1.N, ¬condL1 (grid1.coords t) → (win1 2).flush t = false := by decide +kernel
theorem liveAt1 : ∀ t : Fin grid1.N, condL1 (grid1.coords t) → idle1 2 (grid1.coords t) = false := by decide +kernel

/-! ## The body's triple, case by case -/

theorem hz2_1 : (![0, 0] : Fin 2 → Nat) = fun _ => 0 := by funext a; fin_cases a <;> rfl

/-- The scratch accumulator as a memref: a whole scoped buffer of the kernel's own. -/
abbrev sc1 : Memref sig .tc .vmem S1024x512 .f32 := Memref.whole cc1_scratch0

set_option maxHeartbeats 2000000 in
/-- First stretch of a row block (k = 0): the accumulator is reset and the block product added; the output's buffer is
    not touched. -/
theorem sound_kernel1_A (c : Dev nD) (E : Set ℕ) (i : grid1.Coords) (hc0 : condZ1 i) (hc1 : ¬condL1 i)
    (arg2 : Memref sig .tc .vmem S1024x2048 .bf16) (harg2 : arg2.IsWhole) (arg3 : Memref sig .tc .vmem S2048x512 .bf16) (harg3 : arg3.IsWhole)
    (arg4 : Memref sig .tc .vmem S1024x512 .f32) (harg4 : arg4.IsWhole) (arg5 : Memref sig .tc .vmem S1024x512 .f32) (harg5 : arg5.IsWhole)
    (x : Vec F S1024x2048 .bf16) (y : Vec F S2048x512 .bf16) (o : Vec F S1024x512 .f32) (K : PUnit → sProp 𝕄) :
    iprop(owns (c : Thread nD τ) arg2 fullShare x ∗ owns (c : Thread nD τ) arg3 fullShare y ∗ owns (c : Thread nD τ) arg4 fullShare o
        ∗ (∃ d, owns (c : Thread nD τ) arg5 fullShare d)
        ∗ (iprop(owns (c : Thread nD τ) arg2 fullShare x ∗ owns (c : Thread nD τ) arg3 fullShare y ∗ owns (c : Thread nD τ) arg4 fullShare o
            ∗ owns (c : Thread nD τ) arg5 fullShare (k1_pay2 (k1_pay1 (F := F)) x y)) -∗ K ⟨⟩))
      ⊢ wp frame (wpE (defs₀ (F := F)) Variants.none c none) E (cc1__diff_kernel i arg2 harg2 arg3 harg3 arg4 harg4 arg5 harg5) K := by
  simp only [cc1__diff_kernel_eq_skeleton]; unfold cc1__diff_kernel_skel
  unfold owns
  iintro ⟨⟨%f2, %hf2, H2⟩, ⟨%f3, %hf3, H3⟩, ⟨%f4, %hf4, H4⟩, ⟨%d5, %f5, -, H5⟩, Hk⟩
  subst hf2; subst hf3; subst hf4
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (fun y => ⟨_, List.mem_cons_self .., View.mem_set_unit_zero hz2_1 inb_S1024x512_S1024x512_0_0 y⟩),
    View.canon_cons_unit_zero hz2_1]
  sl_unfold_words
  rw [View.readCov_unit_zero _ hz2_1]
  simp only [View.readAt_eq_ld, View.ld_unit_zero (S := S1024x2048) hz2_1, View.ld_unit_zero (S := S2048x512) hz2_1]

set_option maxHeartbeats 2000000 in
/-- A middle stretch (k = 1, 2): the block product is added to what the accumulator held; the output's buffer is not
    touched. -/
theorem sound_kernel1_B (c : Dev nD) (E : Set ℕ) (i : grid1.Coords) (hc0 : ¬condZ1 i) (hc1 : ¬condL1 i)
    (arg2 : Memref sig .tc .vmem S1024x2048 .bf16) (harg2 : arg2.IsWhole) (arg3 : Memref sig .tc .vmem S2048x512 .bf16) (harg3 : arg3.IsWhole)
    (arg4 : Memref sig .tc .vmem S1024x512 .f32) (harg4 : arg4.IsWhole) (arg5 : Memref sig .tc .vmem S1024x512 .f32) (harg5 : arg5.IsWhole)
    (x : Vec F S1024x2048 .bf16) (y : Vec F S2048x512 .bf16) (o : Vec F S1024x512 .f32) (s : Vec F S1024x512 .f32) (K : PUnit → sProp 𝕄) :
    iprop(owns (c : Thread nD τ) arg2 fullShare x ∗ owns (c : Thread nD τ) arg3 fullShare y ∗ owns (c : Thread nD τ) arg4 fullShare o
        ∗ owns (c : Thread nD τ) arg5 fullShare s
        ∗ (iprop(owns (c : Thread nD τ) arg2 fullShare x ∗ owns (c : Thread nD τ) arg3 fullShare y ∗ owns (c : Thread nD τ) arg4 fullShare o
            ∗ owns (c : Thread nD τ) arg5 fullShare (k1_pay2 s x y)) -∗ K ⟨⟩))
      ⊢ wp frame (wpE (defs₀ (F := F)) Variants.none c none) E (cc1__diff_kernel i arg2 harg2 arg3 harg3 arg4 harg4 arg5 harg5) K := by
  simp only [cc1__diff_kernel_eq_skeleton]; unfold cc1__diff_kernel_skel
  unfold owns
  iintro ⟨⟨%f2, %hf2, H2⟩, ⟨%f3, %hf3, H3⟩, ⟨%f4, %hf4, H4⟩, ⟨%f5, %hf5, H5⟩, Hk⟩
  subst hf2; subst hf3; subst hf4; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (fun y => ⟨_, List.mem_cons_self .., View.mem_set_unit_zero hz2_1 inb_S1024x512_S1024x512_0_0 y⟩)]
  sl_unfold_words
  rw [View.canon_unit_zero hz2_1]
  simp only [View.readAt_eq_ld, View.ld_unit_zero (S := S1024x2048) hz2_1, View.ld_unit_zero (S := S2048x512) hz2_1, View.ld_unit_zero (S := S1024x512) hz2_1]

set_option maxHeartbeats 2000000 in
/-- Last stretch (k = 3): the block product is added to what the accumulator held, and the sum is also left in the
    output's buffer. -/
theorem sound_kernel1_C (c : Dev nD) (E : Set ℕ) (i : grid1.Coords) (hc0 : ¬condZ1 i) (hc1 : condL1 i)
    (arg2 : Memref sig .tc .vmem S1024x2048 .bf16) (harg2 : arg2.IsWhole) (arg3 : Memref sig .tc .vmem S2048x512 .bf16) (harg3 : arg3.IsWhole)
    (arg4 : Memref sig .tc .vmem S1024x512 .f32) (harg4 : arg4.IsWhole) (arg5 : Memref sig .tc .vmem S1024x512 .f32) (harg5 : arg5.IsWhole)
    (x : Vec F S1024x2048 .bf16) (y : Vec F S2048x512 .bf16) (s : Vec F S1024x512 .f32) (K : PUnit → sProp 𝕄) :
    iprop(owns (c : Thread nD τ) arg2 fullShare x ∗ owns (c : Thread nD τ) arg3 fullShare y ∗ (∃ d, owns (c : Thread nD τ) arg4 fullShare d)
        ∗ owns (c : Thread nD τ) arg5 fullShare s
        ∗ (iprop(owns (c : Thread nD τ) arg2 fullShare x ∗ owns (c : Thread nD τ) arg3 fullShare y ∗ owns (c : Thread nD τ) arg4 fullShare (k1_pay2 s x y)
            ∗ owns (c : Thread nD τ) arg5 fullShare (k1_pay2 s x y)) -∗ K ⟨⟩))
      ⊢ wp frame (wpE (defs₀ (F := F)) Variants.none c none) E (cc1__diff_kernel i arg2 harg2 arg3 harg3 arg4 harg4 arg5 harg5) K := by
  simp only [cc1__diff_kernel_eq_skeleton]; unfold cc1__diff_kernel_skel
  unfold owns
  iintro ⟨⟨%f2, %hf2, H2⟩, ⟨%f3, %hf3, H3⟩, ⟨%d4, %f4, -, H4⟩, ⟨%f5, %hf5, H5⟩, Hk⟩
  subst hf2; subst hf3; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (fun y => ⟨_, List.mem_cons_self .., View.mem_set_unit_zero hz2_1 inb_S1024x512_S1024x512_0_0 y⟩), View.canon_unit_zero hz2_1]
    sl_unfold_words
    rw [View.readCov_unit_zero _ hz2_1]
    simp only [View.readAt_eq_ld, View.ld_unit_zero (S := S1024x2048) hz2_1, View.ld_unit_zero (S := S2048x512) hz2_1, View.ld_unit_zero (S := S1024x512) hz2_1]
  iexists _; isplitr
  swap; · iexact H5
  ipureintro
  sl_unfold_words
  rw [View.read_writes_eq_canon _ _ _ (fun y => ⟨_, List.mem_cons_self .., View.mem_set_unit_zero hz2_1 inb_S1024x512_S1024x512_0_0 y⟩)]
  rw [View.canon_unit_zero hz2_1]
  simp only [View.readAt_eq_ld, View.ld_unit_zero (S := S1024x2048) hz2_1, View.ld_unit_zero (S := S2048x512) hz2_1, View.ld_unit_zero (S := S1024x512) hz2_1]

/-! ## What the accumulator holds after each point -/

/-- The accumulator after point n: from zero where a row block's run begins (n a multiple of 4), else from what the
    point before left, the point's block product added. -/
def acc1 (c : Dev nD) : (n : ℕ) → n < cfg1.N → Vec F S1024x512 .f32
  | 0, h => k1_pay2 (k1_pay1 (F := F)) (iblk1 V c 0 ⟨0, h⟩) (iblk1 V c 1 ⟨0, h⟩)
  | n + 1, h =>
    if (n + 1) % 4 = 0 then k1_pay2 (k1_pay1 (F := F)) (iblk1 V c 0 ⟨n + 1, h⟩) (iblk1 V c 1 ⟨n + 1, h⟩)
    else k1_pay2 (acc1 c n (Nat.lt_of_succ_lt h)) (iblk1 V c 0 ⟨n + 1, h⟩) (iblk1 V c 1 ⟨n + 1, h⟩)

theorem acc1_reset (c : Dev nD) (t : Fin cfg1.N) (h : t.val % 4 = 0) :
    acc1 V c t.val t.isLt = k1_pay2 (k1_pay1 (F := F)) (iblk1 V c 0 t) (iblk1 V c 1 t) := by
  obtain ⟨n, hn⟩ := t
  cases n with
  | zero => rfl
  | succ n => simp only [acc1, if_pos h]

theorem acc1_step (c : Dev nD) (t : Fin cfg1.N) (h : ¬t.val % 4 = 0) :
    acc1 V c t.val t.isLt = k1_pay2 (acc1 V c (t.val - 1) (Nat.lt_of_le_of_lt (Nat.sub_le _ _) t.isLt)) (iblk1 V c 0 t) (iblk1 V c 1 t) := by
  obtain ⟨n, hn⟩ := t
  cases n with
  | zero => exact absurd rfl h
  | succ n => simp only [acc1, if_neg h]; rfl

/-! ## The invariant carried between the points -/

theorem scratch_mem1 : ([cc1_scratch0] : List (Ref sig .tc)).Forall fun b =>
    b.isScoped = true ∧ ∀ (w : Fin 3) (s : Fin (spec1 w).nbuf), ((spec1 w).stage s).view.ref ≠ b := by decide

/-- The region's plain invariant with the accumulator split off: the accumulator at some contents, the core's other
    scoped buffers unopened, the generator register at some state. -/
theorem PhiA1_eq (c : Dev nD) :
    (Pipeline.ΦA spec1 c : sProp 𝕄)
      = iprop(((∃ d, owns (c : Thread nD τ) sc1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] scratch_mem1 (by decide)]
  simp only [Idealize.SL.BI.bigSepL_singleton, sc1, owns_whole]; try rfl

/-- Before point 0 the plain invariant; after point n the same with the accumulator at acc1 n. -/
def Phi1 (c : Dev nD) : (n : ℕ) → n ≤ cfg1.N → sProp 𝕄
  | 0, _ => Pipeline.ΦA spec1 c
  | n + 1, h => iprop((owns (c : Thread nD τ) sc1 fullShare (acc1 V c n h)
      ∗ Pipeline.scopedRestBut (Ix := Unit) (Name := ℕ) (U := UR sig nD τ) (Lvl := ℕ) (Val := Elt F) spec1 c [cc1_scratch0]) ∗ (∃ r, prngReg c r))

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop((owns (c : Thread nD τ) sc1 fullShare (acc1 V c n hn)
      ∗ Pipeline.scopedRestBut (Ix := Unit) (Name := ℕ) (U := UR sig nD τ) (Lvl := ℕ) (Val := Elt F) spec1 c [cc1_scratch0]) ∗ (∃ r, prngReg c r)) := rfl
theorem Phi1_pos (c : Dev nD) (n : ℕ) (h : n ≤ cfg1.N) (hz : n ≠ 0) :
    Phi1 V c n h = iprop((owns (c : Thread nD τ) sc1 fullShare (acc1 V c (n - 1) (by omega))
      ∗ Pipeline.scopedRestBut (Ix := Unit) (Name := ℕ) (U := UR sig nD τ) (Lvl := ℕ) (Val := Elt F) spec1 c [cc1_scratch0]) ∗ (∃ r, prngReg c r)) := by
  obtain ⟨k, rfl⟩ := Nat.exists_eq_succ_of_ne_zero hz
  rfl

/-! ## The proof data of the pipeline -/

/-- The arrays as the region finds them; after the body at point t the two inputs' buffers at their blocks and the
    output's at the accumulator (stated at every point, read only where the window is written back: the last stretch
    of each row block); the invariant Phi1; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem Phi1_castSucc (c : Dev nD) (t : Fin cfg1.N) :
    (dat1 V c).Φ t.castSucc = Phi1 V c t.val (Nat.le_of_lt t.isLt) := rfl

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ (match cfg1.idle 2 (cfg1.grid.coords t) with
        | true =>
          match (cfg1.win 2).flush t with
          | false => iprop(∃ d, owns (c : Thread nD τ) (st1_2 t) fullShare ((dat1 V c).before 2 t d))
          | true => owns (c : Thread nD τ) (st1_2 t) fullShare ((dat1 V c).after 2 t)
        | false => owns (c : Thread nD τ) (st1_2 t) fullShare ((dat1 V c).after 2 t)))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = Phi1 V c (t.val + 1) t.isLt from rfl, Phi1_succ,
    show (dat1 V c).owesAt () t.succ = (dat1 V c).owesAt () t.castSucc from rfl,
    after1_0, after1_1, after1_2, Phi1_castSucc]
  by_cases h0 : t.val % 4 = 0
  · -- the first stretch of a row block
    have hc0 : condZ1 (grid1.coords t) := (hcondZ1 t).mpr h0
    have hc1 : ¬condL1 (grid1.coords t) := fun h => by have := (hcondL1 t).mp h; omega
    rw [acc1_reset V c t h0, idleAt1 t hc1]
    simp only [noFlush1 t hc1]
    by_cases hz : t.val = 0
    · rw [Phi1_zero V c _ _ hz, PhiA1_eq]
      iintro ⟨⟨⟨HS, Hr⟩, Hp⟩, Ho, ⟨%d0, H0⟩, ⟨%d1, H1⟩, ⟨%d2, H2⟩⟩
      iapply (sound_kernel1_A c Set.univ _ hc0 hc1 _ _ _ _ _ _ _ _ (iblk1 V c 0 t) (iblk1 V c 1 t) _ _)
      isplitl [H0]; · iexact H0
      isplitl [H1]; · iexact H1
      isplitl [H2]; · iexact H2
      isplitl [HS]; · iexact HS
      iintro ⟨H0, H1, H2, HS⟩
      isplitl [HS Hr Hp]
      · isplitl [HS Hr]
        · isplitl [HS]; · iexact HS
          iexact Hr
        iexact Hp
      isplitl [Ho]; · iexact Ho
      isplitl [H0]; · iexact H0
      isplitl [H1]; · iexact H1
      iexists _; iexact H2
    · rw [Phi1_pos V c _ _ hz]
      iintro ⟨⟨⟨HS, Hr⟩, Hp⟩, Ho, ⟨%d0, H0⟩, ⟨%d1, H1⟩, ⟨%d2, H2⟩⟩
      iapply (sound_kernel1_A c Set.univ _ hc0 hc1 _ _ _ _ _ _ _ _ (iblk1 V c 0 t) (iblk1 V c 1 t) _ _)
      isplitl [H0]; · iexact H0
      isplitl [H1]; · iexact H1
      isplitl [H2]; · iexact H2
      isplitl [HS]; · iexists _; iexact HS
      iintro ⟨H0, H1, H2, HS⟩
      isplitl [HS Hr Hp]
      · isplitl [HS Hr]
        · isplitl [HS]; · iexact HS
          iexact Hr
        iexact Hp
      isplitl [Ho]; · iexact Ho
      isplitl [H0]; · iexact H0
      isplitl [H1]; · iexact H1
      iexists _; iexact H2
  · have hc0 : ¬condZ1 (grid1.coords t) := fun h => h0 ((hcondZ1 t).mp h)
    have hz : t.val ≠ 0 := fun h => h0 (by rw [h])
    rw [Phi1_pos V c _ _ hz, acc1_step V c t h0]
    by_cases h3 : t.val % 4 = 3
    · -- the last stretch: the sum is also left in the output's buffer
      have hc1 : condL1 (grid1.coords t) := (hcondL1 t).mpr h3
      rw [liveAt1 t hc1]
      iintro ⟨⟨⟨HS, Hr⟩, Hp⟩, Ho, ⟨%d0, H0⟩, ⟨%d1, H1⟩, ⟨%d2, H2⟩⟩
      iapply (sound_kernel1_C c Set.univ _ hc0 hc1 _ _ _ _ _ _ _ _ (iblk1 V c 0 t) (iblk1 V c 1 t) _ _)
      isplitl [H0]; · iexact H0
      isplitl [H1]; · iexact H1
      isplitl [H2]; · iexists _; iexact H2
      isplitl [HS]; · iexact HS
      iintro ⟨H0, H1, H2, HS⟩
      isplitl [HS Hr Hp]
      · isplitl [HS Hr]
        · isplitl [HS]; · iexact HS
          iexact Hr
        iexact Hp
      isplitl [Ho]; · iexact Ho
      isplitl [H0]; · iexact H0
      isplitl [H1]; · iexact H1
      iexact H2
    · -- a middle stretch
      have hc1 : ¬condL1 (grid1.coords t) := fun h => h3 ((hcondL1 t).mp h)
      rw [idleAt1 t hc1]
      simp only [noFlush1 t hc1]
      iintro ⟨⟨⟨HS, Hr⟩, Hp⟩, Ho, ⟨%d0, H0⟩, ⟨%d1, H1⟩, ⟨%d2, H2⟩⟩
      iapply (sound_kernel1_B c Set.univ _ hc0 hc1 _ _ _ _ _ _ _ _ (iblk1 V c 0 t) (iblk1 V c 1 t) _ _ _)
      isplitl [H0]; · iexact H0
      isplitl [H1]; · iexact H1
      isplitl [H2]; · iexact H2
      isplitl [HS]; · iexact HS
      iintro ⟨H0, H1, H2, HS⟩
      isplitl [HS Hr Hp]
      · isplitl [HS Hr]
        · isplitl [HS]; · iexact HS
          iexact Hr
        iexact Hp
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

/-! ## The invariant at the region's two ends -/

theorem hin1 (c : Dev nD) : Pipeline.ΦA spec1 c ⊢ (dat1 V c).Φ 0 := .rfl

theorem hout1 (c : Dev nD) : (dat1 V c).Φ (Fin.last cfg1.N) ⊢ Pipeline.ΦA spec1 c := by
  rw [show (dat1 V c).Φ (Fin.last cfg1.N) = Phi1 V c cfg1.N (Nat.le_refl _) from rfl,
    Phi1_pos V c _ _ (by rw [show cfg1.N = 32 from N_1]; decide), PhiA1_eq]
  iintro ⟨⟨HS, Hr⟩, Hp⟩
  isplitl [HS Hr]
  · isplitl [HS]; · iexists _; iexact HS
    iexact Hr
  iexact Hp

end Cert.Kernel.Hand

end
-- ==== Proof.BitsDiff2.lean ====
/-
  Region 2 of the kernel program as printed: one diffusion hop, the product of the 8192x8192 normalized adjacency with
  an 8192x512 matrix, on a grid of 8 row blocks by 4 column stretches. At point (i, k) the body reads the 1024x2048
  block (i, k) of the adjacency and the 2048x512 block k of the right factor. A scratch accumulator carried between
  the points is reset to zero where k = 0, the block product is added to it at every point, and where k = 3 the
  accumulator is copied into the output's staging buffer, which the pipeline writes back as row block i.
  Stated at any float instance F, at a parameter V: the contents of the core's buffers when the region is entered.
-/
import proofs.«122622_j10385230921953_1_alg».proof.Proof.Gen.Kernel.Launch
import proofs.«122622_j10385230921953_1_alg».proof.Proof.Gen.Kernel.Skeleton
import proofs.«122622_j10385230921953_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's current staging buffer holds its block at every point, for any proof data whose array is V's and
    whose body leaves the block in place (the window is uncut and never idle). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's two branch conditions, decided over the grid -/

/-- The reset branch is taken where the second grid coordinate is 0. -/
abbrev condZ2 (i : grid2.Coords) : Prop := (Scalar.cmpi .ne (Scalar.extui (Scalar.cmpi .eq (BitVec.ofNat 32 (i 1).val) 0#32)) 0#32) = 1#1
theorem hcondZ2 : ∀ t : Fin cfg2.N, condZ2 (grid2.coords t) ↔ t.val % 4 = 0 :=
  (by decide +kernel : ∀ t : Fin grid2.N, condZ2 (grid2.coords t) ↔ t.val % 4 = 0)
/-- The copy-out branch is taken where the second grid coordinate is 3. -/
abbrev condL2 (i : grid2.Coords) : Prop := k2_cond2 i = 1#1
theorem hcondL2 : ∀ t : Fin cfg2.N, condL2 (grid2.coords t) ↔ t.val % 4 = 3 :=
  (by decide +kernel : ∀ t : Fin grid2.N, condL2 (grid2.coords t) ↔ t.val % 4 = 3)

/-- Where the copy-out branch is not taken the output window is idle and is not written back; where it is taken the
    window is live. -/
theorem idleAt2 : ∀ t : Fin grid2.N, ¬condL2 (grid2.coords t) → idle2 2 (grid2.coords t) = true := by decide +kernel
theorem noFlush2 : ∀ t : Fin grid2.N, ¬condL2 (grid2.coords t) → (win2 2).flush t = false := by decide +kernel
theorem liveAt2 : ∀ t : Fin grid2.N, condL2 (grid2.coords t) → idle2 2 (grid2.coords t) = false := by decide +kernel

/-! ## The body's triple, case by case -/

theorem hz2_2 : (![0, 0] : Fin 2 → Nat) = fun _ => 0 := by funext a; fin_cases a <;> rfl

/-- The scratch accumulator as a memref: a whole scoped buffer of the kernel's own. -/
abbrev sc2 : Memref sig .tc .vmem S1024x512 .f32 := Memref.whole cc2_scratch0

set_option maxHeartbeats 2000000 in
/-- First stretch of a row block (k = 0): the accumulator is reset and the block product added; the output's buffer is
    not touched. -/
theorem sound_kernel2_A (c : Dev nD) (E : Set ℕ) (i : grid2.Coords) (hc0 : condZ2 i) (hc1 : ¬condL2 i)
    (arg2 : Memref sig .tc .vmem S1024x2048 .bf16) (harg2 : arg2.IsWhole) (arg3 : Memref sig .tc .vmem S2048x512 .bf16) (harg3 : arg3.IsWhole)
    (arg4 : Memref sig .tc .vmem S1024x512 .f32) (harg4 : arg4.IsWhole) (arg5 : Memref sig .tc .vmem S1024x512 .f32) (harg5 : arg5.IsWhole)
    (x : Vec F S1024x2048 .bf16) (y : Vec F S2048x512 .bf16) (o : Vec F S1024x512 .f32) (K : PUnit → sProp 𝕄) :
    iprop(owns (c : Thread nD τ) arg2 fullShare x ∗ owns (c : Thread nD τ) arg3 fullShare y ∗ owns (c : Thread nD τ) arg4 fullShare o
        ∗ (∃ d, owns (c : Thread nD τ) arg5 fullShare d)
        ∗ (iprop(owns (c : Thread nD τ) arg2 fullShare x ∗ owns (c : Thread nD τ) arg3 fullShare y ∗ owns (c : Thread nD τ) arg4 fullShare o
            ∗ owns (c : Thread nD τ) arg5 fullShare (k2_pay2 (k2_pay1 (F := F)) x y)) -∗ K ⟨⟩))
      ⊢ wp frame (wpE (defs₀ (F := F)) Variants.none c none) E (cc2__diff_kernel i arg2 harg2 arg3 harg3 arg4 harg4 arg5 harg5) K := by
  simp only [cc2__diff_kernel_eq_skeleton]; unfold cc2__diff_kernel_skel
  unfold owns
  iintro ⟨⟨%f2, %hf2, H2⟩, ⟨%f3, %hf3, H3⟩, ⟨%f4, %hf4, H4⟩, ⟨%d5, %f5, -, H5⟩, Hk⟩
  subst hf2; subst hf3; subst hf4
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (fun y => ⟨_, List.mem_cons_self .., View.mem_set_unit_zero hz2_2 inb_S1024x512_S1024x512_0_0 y⟩),
    View.canon_cons_unit_zero hz2_2]
  sl_unfold_words
  rw [View.readCov_unit_zero _ hz2_2]
  simp only [View.readAt_eq_ld, View.ld_unit_zero (S := S1024x2048) hz2_2, View.ld_unit_zero (S := S2048x512) hz2_2]

set_option maxHeartbeats 2000000 in
/-- A middle stretch (k = 1, 2): the block product is added to what the accumulator held; the output's buffer is not
    touched. -/
theorem sound_kernel2_B (c : Dev nD) (E : Set ℕ) (i : grid2.Coords) (hc0 : ¬condZ2 i) (hc1 : ¬condL2 i)
    (arg2 : Memref sig .tc .vmem S1024x2048 .bf16) (harg2 : arg2.IsWhole) (arg3 : Memref sig .tc .vmem S2048x512 .bf16) (harg3 : arg3.IsWhole)
    (arg4 : Memref sig .tc .vmem S1024x512 .f32) (harg4 : arg4.IsWhole) (arg5 : Memref sig .tc .vmem S1024x512 .f32) (harg5 : arg5.IsWhole)
    (x : Vec F S1024x2048 .bf16) (y : Vec F S2048x512 .bf16) (o : Vec F S1024x512 .f32) (s : Vec F S1024x512 .f32) (K : PUnit → sProp 𝕄) :
    iprop(owns (c : Thread nD τ) arg2 fullShare x ∗ owns (c : Thread nD τ) arg3 fullShare y ∗ owns (c : Thread nD τ) arg4 fullShare o
        ∗ owns (c : Thread nD τ) arg5 fullShare s
        ∗ (iprop(owns (c : Thread nD τ) arg2 fullShare x ∗ owns (c : Thread nD τ) arg3 fullShare y ∗ owns (c : Thread nD τ) arg4 fullShare o
            ∗ owns (c : Thread nD τ) arg5 fullShare (k2_pay2 s x y)) -∗ K ⟨⟩))
      ⊢ wp frame (wpE (defs₀ (F := F)) Variants.none c none) E (cc2__diff_kernel i arg2 harg2 arg3 harg3 arg4 harg4 arg5 harg5) K := by
  simp only [cc2__diff_kernel_eq_skeleton]; unfold cc2__diff_kernel_skel
  unfold owns
  iintro ⟨⟨%f2, %hf2, H2⟩, ⟨%f3, %hf3, H3⟩, ⟨%f4, %hf4, H4⟩, ⟨%f5, %hf5, H5⟩, Hk⟩
  subst hf2; subst hf3; subst hf4; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (fun y => ⟨_, List.mem_cons_self .., View.mem_set_unit_zero hz2_2 inb_S1024x512_S1024x512_0_0 y⟩)]
  sl_unfold_words
  rw [View.canon_unit_zero hz2_2]
  simp only [View.readAt_eq_ld, View.ld_unit_zero (S := S1024x2048) hz2_2, View.ld_unit_zero (S := S2048x512) hz2_2, View.ld_unit_zero (S := S1024x512) hz2_2]

set_option maxHeartbeats 2000000 in
/-- Last stretch (k = 3): the block product is added to what the accumulator held, and the sum is also left in the
    output's buffer. -/
theorem sound_kernel2_C (c : Dev nD) (E : Set ℕ) (i : grid2.Coords) (hc0 : ¬condZ2 i) (hc1 : condL2 i)
    (arg2 : Memref sig .tc .vmem S1024x2048 .bf16) (harg2 : arg2.IsWhole) (arg3 : Memref sig .tc .vmem S2048x512 .bf16) (harg3 : arg3.IsWhole)
    (arg4 : Memref sig .tc .vmem S1024x512 .f32) (harg4 : arg4.IsWhole) (arg5 : Memref sig .tc .vmem S1024x512 .f32) (harg5 : arg5.IsWhole)
    (x : Vec F S1024x2048 .bf16) (y : Vec F S2048x512 .bf16) (s : Vec F S1024x512 .f32) (K : PUnit → sProp 𝕄) :
    iprop(owns (c : Thread nD τ) arg2 fullShare x ∗ owns (c : Thread nD τ) arg3 fullShare y ∗ (∃ d, owns (c : Thread nD τ) arg4 fullShare d)
        ∗ owns (c : Thread nD τ) arg5 fullShare s
        ∗ (iprop(owns (c : Thread nD τ) arg2 fullShare x ∗ owns (c : Thread nD τ) arg3 fullShare y ∗ owns (c : Thread nD τ) arg4 fullShare (k2_pay2 s x y)
            ∗ owns (c : Thread nD τ) arg5 fullShare (k2_pay2 s x y)) -∗ K ⟨⟩))
      ⊢ wp frame (wpE (defs₀ (F := F)) Variants.none c none) E (cc2__diff_kernel i arg2 harg2 arg3 harg3 arg4 harg4 arg5 harg5) K := by
  simp only [cc2__diff_kernel_eq_skeleton]; unfold cc2__diff_kernel_skel
  unfold owns
  iintro ⟨⟨%f2, %hf2, H2⟩, ⟨%f3, %hf3, H3⟩, ⟨%d4, %f4, -, H4⟩, ⟨%f5, %hf5, H5⟩, Hk⟩
  subst hf2; subst hf3; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (fun y => ⟨_, List.mem_cons_self .., View.mem_set_unit_zero hz2_2 inb_S1024x512_S1024x512_0_0 y⟩), View.canon_unit_zero hz2_2]
    sl_unfold_words
    rw [View.readCov_unit_zero _ hz2_2]
    simp only [View.readAt_eq_ld, View.ld_unit_zero (S := S1024x2048) hz2_2, View.ld_unit_zero (S := S2048x512) hz2_2, View.ld_unit_zero (S := S1024x512) hz2_2]
  iexists _; isplitr
  swap; · iexact H5
  ipureintro
  sl_unfold_words
  rw [View.read_writes_eq_canon _ _ _ (fun y => ⟨_, List.mem_cons_self .., View.mem_set_unit_zero hz2_2 inb_S1024x512_S1024x512_0_0 y⟩)]
  rw [View.canon_unit_zero hz2_2]
  simp only [View.readAt_eq_ld, View.ld_unit_zero (S := S1024x2048) hz2_2, View.ld_unit_zero (S := S2048x512) hz2_2, View.ld_unit_zero (S := S1024x512) hz2_2]

/-! ## What the accumulator holds after each point -/

/-- The accumulator after point n: from zero where a row block's run begins (n a multiple of 4), else from what the
    point before left, the point's block product added. -/
def acc2 (c : Dev nD) : (n : ℕ) → n < cfg2.N → Vec F S1024x512 .f32
  | 0, h => k2_pay2 (k2_pay1 (F := F)) (iblk2 V c 0 ⟨0, h⟩) (iblk2 V c 1 ⟨0, h⟩)
  | n + 1, h =>
    if (n + 1) % 4 = 0 then k2_pay2 (k2_pay1 (F := F)) (iblk2 V c 0 ⟨n + 1, h⟩) (iblk2 V c 1 ⟨n + 1, h⟩)
    else k2_pay2 (acc2 c n (Nat.lt_of_succ_lt h)) (iblk2 V c 0 ⟨n + 1, h⟩) (iblk2 V c 1 ⟨n + 1, h⟩)

theorem acc2_reset (c : Dev nD) (t : Fin cfg2.N) (h : t.val % 4 = 0) :
    acc2 V c t.val t.isLt = k2_pay2 (k2_pay1 (F := F)) (iblk2 V c 0 t) (iblk2 V c 1 t) := by
  obtain ⟨n, hn⟩ := t
  cases n with
  | zero => rfl
  | succ n => simp only [acc2, if_pos h]

theorem acc2_step (c : Dev nD) (t : Fin cfg2.N) (h : ¬t.val % 4 = 0) :
    acc2 V c t.val t.isLt = k2_pay2 (acc2 V c (t.val - 1) (Nat.lt_of_le_of_lt (Nat.sub_le _ _) t.isLt)) (iblk2 V c 0 t) (iblk2 V c 1 t) := by
  obtain ⟨n, hn⟩ := t
  cases n with
  | zero => exact absurd rfl h
  | succ n => simp only [acc2, if_neg h]; rfl

/-! ## The invariant carried between the points -/

theorem scratch_mem2 : ([cc2_scratch0] : List (Ref sig .tc)).Forall fun b =>
    b.isScoped = true ∧ ∀ (w : Fin 3) (s : Fin (spec2 w).nbuf), ((spec2 w).stage s).view.ref ≠ b := by decide

/-- The region's plain invariant with the accumulator split off: the accumulator at some contents, the core's other
    scoped buffers unopened, the generator register at some state. -/
theorem PhiA2_eq (c : Dev nD) :
    (Pipeline.ΦA spec2 c : sProp 𝕄)
      = iprop(((∃ d, owns (c : Thread nD τ) sc2 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA
  rw [Pipeline.scopedRest_split_of_list spec2 c [cc2_scratch0] scratch_mem2 (by decide)]
  simp only [Idealize.SL.BI.bigSepL_singleton, sc2, owns_whole]; try rfl

/-- Before point 0 the plain invariant; after point n the same with the accumulator at acc2 n. -/
def Phi2 (c : Dev nD) : (n : ℕ) → n ≤ cfg2.N → sProp 𝕄
  | 0, _ => Pipeline.ΦA spec2 c
  | n + 1, h => iprop((owns (c : Thread nD τ) sc2 fullShare (acc2 V c n h)
      ∗ Pipeline.scopedRestBut (Ix := Unit) (Name := ℕ) (U := UR sig nD τ) (Lvl := ℕ) (Val := Elt F) spec2 c [cc2_scratch0]) ∗ (∃ r, prngReg c r))

theorem Phi2_zero (c : Dev nD) (n : ℕ) (h : n ≤ cfg2.N) (hz : n = 0) : Phi2 V c n h = Pipeline.ΦA spec2 c := by
  subst hz; rfl
theorem Phi2_succ (c : Dev nD) (n : ℕ) (hn : n < cfg2.N) :
    Phi2 V c (n + 1) hn = iprop((owns (c : Thread nD τ) sc2 fullShare (acc2 V c n hn)
      ∗ Pipeline.scopedRestBut (Ix := Unit) (Name := ℕ) (U := UR sig nD τ) (Lvl := ℕ) (Val := Elt F) spec2 c [cc2_scratch0]) ∗ (∃ r, prngReg c r)) := rfl
theorem Phi2_pos (c : Dev nD) (n : ℕ) (h : n ≤ cfg2.N) (hz : n ≠ 0) :
    Phi2 V c n h = iprop((owns (c : Thread nD τ) sc2 fullShare (acc2 V c (n - 1) (by omega))
      ∗ Pipeline.scopedRestBut (Ix := Unit) (Name := ℕ) (U := UR sig nD τ) (Lvl := ℕ) (Val := Elt F) spec2 c [cc2_scratch0]) ∗ (∃ r, prngReg c r)) := by
  obtain ⟨k, rfl⟩ := Nat.exists_eq_succ_of_ne_zero hz
  rfl

/-! ## The proof data of the pipeline -/

/-- The arrays as the region finds them; after the body at point t the two inputs' buffers at their blocks and the
    output's at the accumulator (stated at every point, read only where the window is written back: the last stretch
    of each row block); the invariant Phi2; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = acc2 V c t.val t.isLt := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem Phi2_castSucc (c : Dev nD) (t : Fin cfg2.N) :
    (dat2 V c).Φ t.castSucc = Phi2 V c t.val (Nat.le_of_lt t.isLt) := rfl

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ (match cfg2.idle 2 (cfg2.grid.coords t) with
        | true =>
          match (cfg2.win 2).flush t with
          | false => iprop(∃ d, owns (c : Thread nD τ) (st2_2 t) fullShare ((dat2 V c).before 2 t d))
          | true => owns (c : Thread nD τ) (st2_2 t) fullShare ((dat2 V c).after 2 t)
        | false => owns (c : Thread nD τ) (st2_2 t) fullShare ((dat2 V c).after 2 t)))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = Phi2 V c (t.val + 1) t.isLt from rfl, Phi2_succ,
    show (dat2 V c).owesAt () t.succ = (dat2 V c).owesAt () t.castSucc from rfl,
    after2_0, after2_1, after2_2, Phi2_castSucc]
  by_cases h0 : t.val % 4 = 0
  · -- the first stretch of a row block
    have hc0 : condZ2 (grid2.coords t) := (hcondZ2 t).mpr h0
    have hc1 : ¬condL2 (grid2.coords t) := fun h => by have := (hcondL2 t).mp h; omega
    rw [acc2_reset V c t h0, idleAt2 t hc1]
    simp only [noFlush2 t hc1]
    by_cases hz : t.val = 0
    · rw [Phi2_zero V c _ _ hz, PhiA2_eq]
      iintro ⟨⟨⟨HS, Hr⟩, Hp⟩, Ho, ⟨%d0, H0⟩, ⟨%d1, H1⟩, ⟨%d2, H2⟩⟩
      iapply (sound_kernel2_A c Set.univ _ hc0 hc1 _ _ _ _ _ _ _ _ (iblk2 V c 0 t) (iblk2 V c 1 t) _ _)
      isplitl [H0]; · iexact H0
      isplitl [H1]; · iexact H1
      isplitl [H2]; · iexact H2
      isplitl [HS]; · iexact HS
      iintro ⟨H0, H1, H2, HS⟩
      isplitl [HS Hr Hp]
      · isplitl [HS Hr]
        · isplitl [HS]; · iexact HS
          iexact Hr
        iexact Hp
      isplitl [Ho]; · iexact Ho
      isplitl [H0]; · iexact H0
      isplitl [H1]; · iexact H1
      iexists _; iexact H2
    · rw [Phi2_pos V c _ _ hz]
      iintro ⟨⟨⟨HS, Hr⟩, Hp⟩, Ho, ⟨%d0, H0⟩, ⟨%d1, H1⟩, ⟨%d2, H2⟩⟩
      iapply (sound_kernel2_A c Set.univ _ hc0 hc1 _ _ _ _ _ _ _ _ (iblk2 V c 0 t) (iblk2 V c 1 t) _ _)
      isplitl [H0]; · iexact H0
      isplitl [H1]; · iexact H1
      isplitl [H2]; · iexact H2
      isplitl [HS]; · iexists _; iexact HS
      iintro ⟨H0, H1, H2, HS⟩
      isplitl [HS Hr Hp]
      · isplitl [HS Hr]
        · isplitl [HS]; · iexact HS
          iexact Hr
        iexact Hp
      isplitl [Ho]; · iexact Ho
      isplitl [H0]; · iexact H0
      isplitl [H1]; · iexact H1
      iexists _; iexact H2
  · have hc0 : ¬condZ2 (grid2.coords t) := fun h => h0 ((hcondZ2 t).mp h)
    have hz : t.val ≠ 0 := fun h => h0 (by rw [h])
    rw [Phi2_pos V c _ _ hz, acc2_step V c t h0]
    by_cases h3 : t.val % 4 = 3
    · -- the last stretch: the sum is also left in the output's buffer
      have hc1 : condL2 (grid2.coords t) := (hcondL2 t).mpr h3
      rw [liveAt2 t hc1]
      iintro ⟨⟨⟨HS, Hr⟩, Hp⟩, Ho, ⟨%d0, H0⟩, ⟨%d1, H1⟩, ⟨%d2, H2⟩⟩
      iapply (sound_kernel2_C c Set.univ _ hc0 hc1 _ _ _ _ _ _ _ _ (iblk2 V c 0 t) (iblk2 V c 1 t) _ _)
      isplitl [H0]; · iexact H0
      isplitl [H1]; · iexact H1
      isplitl [H2]; · iexists _; iexact H2
      isplitl [HS]; · iexact HS
      iintro ⟨H0, H1, H2, HS⟩
      isplitl [HS Hr Hp]
      · isplitl [HS Hr]
        · isplitl [HS]; · iexact HS
          iexact Hr
        iexact Hp
      isplitl [Ho]; · iexact Ho
      isplitl [H0]; · iexact H0
      isplitl [H1]; · iexact H1
      iexact H2
    · -- a middle stretch
      have hc1 : ¬condL2 (grid2.coords t) := fun h => h3 ((hcondL2 t).mp h)
      rw [idleAt2 t hc1]
      simp only [noFlush2 t hc1]
      iintro ⟨⟨⟨HS, Hr⟩, Hp⟩, Ho, ⟨%d0, H0⟩, ⟨%d1, H1⟩, ⟨%d2, H2⟩⟩
      iapply (sound_kernel2_B c Set.univ _ hc0 hc1 _ _ _ _ _ _ _ _ (iblk2 V c 0 t) (iblk2 V c 1 t) _ _ _)
      isplitl [H0]; · iexact H0
      isplitl [H1]; · iexact H1
      isplitl [H2]; · iexact H2
      isplitl [HS]; · iexact HS
      iintro ⟨H0, H1, H2, HS⟩
      isplitl [HS Hr Hp]
      · isplitl [HS Hr]
        · isplitl [HS]; · iexact HS
          iexact Hr
        iexact Hp
      isplitl [Ho]; · iexact Ho
      isplitl [H0]; · iexact H0
      isplitl [H1]; · iexact H1
      iexists _; iexact H2

theorem body_obligation2 (c : Dev nD) : BodyObligation (dat2 (F := F) V c) (defs₀ (F := F)) Variants.none () Set.univ := fun t => by
  rw [bigSep_W2, bigSep_W2]
  exact sound_body2 V c t

/-! ## The invariant at the region's two ends -/

theorem hin2 (c : Dev nD) : Pipeline.ΦA spec2 c ⊢ (dat2 V c).Φ 0 := .rfl

theorem hout2 (c : Dev nD) : (dat2 V c).Φ (Fin.last cfg2.N) ⊢ Pipeline.ΦA spec2 c := by
  rw [show (dat2 V c).Φ (Fin.last cfg2.N) = Phi2 V c cfg2.N (Nat.le_refl _) from rfl,
    Phi2_pos V c _ _ (by rw [show cfg2.N = 32 from N_2]; decide), PhiA2_eq]
  iintro ⟨⟨HS, Hr⟩, Hp⟩
  isplitl [HS Hr]
  · isplitl [HS]; · iexists _; iexact HS
    iexact Hr
  iexact Hp

end Cert.Kernel.Hand

end
-- ==== Proof.BitsDiff3.lean ====
/-
  Region 3 of the kernel program as printed: one diffusion hop, the product of the 8192x8192 normalized adjacency with
  an 8192x512 matrix, on a grid of 8 row blocks by 4 column stretches. At point (i, k) the body reads the 1024x2048
  block (i, k) of the adjacency and the 2048x512 block k of the right factor. A scratch accumulator carried between
  the points is reset to zero where k = 0, the block product is added to it at every point, and where k = 3 the
  accumulator is copied into the output's staging buffer, which the pipeline writes back as row block i.
  Stated at any float instance F, at a parameter V: the contents of the core's buffers when the region is entered.
-/
import proofs.«122622_j10385230921953_1_alg».proof.Proof.Gen.Kernel.Launch
import proofs.«122622_j10385230921953_1_alg».proof.Proof.Gen.Kernel.Skeleton
import proofs.«122622_j10385230921953_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each input window's current staging buffer holds its block at every point, for any proof data whose array is V's and
    whose body leaves the block in place (the window is uncut and never idle). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's two branch conditions, decided over the grid -/

/-- The reset branch is taken where the second grid coordinate is 0. -/
abbrev condZ3 (i : grid3.Coords) : Prop := (Scalar.cmpi .ne (Scalar.extui (Scalar.cmpi .eq (BitVec.ofNat 32 (i 1).val) 0#32)) 0#32) = 1#1
theorem hcondZ3 : ∀ t : Fin cfg3.N, condZ3 (grid3.coords t) ↔ t.val % 4 = 0 :=
  (by decide +kernel : ∀ t : Fin grid3.N, condZ3 (grid3.coords t) ↔ t.val % 4 = 0)
/-- The copy-out branch is taken where the second grid coordinate is 3. -/
abbrev condL3 (i : grid3.Coords) : Prop := k3_cond2 i = 1#1
theorem hcondL3 : ∀ t : Fin cfg3.N, condL3 (grid3.coords t) ↔ t.val % 4 = 3 :=
  (by decide +kernel : ∀ t : Fin grid3.N, condL3 (grid3.coords t) ↔ t.val % 4 = 3)

/-- Where the copy-out branch is not taken the output window is idle and is not written back; where it is taken the
    window is live. -/
theorem idleAt3 : ∀ t : Fin grid3.N, ¬condL3 (grid3.coords t) → idle3 2 (grid3.coords t) = true := by decide +kernel
theorem noFlush3 : ∀ t : Fin grid3.N, ¬condL3 (grid3.coords t) → (win3 2).flush t = false := by decide +kernel
theorem liveAt3 : ∀ t : Fin grid3.N, condL3 (grid3.coords t) → idle3 2 (grid3.coords t) = false := by decide +kernel

/-! ## The body's triple, case by case -/

theorem hz2_3 : (![0, 0] : Fin 2 → Nat) = fun _ => 0 := by funext a; fin_cases a <;> rfl

/-- The scratch accumulator as a memref: a whole scoped buffer of the kernel's own. -/
abbrev sc3 : Memref sig .tc .vmem S1024x512 .f32 := Memref.whole cc3_scratch0

set_option maxHeartbeats 2000000 in
/-- First stretch of a row block (k = 0): the accumulator is reset and the block product added; the output's buffer is
    not touched. -/
theorem sound_kernel3_A (c : Dev nD) (E : Set ℕ) (i : grid3.Coords) (hc0 : condZ3 i) (hc1 : ¬condL3 i)
    (arg2 : Memref sig .tc .vmem S1024x2048 .bf16) (harg2 : arg2.IsWhole) (arg3 : Memref sig .tc .vmem S2048x512 .bf16) (harg3 : arg3.IsWhole)
    (arg4 : Memref sig .tc .vmem S1024x512 .f32) (harg4 : arg4.IsWhole) (arg5 : Memref sig .tc .vmem S1024x512 .f32) (harg5 : arg5.IsWhole)
    (x : Vec F S1024x2048 .bf16) (y : Vec F S2048x512 .bf16) (o : Vec F S1024x512 .f32) (K : PUnit → sProp 𝕄) :
    iprop(owns (c : Thread nD τ) arg2 fullShare x ∗ owns (c : Thread nD τ) arg3 fullShare y ∗ owns (c : Thread nD τ) arg4 fullShare o
        ∗ (∃ d, owns (c : Thread nD τ) arg5 fullShare d)
        ∗ (iprop(owns (c : Thread nD τ) arg2 fullShare x ∗ owns (c : Thread nD τ) arg3 fullShare y ∗ owns (c : Thread nD τ) arg4 fullShare o
            ∗ owns (c : Thread nD τ) arg5 fullShare (k3_pay2 (k3_pay1 (F := F)) x y)) -∗ K ⟨⟩))
      ⊢ wp frame (wpE (defs₀ (F := F)) Variants.none c none) E (cc3__diff_kernel i arg2 harg2 arg3 harg3 arg4 harg4 arg5 harg5) K := by
  simp only [cc3__diff_kernel_eq_skeleton]; unfold cc3__diff_kernel_skel
  unfold owns
  iintro ⟨⟨%f2, %hf2, H2⟩, ⟨%f3, %hf3, H3⟩, ⟨%f4, %hf4, H4⟩, ⟨%d5, %f5, -, H5⟩, Hk⟩
  subst hf2; subst hf3; subst hf4
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (fun y => ⟨_, List.mem_cons_self .., View.mem_set_unit_zero hz2_3 inb_S1024x512_S1024x512_0_0 y⟩),
    View.canon_cons_unit_zero hz2_3]
  sl_unfold_words
  rw [View.readCov_unit_zero _ hz2_3]
  simp only [View.readAt_eq_ld, View.ld_unit_zero (S := S1024x2048) hz2_3, View.ld_unit_zero (S := S2048x512) hz2_3]

set_option maxHeartbeats 2000000 in
/-- A middle stretch (k = 1, 2): the block product is added to what the accumulator held; the output's buffer is not
    touched. -/
theorem sound_kernel3_B (c : Dev nD) (E : Set ℕ) (i : grid3.Coords) (hc0 : ¬condZ3 i) (hc1 : ¬condL3 i)
    (arg2 : Memref sig .tc .vmem S1024x2048 .bf16) (harg2 : arg2.IsWhole) (arg3 : Memref sig .tc .vmem S2048x512 .bf16) (harg3 : arg3.IsWhole)
    (arg4 : Memref sig .tc .vmem S1024x512 .f32) (harg4 : arg4.IsWhole) (arg5 : Memref sig .tc .vmem S1024x512 .f32) (harg5 : arg5.IsWhole)
    (x : Vec F S1024x2048 .bf16) (y : Vec F S2048x512 .bf16) (o : Vec F S1024x512 .f32) (s : Vec F S1024x512 .f32) (K : PUnit → sProp 𝕄) :
    iprop(owns (c : Thread nD τ) arg2 fullShare x ∗ owns (c : Thread nD τ) arg3 fullShare y ∗ owns (c : Thread nD τ) arg4 fullShare o
        ∗ owns (c : Thread nD τ) arg5 fullShare s
        ∗ (iprop(owns (c : Thread nD τ) arg2 fullShare x ∗ owns (c : Thread nD τ) arg3 fullShare y ∗ owns (c : Thread nD τ) arg4 fullShare o
            ∗ owns (c : Thread nD τ) arg5 fullShare (k3_pay2 s x y)) -∗ K ⟨⟩))
      ⊢ wp frame (wpE (defs₀ (F := F)) Variants.none c none) E (cc3__diff_kernel i arg2 harg2 arg3 harg3 arg4 harg4 arg5 harg5) K := by
  simp only [cc3__diff_kernel_eq_skeleton]; unfold cc3__diff_kernel_skel
  unfold owns
  iintro ⟨⟨%f2, %hf2, H2⟩, ⟨%f3, %hf3, H3⟩, ⟨%f4, %hf4, H4⟩, ⟨%f5, %hf5, H5⟩, Hk⟩
  subst hf2; subst hf3; subst hf4; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (fun y => ⟨_, List.mem_cons_self .., View.mem_set_unit_zero hz2_3 inb_S1024x512_S1024x512_0_0 y⟩)]
  sl_unfold_words
  rw [View.canon_unit_zero hz2_3]
  simp only [View.readAt_eq_ld, View.ld_unit_zero (S := S1024x2048) hz2_3, View.ld_unit_zero (S := S2048x512) hz2_3, View.ld_unit_zero (S := S1024x512) hz2_3]

set_option maxHeartbeats 2000000 in
/-- Last stretch (k = 3): the block product is added to what the accumulator held, and the sum is also left in the
    output's buffer. -/
theorem sound_kernel3_C (c : Dev nD) (E : Set ℕ) (i : grid3.Coords) (hc0 : ¬condZ3 i) (hc1 : condL3 i)
    (arg2 : Memref sig .tc .vmem S1024x2048 .bf16) (harg2 : arg2.IsWhole) (arg3 : Memref sig .tc .vmem S2048x512 .bf16) (harg3 : arg3.IsWhole)
    (arg4 : Memref sig .tc .vmem S1024x512 .f32) (harg4 : arg4.IsWhole) (arg5 : Memref sig .tc .vmem S1024x512 .f32) (harg5 : arg5.IsWhole)
    (x : Vec F S1024x2048 .bf16) (y : Vec F S2048x512 .bf16) (s : Vec F S1024x512 .f32) (K : PUnit → sProp 𝕄) :
    iprop(owns (c : Thread nD τ) arg2 fullShare x ∗ owns (c : Thread nD τ) arg3 fullShare y ∗ (∃ d, owns (c : Thread nD τ) arg4 fullShare d)
        ∗ owns (c : Thread nD τ) arg5 fullShare s
        ∗ (iprop(owns (c : Thread nD τ) arg2 fullShare x ∗ owns (c : Thread nD τ) arg3 fullShare y ∗ owns (c : Thread nD τ) arg4 fullShare (k3_pay2 s x y)
            ∗ owns (c : Thread nD τ) arg5 fullShare (k3_pay2 s x y)) -∗ K ⟨⟩))
      ⊢ wp frame (wpE (defs₀ (F := F)) Variants.none c none) E (cc3__diff_kernel i arg2 harg2 arg3 harg3 arg4 harg4 arg5 harg5) K := by
  simp only [cc3__diff_kernel_eq_skeleton]; unfold cc3__diff_kernel_skel
  unfold owns
  iintro ⟨⟨%f2, %hf2, H2⟩, ⟨%f3, %hf3, H3⟩, ⟨%d4, %f4, -, H4⟩, ⟨%f5, %hf5, H5⟩, Hk⟩
  subst hf2; subst hf3; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (fun y => ⟨_, List.mem_cons_self .., View.mem_set_unit_zero hz2_3 inb_S1024x512_S1024x512_0_0 y⟩), View.canon_unit_zero hz2_3]
    sl_unfold_words
    rw [View.readCov_unit_zero _ hz2_3]
    simp only [View.readAt_eq_ld, View.ld_unit_zero (S := S1024x2048) hz2_3, View.ld_unit_zero (S := S2048x512) hz2_3, View.ld_unit_zero (S := S1024x512) hz2_3]
  iexists _; isplitr
  swap; · iexact H5
  ipureintro
  sl_unfold_words
  rw [View.read_writes_eq_canon _ _ _ (fun y => ⟨_, List.mem_cons_self .., View.mem_set_unit_zero hz2_3 inb_S1024x512_S1024x512_0_0 y⟩)]
  rw [View.canon_unit_zero hz2_3]
  simp only [View.readAt_eq_ld, View.ld_unit_zero (S := S1024x2048) hz2_3, View.ld_unit_zero (S := S2048x512) hz2_3, View.ld_unit_zero (S := S1024x512) hz2_3]

/-! ## What the accumulator holds after each point -/

/-- The accumulator after point n: from zero where a row block's run begins (n a multiple of 4), else from what the
    point before left, the point's block product added. -/
def acc3 (c : Dev nD) : (n : ℕ) → n < cfg3.N → Vec F S1024x512 .f32
  | 0, h => k3_pay2 (k3_pay1 (F := F)) (iblk3 V c 0 ⟨0, h⟩) (iblk3 V c 1 ⟨0, h⟩)
  | n + 1, h =>
    if (n + 1) % 4 = 0 then k3_pay2 (k3_pay1 (F := F)) (iblk3 V c 0 ⟨n + 1, h⟩) (iblk3 V c 1 ⟨n + 1, h⟩)
    else k3_pay2 (acc3 c n (Nat.lt_of_succ_lt h)) (iblk3 V c 0 ⟨n + 1, h⟩) (iblk3 V c 1 ⟨n + 1, h⟩)

theorem acc3_reset (c : Dev nD) (t : Fin cfg3.N) (h : t.val % 4 = 0) :
    acc3 V c t.val t.isLt = k3_pay2 (k3_pay1 (F := F)) (iblk3 V c 0 t) (iblk3 V c 1 t) := by
  obtain ⟨n, hn⟩ := t
  cases n with
  | zero => rfl
  | succ n => simp only [acc3, if_pos h]

theorem acc3_step (c : Dev nD) (t : Fin cfg3.N) (h : ¬t.val % 4 = 0) :
    acc3 V c t.val t.isLt = k3_pay2 (acc3 V c (t.val - 1) (Nat.lt_of_le_of_lt (Nat.sub_le _ _) t.isLt)) (iblk3 V c 0 t) (iblk3 V c 1 t) := by
  obtain ⟨n, hn⟩ := t
  cases n with
  | zero => exact absurd rfl h
  | succ n => simp only [acc3, if_neg h]; rfl

/-! ## The invariant carried between the points -/

theorem scratch_mem3 : ([cc3_scratch0] : List (Ref sig .tc)).Forall fun b =>
    b.isScoped = true ∧ ∀ (w : Fin 3) (s : Fin (spec3 w).nbuf), ((spec3 w).stage s).view.ref ≠ b := by decide

/-- The region's plain invariant with the accumulator split off: the accumulator at some contents, the core's other
    scoped buffers unopened, the generator register at some state. -/
theorem PhiA3_eq (c : Dev nD) :
    (Pipeline.ΦA spec3 c : sProp 𝕄)
      = iprop(((∃ d, owns (c : Thread nD τ) sc3 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA
  rw [Pipeline.scopedRest_split_of_list spec3 c [cc3_scratch0] scratch_mem3 (by decide)]
  simp only [Idealize.SL.BI.bigSepL_singleton, sc3, owns_whole]; try rfl

/-- Before point 0 the plain invariant; after point n the same with the accumulator at acc3 n. -/
def Phi3 (c : Dev nD) : (n : ℕ) → n ≤ cfg3.N → sProp 𝕄
  | 0, _ => Pipeline.ΦA spec3 c
  | n + 1, h => iprop((owns (c : Thread nD τ) sc3 fullShare (acc3 V c n h)
      ∗ Pipeline.scopedRestBut (Ix := Unit) (Name := ℕ) (U := UR sig nD τ) (Lvl := ℕ) (Val := Elt F) spec3 c [cc3_scratch0]) ∗ (∃ r, prngReg c r))

theorem Phi3_zero (c : Dev nD) (n : ℕ) (h : n ≤ cfg3.N) (hz : n = 0) : Phi3 V c n h = Pipeline.ΦA spec3 c := by
  subst hz; rfl
theorem Phi3_succ (c : Dev nD) (n : ℕ) (hn : n < cfg3.N) :
    Phi3 V c (n + 1) hn = iprop((owns (c : Thread nD τ) sc3 fullShare (acc3 V c n hn)
      ∗ Pipeline.scopedRestBut (Ix := Unit) (Name := ℕ) (U := UR sig nD τ) (Lvl := ℕ) (Val := Elt F) spec3 c [cc3_scratch0]) ∗ (∃ r, prngReg c r)) := rfl
theorem Phi3_pos (c : Dev nD) (n : ℕ) (h : n ≤ cfg3.N) (hz : n ≠ 0) :
    Phi3 V c n h = iprop((owns (c : Thread nD τ) sc3 fullShare (acc3 V c (n - 1) (by omega))
      ∗ Pipeline.scopedRestBut (Ix := Unit) (Name := ℕ) (U := UR sig nD τ) (Lvl := ℕ) (Val := Elt F) spec3 c [cc3_scratch0]) ∗ (∃ r, prngReg c r)) := by
  obtain ⟨k, rfl⟩ := Nat.exists_eq_succ_of_ne_zero hz
  rfl

/-! ## The proof data of the pipeline -/

/-- The arrays as the region finds them; after the body at point t the two inputs' buffers at their blocks and the
    output's at the accumulator (stated at every point, read only where the window is written back: the last stretch
    of each row block); the invariant Phi3; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => acc3 V c t.val t.isLt
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = acc3 V c t.val t.isLt := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem Phi3_castSucc (c : Dev nD) (t : Fin cfg3.N) :
    (dat3 V c).Φ t.castSucc = Phi3 V c t.val (Nat.le_of_lt t.isLt) := rfl

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ (match cfg3.idle 2 (cfg3.grid.coords t) with
        | true =>
          match (cfg3.win 2).flush t with
          | false => iprop(∃ d, owns (c : Thread nD τ) (st3_2 t) fullShare ((dat3 V c).before 2 t d))
          | true => owns (c : Thread nD τ) (st3_2 t) fullShare ((dat3 V c).after 2 t)
        | false => owns (c : Thread nD τ) (st3_2 t) fullShare ((dat3 V c).after 2 t)))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = Phi3 V c (t.val + 1) t.isLt from rfl, Phi3_succ,
    show (dat3 V c).owesAt () t.succ = (dat3 V c).owesAt () t.castSucc from rfl,
    after3_0, after3_1, after3_2, Phi3_castSucc]
  by_cases h0 : t.val % 4 = 0
  · -- the first stretch of a row block
    have hc0 : condZ3 (grid3.coords t) := (hcondZ3 t).mpr h0
    have hc1 : ¬condL3 (grid3.coords t) := fun h => by have := (hcondL3 t).mp h; omega
    rw [acc3_reset V c t h0, idleAt3 t hc1]
    simp only [noFlush3 t hc1]
    by_cases hz : t.val = 0
    · rw [Phi3_zero V c _ _ hz, PhiA3_eq]
      iintro ⟨⟨⟨HS, Hr⟩, Hp⟩, Ho, ⟨%d0, H0⟩, ⟨%d1, H1⟩, ⟨%d2, H2⟩⟩
      iapply (sound_kernel3_A c Set.univ _ hc0 hc1 _ _ _ _ _ _ _ _ (iblk3 V c 0 t) (iblk3 V c 1 t) _ _)
      isplitl [H0]; · iexact H0
      isplitl [H1]; · iexact H1
      isplitl [H2]; · iexact H2
      isplitl [HS]; · iexact HS
      iintro ⟨H0, H1, H2, HS⟩
      isplitl [HS Hr Hp]
      · isplitl [HS Hr]
        · isplitl [HS]; · iexact HS
          iexact Hr
        iexact Hp
      isplitl [Ho]; · iexact Ho
      isplitl [H0]; · iexact H0
      isplitl [H1]; · iexact H1
      iexists _; iexact H2
    · rw [Phi3_pos V c _ _ hz]
      iintro ⟨⟨⟨HS, Hr⟩, Hp⟩, Ho, ⟨%d0, H0⟩, ⟨%d1, H1⟩, ⟨%d2, H2⟩⟩
      iapply (sound_kernel3_A c Set.univ _ hc0 hc1 _ _ _ _ _ _ _ _ (iblk3 V c 0 t) (iblk3 V c 1 t) _ _)
      isplitl [H0]; · iexact H0
      isplitl [H1]; · iexact H1
      isplitl [H2]; · iexact H2
      isplitl [HS]; · iexists _; iexact HS
      iintro ⟨H0, H1, H2, HS⟩
      isplitl [HS Hr Hp]
      · isplitl [HS Hr]
        · isplitl [HS]; · iexact HS
          iexact Hr
        iexact Hp
      isplitl [Ho]; · iexact Ho
      isplitl [H0]; · iexact H0
      isplitl [H1]; · iexact H1
      iexists _; iexact H2
  · have hc0 : ¬condZ3 (grid3.coords t) := fun h => h0 ((hcondZ3 t).mp h)
    have hz : t.val ≠ 0 := fun h => h0 (by rw [h])
    rw [Phi3_pos V c _ _ hz, acc3_step V c t h0]
    by_cases h3 : t.val % 4 = 3
    · -- the last stretch: the sum is also left in the output's buffer
      have hc1 : condL3 (grid3.coords t) := (hcondL3 t).mpr h3
      rw [liveAt3 t hc1]
      iintro ⟨⟨⟨HS, Hr⟩, Hp⟩, Ho, ⟨%d0, H0⟩, ⟨%d1, H1⟩, ⟨%d2, H2⟩⟩
      iapply (sound_kernel3_C c Set.univ _ hc0 hc1 _ _ _ _ _ _ _ _ (iblk3 V c 0 t) (iblk3 V c 1 t) _ _)
      isplitl [H0]; · iexact H0
      isplitl [H1]; · iexact H1
      isplitl [H2]; · iexists _; iexact H2
      isplitl [HS]; · iexact HS
      iintro ⟨H0, H1, H2, HS⟩
      isplitl [HS Hr Hp]
      · isplitl [HS Hr]
        · isplitl [HS]; · iexact HS
          iexact Hr
        iexact Hp
      isplitl [Ho]; · iexact Ho
      isplitl [H0]; · iexact H0
      isplitl [H1]; · iexact H1
      iexact H2
    · -- a middle stretch
      have hc1 : ¬condL3 (grid3.coords t) := fun h => h3 ((hcondL3 t).mp h)
      rw [idleAt3 t hc1]
      simp only [noFlush3 t hc1]
      iintro ⟨⟨⟨HS, Hr⟩, Hp⟩, Ho, ⟨%d0, H0⟩, ⟨%d1, H1⟩, ⟨%d2, H2⟩⟩
      iapply (sound_kernel3_B c Set.univ _ hc0 hc1 _ _ _ _ _ _ _ _ (iblk3 V c 0 t) (iblk3 V c 1 t) _ _ _)
      isplitl [H0]; · iexact H0
      isplitl [H1]; · iexact H1
      isplitl [H2]; · iexact H2
      isplitl [HS]; · iexact HS
      iintro ⟨H0, H1, H2, HS⟩
      isplitl [HS Hr Hp]
      · isplitl [HS Hr]
        · isplitl [HS]; · iexact HS
          iexact Hr
        iexact Hp
      isplitl [Ho]; · iexact Ho
      isplitl [H0]; · iexact H0
      isplitl [H1]; · iexact H1
      iexists _; iexact H2

theorem body_obligation3 (c : Dev nD) : BodyObligation (dat3 (F := F) V c) (defs₀ (F := F)) Variants.none () Set.univ := fun t => by
  rw [bigSep_W3, bigSep_W3]
  exact sound_body3 V c t

/-! ## The invariant at the region's two ends -/

theorem hin3 (c : Dev nD) : Pipeline.ΦA spec3 c ⊢ (dat3 V c).Φ 0 := .rfl

theorem hout3 (c : Dev nD) : (dat3 V c).Φ (Fin.last cfg3.N) ⊢ Pipeline.ΦA spec3 c := by
  rw [show (dat3 V c).Φ (Fin.last cfg3.N) = Phi3 V c cfg3.N (Nat.le_refl _) from rfl,
    Phi3_pos V c _ _ (by rw [show cfg3.N = 32 from N_3]; decide), PhiA3_eq]
  iintro ⟨⟨HS, Hr⟩, Hp⟩
  isplitl [HS Hr]
  · isplitl [HS]; · iexists _; iexact HS
    iexact Hr
  iexact Hp

end Cert.Kernel.Hand

end
-- ==== Proof.BitsRun.lean ====
/-
  The run of the kernel program as printed from the launch to the return: @main as eleven segments — seven stretches of
  host operations and the four kernel regions between them — each entered with every unscoped buffer of the core at
  contents named here (W0 … W11: a host stretch applies its operations to the contents before it; a region leaves its
  arrays at what its write-backs fold to and every other buffer as it found it). Every weakly fair execution
  terminates with every unscoped buffer at W11; the argument arrays are written by no segment, so they end as launched.
  Stated at any float instance F.
-/
import proofs.«122622_j10385230921953_1_alg».proof.Proof.BitsLinear
import proofs.«122622_j10385230921953_1_alg».proof.Proof.BitsDiff1
import proofs.«122622_j10385230921953_1_alg».proof.Proof.BitsDiff2
import proofs.«122622_j10385230921953_1_alg».proof.Proof.BitsDiff3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the host stretches write, and that they allocate nothing -/

theorem main_part0_ops0_fresh : (main_part0_ops0 : List (HloOp τ sig (Elt F))).Forall fun op => op.fresh = ∅ := by
  simp only [List.Forall]; repeat' constructor
theorem main_part0_ops1_fresh : (main_part0_ops1 : List (HloOp τ sig (Elt F))).Forall fun op => op.fresh = ∅ := by
  simp only [List.Forall]; repeat' constructor
theorem main_part1_ops0_fresh : (main_part1_ops0 : List (HloOp τ sig (Elt F))).Forall fun op => op.fresh = ∅ := by
  simp only [List.Forall]; repeat' constructor
theorem main_part1_ops1_fresh : (main_part1_ops1 : List (HloOp τ sig (Elt F))).Forall fun op => op.fresh = ∅ := by
  simp only [List.Forall]; repeat' constructor
theorem main_part1_ops2_fresh : (main_part1_ops2 : List (HloOp τ sig (Elt F))).Forall fun op => op.fresh = ∅ := by
  simp only [List.Forall]; repeat' constructor
theorem main_part1_ops3_fresh : (main_part1_ops3 : List (HloOp τ sig (Elt F))).Forall fun op => op.fresh = ∅ := by
  simp only [List.Forall]; repeat' constructor
theorem main_part1_ops4_fresh : (main_part1_ops4 : List (HloOp τ sig (Elt F))).Forall fun op => op.fresh = ∅ := by
  simp only [List.Forall]; repeat' constructor

/-- The buffers the operations of main_part0_ops0 write. -/
abbrev main_part0_ops0_W : List (Ref sig .tc) := [main_v0, main_v1, main_v2]
theorem main_part0_ops0_writes : (main_part0_ops0 : List (HloOp τ sig (Elt F))).Forall fun op => op.writes ⊆ (main_part0_ops0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- The buffers the operations of main_part0_ops1 write. -/
abbrev main_part0_ops1_W : List (Ref sig .tc) := [main_v4, main_v5, main_v6, main_v7, main_cst, main_v8, main_c, main_v9, main_v10, main_c_0, main_v11, main_v12, main_v13, main_c_1, main_v14, main_v15, main_c_2, main_v16, main_v17, main_v18, main_v19, main_v20, main_v21, main_cst_3, main_v22, main_v23, main_c_4, main_v24, main_v25, main_c_5, main_v26, main_v27, main_v28, main_c_6, main_v29, main_v30, main_c_7, main_v31, main_v32, main_v33, main_v34, main_v35, main_v36, main_cst_8, main_v37, main_v38, main_v39, main_v40, main_c_9, main_v41, main_v42, main_v43, main_v44, main_v45, main_cst_10, main_v46]
set_option maxHeartbeats 4000000 in
theorem main_part0_ops1_writes : (main_part0_ops1 : List (HloOp τ sig (Elt F))).Forall fun op => op.writes ⊆ (main_part0_ops1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- The buffers the operations of main_part1_ops0 write. -/
abbrev main_part1_ops0_W : List (Ref sig .tc) := [main_v47, main_cst_11, main_v48, main_v49, main_v50, main_v51, main_v52, main_v53, main_v54, main_v55, main_v56, main_v57]
theorem main_part1_ops0_writes : (main_part1_ops0 : List (HloOp τ sig (Elt F))).Forall fun op => op.writes ⊆ (main_part1_ops0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- The buffers the operations of main_part1_ops1 write. -/
abbrev main_part1_ops1_W : List (Ref sig .tc) := [main_v59, main_v60, main_v61, main_v62, main_v63, main_v64]
theorem main_part1_ops1_writes : (main_part1_ops1 : List (HloOp τ sig (Elt F))).Forall fun op => op.writes ⊆ (main_part1_ops1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- The buffers the operations of main_part1_ops2 write. -/
abbrev main_part1_ops2_W : List (Ref sig .tc) := [main_v66, main_v67, main_v68, main_v69, main_v70, main_v71]
theorem main_part1_ops2_writes : (main_part1_ops2 : List (HloOp τ sig (Elt F))).Forall fun op => op.writes ⊆ (main_part1_ops2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- The buffers the operations of main_part1_ops3 write. -/
abbrev main_part1_ops3_W : List (Ref sig .tc) := [main_v73, main_v74, main_v75, main_v76, main_v77]
theorem main_part1_ops3_writes : (main_part1_ops3 : List (HloOp τ sig (Elt F))).Forall fun op => op.writes ⊆ (main_part1_ops3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- The buffers the operations of main_part1_ops4 write. -/
abbrev main_part1_ops4_W : List (Ref sig .tc) := [main_call0_cst, main_call0_v0, main_v78]
theorem main_part1_ops4_writes : (main_part1_ops4 : List (HloOp τ sig (Elt F))).Forall fun op => op.writes ⊆ (main_part1_ops4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

variable (m : (ℓ : Loc nD τ sig) → Buf (Elt F) ℓ) (ρ : Dev nD → PrngReg)

/-! ## The buffers' contents at each segment boundary -/

/-- Core c's buffers at launch. -/
abbrev W0 : Dev nD → Valuation τ sig (Elt F) := fun c b => (s₀ m ρ).mem ((c : Dev nD), b)
/-- After the first host stretch: region 0's entry. -/
abbrev W1 : Dev nD → Valuation τ sig (Elt F) := fun c => StableHlo.after main_part0_ops0 (W0 m ρ c)
theorem W1_of (c : Dev nD) (r : Ref sig .tc) (h : r ∉ main_part0_ops0_W) : W1 m ρ c r = W0 m ρ c r :=
  StableHlo.after_of_writes_sub main_part0_ops0 _ main_part0_ops0_writes h

abbrev V1 : (c : Dev nD) → (b : Ref sig .tc) → Buf (Elt F) ((c : Thread nD τ).loc b) := fun c b => W1 m ρ c b

/-- At region 0's exit: its arrays at what the pipeline leaves (the inputs as entered, the output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch. -/
abbrev W3 : Dev nD → Valuation τ sig (Elt F) := fun c => StableHlo.after main_part0_ops1 (W2 m ρ c)
theorem W3_of (c : Dev nD) (r : Ref sig .tc) (h : r ∉ main_part0_ops1_W) : W3 m ρ c r = W2 m ρ c r :=
  StableHlo.after_of_writes_sub main_part0_ops1 _ main_part0_ops1_writes h

/-- After the third host stretch: region 1's entry. -/
abbrev W4 : Dev nD → Valuation τ sig (Elt F) := fun c => StableHlo.after main_part1_ops0 (W3 m ρ c)
theorem W4_of (c : Dev nD) (r : Ref sig .tc) (h : r ∉ main_part1_ops0_W) : W4 m ρ c r = W3 m ρ c r :=
  StableHlo.after_of_writes_sub main_part1_ops0 _ main_part1_ops0_writes h

abbrev V4 : (c : Dev nD) → (b : Ref sig .tc) → Buf (Elt F) ((c : Thread nD τ).loc b) := fun c b => W4 m ρ c b

/-- At region 1's exit: its arrays at what the pipeline leaves (the inputs as entered, the output's write-backs folded),
    every other buffer as entered. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
abbrev V5 : (c : Dev nD) → (b : Ref sig .tc) → Buf (Elt F) ((c : Thread nD τ).loc b) := fun c b => W5 m ρ c b
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-- After the fourth host stretch: region 2's entry. -/
abbrev W6 : Dev nD → Valuation τ sig (Elt F) := fun c => StableHlo.after main_part1_ops1 (W5 m ρ c)
theorem W6_of (c : Dev nD) (r : Ref sig .tc) (h : r ∉ main_part1_ops1_W) : W6 m ρ c r = W5 m ρ c r :=
  StableHlo.after_of_writes_sub main_part1_ops1 _ main_part1_ops1_writes h

abbrev V6 : (c : Dev nD) → (b : Ref sig .tc) → Buf (Elt F) ((c : Thread nD τ).loc b) := fun c b => W6 m ρ c b

/-- At region 2's exit: its arrays at what the pipeline leaves (the inputs as entered, the output's write-backs folded),
    every other buffer as entered. -/
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
abbrev V7 : (c : Dev nD) → (b : Ref sig .tc) → Buf (Elt F) ((c : Thread nD τ).loc b) := fun c b => W7 m ρ c b
theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)

/-- After the fifth host stretch: region 3's entry. -/
abbrev W8 : Dev nD → Valuation τ sig (Elt F) := fun c => StableHlo.after main_part1_ops2 (W7 m ρ c)
theorem W8_of (c : Dev nD) (r : Ref sig .tc) (h : r ∉ main_part1_ops2_W) : W8 m ρ c r = W7 m ρ c r :=
  StableHlo.after_of_writes_sub main_part1_ops2 _ main_part1_ops2_writes h

abbrev V8 : (c : Dev nD) → (b : Ref sig .tc) → Buf (Elt F) ((c : Thread nD τ).loc b) := fun c b => W8 m ρ c b

/-- At region 3's exit: its arrays at what the pipeline leaves (the inputs as entered, the output's write-backs folded),
    every other buffer as entered. -/
def W9 (c : Dev nD) : Valuation τ sig (Elt F) :=
  Pipeline.withArrays spec3 c (W8 m ρ c) fun w => (dat3 (V8 m ρ) c).arrAt w cfg3.N
theorem W9_arr (c : Dev nD) (w : Fin cfg3.W) :
    W9 m ρ c (Proc.devRef .tc (Pipeline.arrRef spec3 w)) = (dat3 (V8 m ρ) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m ρ c (Proc.devRef .tc b) = W8 m ρ c (Proc.devRef .tc b) := by
  unfold W9; exact Pipeline.withArrays_of_ne spec3 c _ _ b hb
abbrev V9 : (c : Dev nD) → (b : Ref sig .tc) → Buf (Elt F) ((c : Thread nD τ).loc b) := fun c b => W9 m ρ c b
theorem hF3 (c : Dev nD) (w : Fin cfg3.W) : (dat3 (V8 m ρ) c).arrAt w cfg3.N = V9 m ρ c (Pipeline.arrRef spec3 w) :=
  (W9_arr m ρ c w).symm
theorem hrest3 (c : Dev nD) : ∀ b, b ∉ Finset.univ.image (Pipeline.arrRef spec3) → V9 m ρ c b = V8 m ρ c b :=
  fun b hb => W9_of_ne m ρ c b fun w e => hb (Finset.mem_image.mpr ⟨w, Finset.mem_univ _, e⟩)

/-- After the sixth host stretch. -/
abbrev W10 : Dev nD → Valuation τ sig (Elt F) := fun c => StableHlo.after main_part1_ops3 (W9 m ρ c)
theorem W10_of (c : Dev nD) (r : Ref sig .tc) (h : r ∉ main_part1_ops3_W) : W10 m ρ c r = W9 m ρ c r :=
  StableHlo.after_of_writes_sub main_part1_ops3 _ main_part1_ops3_writes h

/-- After the last host stretch (the rectifier): the contents at the return. -/
abbrev W11 : Dev nD → Valuation τ sig (Elt F) := fun c => StableHlo.after main_part1_ops4 (W10 m ρ c)
theorem W11_of (c : Dev nD) (r : Ref sig .tc) (h : r ∉ main_part1_ops4_W) : W11 m ρ c r = W10 m ρ c r :=
  StableHlo.after_of_writes_sub main_part1_ops4 _ main_part1_ops4_writes h

/-! ## The arguments end as launched: no host operation writes one and no region has one among its arrays -/

theorem W1_main_arg0 (c : Dev nD) : W1 m ρ c (Proc.devRef .tc main_arg0) = m ((c : Thread nD τ).loc main_arg0) := (W1_of m ρ c main_arg0 (by decide)).trans (rfl)
theorem W2_main_arg0 (c : Dev nD) : W2 m ρ c (Proc.devRef .tc main_arg0) = m ((c : Thread nD τ).loc main_arg0) := (W2_of_ne m ρ c main_arg0 (by decide)).trans (W1_main_arg0 m ρ c)
theorem W3_main_arg0 (c : Dev nD) : W3 m ρ c (Proc.devRef .tc main_arg0) = m ((c : Thread nD τ).loc main_arg0) := (W3_of m ρ c main_arg0 (by decide)).trans (W2_main_arg0 m ρ c)
theorem W4_main_arg0 (c : Dev nD) : W4 m ρ c (Proc.devRef .tc main_arg0) = m ((c : Thread nD τ).loc main_arg0) := (W4_of m ρ c main_arg0 (by decide)).trans (W3_main_arg0 m ρ c)
theorem W5_main_arg0 (c : Dev nD) : W5 m ρ c (Proc.devRef .tc main_arg0) = m ((c : Thread nD τ).loc main_arg0) := (W5_of_ne m ρ c main_arg0 (by decide)).trans (W4_main_arg0 m ρ c)
theorem W6_main_arg0 (c : Dev nD) : W6 m ρ c (Proc.devRef .tc main_arg0) = m ((c : Thread nD τ).loc main_arg0) := (W6_of m ρ c main_arg0 (by decide)).trans (W5_main_arg0 m ρ c)
theorem W7_main_arg0 (c : Dev nD) : W7 m ρ c (Proc.devRef .tc main_arg0) = m ((c : Thread nD τ).loc main_arg0) := (W7_of_ne m ρ c main_arg0 (by decide)).trans (W6_main_arg0 m ρ c)
theorem W8_main_arg0 (c : Dev nD) : W8 m ρ c (Proc.devRef .tc main_arg0) = m ((c : Thread nD τ).loc main_arg0) := (W8_of m ρ c main_arg0 (by decide)).trans (W7_main_arg0 m ρ c)
theorem W9_main_arg0 (c : Dev nD) : W9 m ρ c (Proc.devRef .tc main_arg0) = m ((c : Thread nD τ).loc main_arg0) := (W9_of_ne m ρ c main_arg0 (by decide)).trans (W8_main_arg0 m ρ c)
theorem W10_main_arg0 (c : Dev nD) : W10 m ρ c (Proc.devRef .tc main_arg0) = m ((c : Thread nD τ).loc main_arg0) := (W10_of m ρ c main_arg0 (by decide)).trans (W9_main_arg0 m ρ c)
theorem W11_main_arg0 (c : Dev nD) : W11 m ρ c (Proc.devRef .tc main_arg0) = m ((c : Thread nD τ).loc main_arg0) := (W11_of m ρ c main_arg0 (by decide)).trans (W10_main_arg0 m ρ c)

theorem W1_main_arg1 (c : Dev nD) : W1 m ρ c (Proc.devRef .tc main_arg1) = m ((c : Thread nD τ).loc main_arg1) := (W1_of m ρ c main_arg1 (by decide)).trans (rfl)
theorem W2_main_arg1 (c : Dev nD) : W2 m ρ c (Proc.devRef .tc main_arg1) = m ((c : Thread nD τ).loc main_arg1) := (W2_of_ne m ρ c main_arg1 (by decide)).trans (W1_main_arg1 m ρ c)
theorem W3_main_arg1 (c : Dev nD) : W3 m ρ c (Proc.devRef .tc main_arg1) = m ((c : Thread nD τ).loc main_arg1) := (W3_of m ρ c main_arg1 (by decide)).trans (W2_main_arg1 m ρ c)
theorem W4_main_arg1 (c : Dev nD) : W4 m ρ c (Proc.devRef .tc main_arg1) = m ((c : Thread nD τ).loc main_arg1) := (W4_of m ρ c main_arg1 (by decide)).trans (W3_main_arg1 m ρ c)
theorem W5_main_arg1 (c : Dev nD) : W5 m ρ c (Proc.devRef .tc main_arg1) = m ((c : Thread nD τ).loc main_arg1) := (W5_of_ne m ρ c main_arg1 (by decide)).trans (W4_main_arg1 m ρ c)
theorem W6_main_arg1 (c : Dev nD) : W6 m ρ c (Proc.devRef .tc main_arg1) = m ((c : Thread nD τ).loc main_arg1) := (W6_of m ρ c main_arg1 (by decide)).trans (W5_main_arg1 m ρ c)
theorem W7_main_arg1 (c : Dev nD) : W7 m ρ c (Proc.devRef .tc main_arg1) = m ((c : Thread nD τ).loc main_arg1) := (W7_of_ne m ρ c main_arg1 (by decide)).trans (W6_main_arg1 m ρ c)
theorem W8_main_arg1 (c : Dev nD) : W8 m ρ c (Proc.devRef .tc main_arg1) = m ((c : Thread nD τ).loc main_arg1) := (W8_of m ρ c main_arg1 (by decide)).trans (W7_main_arg1 m ρ c)
theorem W9_main_arg1 (c : Dev nD) : W9 m ρ c (Proc.devRef .tc main_arg1) = m ((c : Thread nD τ).loc main_arg1) := (W9_of_ne m ρ c main_arg1 (by decide)).trans (W8_main_arg1 m ρ c)
theorem W10_main_arg1 (c : Dev nD) : W10 m ρ c (Proc.devRef .tc main_arg1) = m ((c : Thread nD τ).loc main_arg1) := (W10_of m ρ c main_arg1 (by decide)).trans (W9_main_arg1 m ρ c)
theorem W11_main_arg1 (c : Dev nD) : W11 m ρ c (Proc.devRef .tc main_arg1) = m ((c : Thread nD τ).loc main_arg1) := (W11_of m ρ c main_arg1 (by decide)).trans (W10_main_arg1 m ρ c)

theorem W1_main_arg2 (c : Dev nD) : W1 m ρ c (Proc.devRef .tc main_arg2) = m ((c : Thread nD τ).loc main_arg2) := (W1_of m ρ c main_arg2 (by decide)).trans (rfl)
theorem W2_main_arg2 (c : Dev nD) : W2 m ρ c (Proc.devRef .tc main_arg2) = m ((c : Thread nD τ).loc main_arg2) := (W2_of_ne m ρ c main_arg2 (by decide)).trans (W1_main_arg2 m ρ c)
theorem W3_main_arg2 (c : Dev nD) : W3 m ρ c (Proc.devRef .tc main_arg2) = m ((c : Thread nD τ).loc main_arg2) := (W3_of m ρ c main_arg2 (by decide)).trans (W2_main_arg2 m ρ c)
theorem W4_main_arg2 (c : Dev nD) : W4 m ρ c (Proc.devRef .tc main_arg2) = m ((c : Thread nD τ).loc main_arg2) := (W4_of m ρ c main_arg2 (by decide)).trans (W3_main_arg2 m ρ c)
theorem W5_main_arg2 (c : Dev nD) : W5 m ρ c (Proc.devRef .tc main_arg2) = m ((c : Thread nD τ).loc main_arg2) := (W5_of_ne m ρ c main_arg2 (by decide)).trans (W4_main_arg2 m ρ c)
theorem W6_main_arg2 (c : Dev nD) : W6 m ρ c (Proc.devRef .tc main_arg2) = m ((c : Thread nD τ).loc main_arg2) := (W6_of m ρ c main_arg2 (by decide)).trans (W5_main_arg2 m ρ c)
theorem W7_main_arg2 (c : Dev nD) : W7 m ρ c (Proc.devRef .tc main_arg2) = m ((c : Thread nD τ).loc main_arg2) := (W7_of_ne m ρ c main_arg2 (by decide)).trans (W6_main_arg2 m ρ c)
theorem W8_main_arg2 (c : Dev nD) : W8 m ρ c (Proc.devRef .tc main_arg2) = m ((c : Thread nD τ).loc main_arg2) := (W8_of m ρ c main_arg2 (by decide)).trans (W7_main_arg2 m ρ c)
theorem W9_main_arg2 (c : Dev nD) : W9 m ρ c (Proc.devRef .tc main_arg2) = m ((c : Thread nD τ).loc main_arg2) := (W9_of_ne m ρ c main_arg2 (by decide)).trans (W8_main_arg2 m ρ c)
theorem W10_main_arg2 (c : Dev nD) : W10 m ρ c (Proc.devRef .tc main_arg2) = m ((c : Thread nD τ).loc main_arg2) := (W10_of m ρ c main_arg2 (by decide)).trans (W9_main_arg2 m ρ c)
theorem W11_main_arg2 (c : Dev nD) : W11 m ρ c (Proc.devRef .tc main_arg2) = m ((c : Thread nD τ).loc main_arg2) := (W11_of m ρ c main_arg2 (by decide)).trans (W10_main_arg2 m ρ c)

theorem W1_main_arg3 (c : Dev nD) : W1 m ρ c (Proc.devRef .tc main_arg3) = m ((c : Thread nD τ).loc main_arg3) := (W1_of m ρ c main_arg3 (by decide)).trans (rfl)
theorem W2_main_arg3 (c : Dev nD) : W2 m ρ c (Proc.devRef .tc main_arg3) = m ((c : Thread nD τ).loc main_arg3) := (W2_of_ne m ρ c main_arg3 (by decide)).trans (W1_main_arg3 m ρ c)
theorem W3_main_arg3 (c : Dev nD) : W3 m ρ c (Proc.devRef .tc main_arg3) = m ((c : Thread nD τ).loc main_arg3) := (W3_of m ρ c main_arg3 (by decide)).trans (W2_main_arg3 m ρ c)
theorem W4_main_arg3 (c : Dev nD) : W4 m ρ c (Proc.devRef .tc main_arg3) = m ((c : Thread nD τ).loc main_arg3) := (W4_of m ρ c main_arg3 (by decide)).trans (W3_main_arg3 m ρ c)
theorem W5_main_arg3 (c : Dev nD) : W5 m ρ c (Proc.devRef .tc main_arg3) = m ((c : Thread nD τ).loc main_arg3) := (W5_of_ne m ρ c main_arg3 (by decide)).trans (W4_main_arg3 m ρ c)
theorem W6_main_arg3 (c : Dev nD) : W6 m ρ c (Proc.devRef .tc main_arg3) = m ((c : Thread nD τ).loc main_arg3) := (W6_of m ρ c main_arg3 (by decide)).trans (W5_main_arg3 m ρ c)
theorem W7_main_arg3 (c : Dev nD) : W7 m ρ c (Proc.devRef .tc main_arg3) = m ((c : Thread nD τ).loc main_arg3) := (W7_of_ne m ρ c main_arg3 (by decide)).trans (W6_main_arg3 m ρ c)
theorem W8_main_arg3 (c : Dev nD) : W8 m ρ c (Proc.devRef .tc main_arg3) = m ((c : Thread nD τ).loc main_arg3) := (W8_of m ρ c main_arg3 (by decide)).trans (W7_main_arg3 m ρ c)
theorem W9_main_arg3 (c : Dev nD) : W9 m ρ c (Proc.devRef .tc main_arg3) = m ((c : Thread nD τ).loc main_arg3) := (W9_of_ne m ρ c main_arg3 (by decide)).trans (W8_main_arg3 m ρ c)
theorem W10_main_arg3 (c : Dev nD) : W10 m ρ c (Proc.devRef .tc main_arg3) = m ((c : Thread nD τ).loc main_arg3) := (W10_of m ρ c main_arg3 (by decide)).trans (W9_main_arg3 m ρ c)
theorem W11_main_arg3 (c : Dev nD) : W11 m ρ c (Proc.devRef .tc main_arg3) = m ((c : Thread nD τ).loc main_arg3) := (W11_of m ρ c main_arg3 (by decide)).trans (W10_main_arg3 m ρ c)

theorem W1_main_arg4 (c : Dev nD) : W1 m ρ c (Proc.devRef .tc main_arg4) = m ((c : Thread nD τ).loc main_arg4) := (W1_of m ρ c main_arg4 (by decide)).trans (rfl)
theorem W2_main_arg4 (c : Dev nD) : W2 m ρ c (Proc.devRef .tc main_arg4) = m ((c : Thread nD τ).loc main_arg4) := (W2_of_ne m ρ c main_arg4 (by decide)).trans (W1_main_arg4 m ρ c)
theorem W3_main_arg4 (c : Dev nD) : W3 m ρ c (Proc.devRef .tc main_arg4) = m ((c : Thread nD τ).loc main_arg4) := (W3_of m ρ c main_arg4 (by decide)).trans (W2_main_arg4 m ρ c)
theorem W4_main_arg4 (c : Dev nD) : W4 m ρ c (Proc.devRef .tc main_arg4) = m ((c : Thread nD τ).loc main_arg4) := (W4_of m ρ c main_arg4 (by decide)).trans (W3_main_arg4 m ρ c)
theorem W5_main_arg4 (c : Dev nD) : W5 m ρ c (Proc.devRef .tc main_arg4) = m ((c : Thread nD τ).loc main_arg4) := (W5_of_ne m ρ c main_arg4 (by decide)).trans (W4_main_arg4 m ρ c)
theorem W6_main_arg4 (c : Dev nD) : W6 m ρ c (Proc.devRef .tc main_arg4) = m ((c : Thread nD τ).loc main_arg4) := (W6_of m ρ c main_arg4 (by decide)).trans (W5_main_arg4 m ρ c)
theorem W7_main_arg4 (c : Dev nD) : W7 m ρ c (Proc.devRef .tc main_arg4) = m ((c : Thread nD τ).loc main_arg4) := (W7_of_ne m ρ c main_arg4 (by decide)).trans (W6_main_arg4 m ρ c)
theorem W8_main_arg4 (c : Dev nD) : W8 m ρ c (Proc.devRef .tc main_arg4) = m ((c : Thread nD τ).loc main_arg4) := (W8_of m ρ c main_arg4 (by decide)).trans (W7_main_arg4 m ρ c)
theorem W9_main_arg4 (c : Dev nD) : W9 m ρ c (Proc.devRef .tc main_arg4) = m ((c : Thread nD τ).loc main_arg4) := (W9_of_ne m ρ c main_arg4 (by decide)).trans (W8_main_arg4 m ρ c)
theorem W10_main_arg4 (c : Dev nD) : W10 m ρ c (Proc.devRef .tc main_arg4) = m ((c : Thread nD τ).loc main_arg4) := (W10_of m ρ c main_arg4 (by decide)).trans (W9_main_arg4 m ρ c)
theorem W11_main_arg4 (c : Dev nD) : W11 m ρ c (Proc.devRef .tc main_arg4) = m ((c : Thread nD τ).loc main_arg4) := (W11_of m ρ c main_arg4 (by decide)).trans (W10_main_arg4 m ρ c)

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V4 m ρ) c
  | ⟨2, _⟩ => fun c => dat2 (V6 m ρ) c
  | ⟨3, _⟩ => fun c => dat3 (V8 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped buffers from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered with every unscoped buffer at W1, left with them at W2. Its arrays
    are split out of the unscoped buffers at entry and put back at what the write-backs leave at the exit; the generator
    register and the scoped rest go into the invariant and come back; nothing is owed; the kernel has no semaphore of
    its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (V1 m ρ) c
    unfold Pipeline.ΦA at h
    rw [show (pdats m ρ 0 c).Φ 0 = (dat0 (V1 m ρ) c).Φ 0 from rfl]
    iintro ⟨Hp, -, Hr⟩
    iapply h
    isplitl [Hr]; · iexact Hr
    iexact Hp
  hout c := by
    have h := hout0 (V1 m ρ) c
    unfold Pipeline.ΦA at h
    rw [Pipeline.ownSems0_none, show (pdats m ρ 0 c).Φ (Fin.last _) = (dat0 (V1 m ρ) c).Φ (Fin.last cfg0.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at W4, left with them at W5. Its arrays
    are split out of the unscoped buffers at entry and put back at what the write-backs leave at the exit; the generator
    register and the scoped rest go into the invariant and come back; nothing is owed; the kernel has no semaphore of
    its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (V4 m ρ) c
    unfold Pipeline.ΦA at h
    rw [show (pdats m ρ 1 c).Φ 0 = (dat1 (V4 m ρ) c).Φ 0 from rfl]
    iintro ⟨Hp, -, Hr⟩
    iapply h
    isplitl [Hr]; · iexact Hr
    iexact Hp
  hout c := by
    have h := hout1 (V4 m ρ) c
    unfold Pipeline.ΦA at h
    rw [Pipeline.ownSems0_none, show (pdats m ρ 1 c).Φ (Fin.last _) = (dat1 (V4 m ρ) c).Φ (Fin.last cfg1.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at W6, left with them at W7. Its arrays
    are split out of the unscoped buffers at entry and put back at what the write-backs leave at the exit; the generator
    register and the scoped rest go into the invariant and come back; nothing is owed; the kernel has no semaphore of
    its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin2 (V6 m ρ) c
    unfold Pipeline.ΦA at h
    rw [show (pdats m ρ 2 c).Φ 0 = (dat2 (V6 m ρ) c).Φ 0 from rfl]
    iintro ⟨Hp, -, Hr⟩
    iapply h
    isplitl [Hr]; · iexact Hr
    iexact Hp
  hout c := by
    have h := hout2 (V6 m ρ) c
    unfold Pipeline.ΦA at h
    rw [Pipeline.ownSems0_none, show (pdats m ρ 2 c).Φ (Fin.last _) = (dat2 (V6 m ρ) c).Φ (Fin.last cfg2.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at W8, left with them at W9. Its arrays
    are split out of the unscoped buffers at entry and put back at what the write-backs leave at the exit; the generator
    register and the scoped rest go into the invariant and come back; nothing is owed; the kernel has no semaphore of
    its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m ρ) c).loose
  hwaits := Pipeline.hwaits_of_owed_zero _ _ _ _ L lv 3 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec3 c (V8 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin3 (V8 m ρ) c
    unfold Pipeline.ΦA at h
    rw [show (pdats m ρ 3 c).Φ 0 = (dat3 (V8 m ρ) c).Φ 0 from rfl]
    iintro ⟨Hp, -, Hr⟩
    iapply h
    isplitl [Hr]; · iexact Hr
    iexact Hp
  hout c := by
    have h := hout3 (V8 m ρ) c
    unfold Pipeline.ΦA at h
    rw [Pipeline.ownSems0_none, show (pdats m ρ 3 c).Φ (Fin.last _) = (dat3 (V8 m ρ) c).Φ (Fin.last cfg3.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V8 m ρ c) (V9 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg main_part0_ops0 main_part0_ops0_sub main_part0_ops0_fresh (W0 m ρ)),
    .region (reg0 m ρ),
    .host (hseg main_part0_ops1 main_part0_ops1_sub main_part0_ops1_fresh (W2 m ρ)),
    .host (hseg main_part1_ops0 main_part1_ops0_sub main_part1_ops0_fresh (W3 m ρ)),
    .region (reg1 m ρ),
    .host (hseg main_part1_ops1 main_part1_ops1_sub main_part1_ops1_fresh (W5 m ρ)),
    .region (reg2 m ρ),
    .host (hseg main_part1_ops2 main_part1_ops2_sub main_part1_ops2_fresh (W7 m ρ)),
    .region (reg3 m ρ),
    .host (hseg main_part1_ops3 main_part1_ops3_sub main_part1_ops3_fresh (W9 m ρ)),
    .host (hseg main_part1_ops4 main_part1_ops4_sub main_part1_ops4_fresh (W10 m ρ)) ]

theorem main_run (c : Dev nD) : main (F := F) c = Pipeline.Seg.run (segs m ρ) := (main_chain_windows c).trans (by chain_rfl)

set_option backward.isDefEq.respectTransparency.types false in
/-- THE RUN: from any memory with zero counters every weakly fair execution of @main on the TensorCores terminates,
    nothing faulting, and every final state holds each unscoped buffer of each core at W11. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W11 m ρ c) ∗ ∃ r, prngReg c r))
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (W11 m ρ c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c)⟩) (run_main m ρ)

end Cert.Kernel.Hand

end
-- ==== Proof.Linear.lean ====
/-
  Region 0 of the idealized kernel program: the linear layer, one pallas_call on a grid of 4 row blocks.
  At point t the body reads the 2048x512 block t of the (already narrowed) input matrix, the whole 512x512
  weight matrix and the 1x512 bias row, and stores the block  x_t · W + b  (bias repeated down the rows) into
  the output's staging buffer, which the pipeline writes back as row block t of the 8192x512 result.
  Stated at any float instance F, at a parameter V: the contents of the core's buffers when the region is entered.
-/
import proofs.«122622_j10385230921953_1_alg».proof.Proof.Gen.KernelIdeal.Launch
import proofs.«122622_j10385230921953_1_alg».proof.Proof.Gen.KernelIdeal.Skeleton
import proofs.«122622_j10385230921953_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangle of the output's 2048x512 staging buffer. -/
abbrev rOut0 : Rect S2048x512 := Rect.unit (s := S2048x512) ![0, 0] S2048x512.size inb_S2048x512_S2048x512_0_0

/-- What the body leaves in the output's staging buffer: its one store, of the product-plus-bias block. -/
def out0 (x : Vec F S2048x512 .bf16) (w : Vec F S512x512 .bf16) (b : Vec F S1x512 .f32) : Vec F S2048x512 .f32 :=
  k0_pay1 x w b

theorem hz2 : (![0, 0] : Fin 2 → Nat) = fun _ => 0 := by funext a; fin_cases a <;> rfl

theorem cover_out0 (p0 : Vec F S2048x512 .f32) (y : S2048x512.Idx) :
    ∃ pc ∈ ([⟨rOut0, p0⟩] : List (View.Piece (Elt F) S2048x512 .f32)), y ∈ pc.1.set :=
  View.cover_of_tiled [⟨rOut0, p0⟩] S2048x512.size (by rfl) y

set_option maxHeartbeats 1000000 in
/-- The body on whole staging memrefs: the three inputs are read and left as they were, the output's buffer
    ends at out0 of them. -/
theorem sound_kernel0 (c : Dev nD) (E : Set ℕ) (i : grid0.Coords)
    (arg1 : Memref sig .tc .vmem S2048x512 .bf16) (harg1 : arg1.IsWhole) (arg2 : Memref sig .tc .vmem S512x512 .bf16) (harg2 : arg2.IsWhole)
    (arg3 : Memref sig .tc .vmem S1x512 .f32) (harg3 : arg3.IsWhole) (arg4 : Memref sig .tc .vmem S2048x512 .f32) (harg4 : arg4.IsWhole)
    (x : Vec F S2048x512 .bf16) (w : Vec F S512x512 .bf16) (b : Vec F S1x512 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (out0 x w b)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (cover_out0 (F := F) _), View.canon_unit_zero hz2]
  unfold out0
  simp only [View.readAt_eq_ld, View.ld_unit_zero (S := S2048x512) hz2, View.ld_unit_zero (S := S512x512) hz2, View.ld_unit_zero (S := S1x512) hz2]

/-! ## The proof data of the pipeline -/

/-- Each input window's current staging buffer holds its block at every point, fetched there or not, for any proof
    data whose array is V's and whose body leaves the block in place (the window is uncut and never idle). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The proof data of pipeline 0 on core c: the arrays as the region finds them; after the body at point t each
    input's buffer at its block and the output's at out0 of the three input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

/-! ## The invariant at the region's two ends: it is the plain one throughout -/

theorem hin0 (c : Dev nD) : Pipeline.ΦA spec0 c ⊢ (dat0 V c).Φ 0 := .rfl
theorem hout0 (c : Dev nD) : (dat0 V c).Φ (Fin.last cfg0.N) ⊢ Pipeline.ΦA spec0 c := .rfl

end Cert.KernelIdeal.Hand

end
-- ==== Proof.Diff1.lean ====
/-
  Region 1 of the idealized kernel program: one diffusion hop, the product of the 8192x8192 normalized adjacency with
  an 8192x512 matrix, on a grid of 8 row blocks by 4 column stretches. At point (i, k) the body reads the 1024x2048
  block (i, k) of the adjacency and the 2048x512 block k of the right factor. A scratch accumulator carried between
  the points is reset to zero where k = 0, the block product is added to it at every point, and where k = 3 the
  accumulator is copied into the output's staging buffer, which the pipeline writes back as row block i.
  Stated at any float instance F, at a parameter V: the contents of the core's buffers when the region is entered.
-/
import proofs.«122622_j10385230921953_1_alg».proof.Proof.Gen.KernelIdeal.Launch
import proofs.«122622_j10385230921953_1_alg».proof.Proof.Gen.KernelIdeal.Skeleton
import proofs.«122622_j10385230921953_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, for any proof data whose array is V's and
    whose body leaves the block in place (the window is uncut and never idle). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, decided over the grid -/

/-- The reset branch is taken where the second grid coordinate is 0. -/
abbrev condZ1 (i : grid1.Coords) : Prop := (Scalar.cmpi .ne (Scalar.extui (Scalar.cmpi .eq (BitVec.ofNat 32 (i 1).val) 0#32)) 0#32) = 1#1
theorem hcondZ1 : ∀ t : Fin cfg1.N, condZ1 (grid1.coords t) ↔ t.val % 4 = 0 :=
  (by decide +kernel : ∀ t : Fin grid1.N, condZ1 (grid1.coords t) ↔ t.val % 4 = 0)
/-- The copy-out branch is taken where the second grid coordinate is 3. -/
abbrev condL1 (i : grid1.Coords) : Prop := k1_cond2 i = 1#1
theorem hcondL1 : ∀ t : Fin cfg1.N, condL1 (grid1.coords t) ↔ t.val % 4 = 3 :=
  (by decide +kernel : ∀ t : Fin grid1.N, condL1 (grid1.coords t) ↔ t.val % 4 = 3)

/-- Where the copy-out branch is not taken the output window is idle and is not written back; where it is taken the
    window is live. -/
theorem idleAt1 : ∀ t : Fin grid1.N, ¬condL1 (grid1.coords t) → idle1 2 (grid1.coords t) = true := by decide +kernel
theorem noFlush1 : ∀ t : Fin grid1.N, ¬condL1 (grid1.coords t) → (win1 2).flush t = false := by decide +kernel
theorem liveAt1 : ∀ t : Fin grid1.N, condL1 (grid1.coords t) → idle1 2 (grid1.coords t) = false := by decide +kernel

/-! ## The body's triple, case by case -/

theorem hz2_1 : (![0, 0] : Fin 2 → Nat) = fun _ => 0 := by funext a; fin_cases a <;> rfl

/-- The scratch accumulator as a memref: a whole scoped buffer of the kernel's own. -/
abbrev sc1 : Memref sig .tc .vmem S1024x512 .f32 := Memref.whole cc1_scratch0

set_option maxHeartbeats 2000000 in
/-- First stretch of a row block (k = 0): the accumulator is reset and the block product added; the output's buffer is
    not touched. -/
theorem sound_kernel1_A (c : Dev nD) (E : Set ℕ) (i : grid1.Coords) (hc0 : condZ1 i) (hc1 : ¬condL1 i)
    (arg2 : Memref sig .tc .vmem S1024x2048 .bf16) (harg2 : arg2.IsWhole) (arg3 : Memref sig .tc .vmem S2048x512 .bf16) (harg3 : arg3.IsWhole)
    (arg4 : Memref sig .tc .vmem S1024x512 .f32) (harg4 : arg4.IsWhole) (arg5 : Memref sig .tc .vmem S1024x512 .f32) (harg5 : arg5.IsWhole)
    (x : Vec F S1024x2048 .bf16) (y : Vec F S2048x512 .bf16) (o : Vec F S1024x512 .f32) (K : PUnit → sProp 𝕄) :
    iprop(owns (c : Thread nD τ) arg2 fullShare x ∗ owns (c : Thread nD τ) arg3 fullShare y ∗ owns (c : Thread nD τ) arg4 fullShare o
        ∗ (∃ d, owns (c : Thread nD τ) arg5 fullShare d)
        ∗ (iprop(owns (c : Thread nD τ) arg2 fullShare x ∗ owns (c : Thread nD τ) arg3 fullShare y ∗ owns (c : Thread nD τ) arg4 fullShare o
            ∗ owns (c : Thread nD τ) arg5 fullShare (k1_pay2 (k1_pay1 (F := F)) x y)) -∗ K ⟨⟩))
      ⊢ wp frame (wpE (defs₀ (F := F)) Variants.none c none) E (cc1__diff_kernel i arg2 harg2 arg3 harg3 arg4 harg4 arg5 harg5) K := by
  simp only [cc1__diff_kernel_eq_skeleton]; unfold cc1__diff_kernel_skel
  unfold owns
  iintro ⟨⟨%f2, %hf2, H2⟩, ⟨%f3, %hf3, H3⟩, ⟨%f4, %hf4, H4⟩, ⟨%d5, %f5, -, H5⟩, Hk⟩
  subst hf2; subst hf3; subst hf4
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (fun y => ⟨_, List.mem_cons_self .., View.mem_set_unit_zero hz2_1 inb_S1024x512_S1024x512_0_0 y⟩),
    View.canon_cons_unit_zero hz2_1]
  sl_unfold_words
  rw [View.readCov_unit_zero _ hz2_1]
  simp only [View.readAt_eq_ld, View.ld_unit_zero (S := S1024x2048) hz2_1, View.ld_unit_zero (S := S2048x512) hz2_1]

set_option maxHeartbeats 2000000 in
/-- A middle stretch (k = 1, 2): the block product is added to what the accumulator held; the output's buffer is not
    touched. -/
theorem sound_kernel1_B (c : Dev nD) (E : Set ℕ) (i : grid1.Coords) (hc0 : ¬condZ1 i) (hc1 : ¬condL1 i)
    (arg2 : Memref sig .tc .vmem S1024x2048 .bf16) (harg2 : arg2.IsWhole) (arg3 : Memref sig .tc .vmem S2048x512 .bf16) (harg3 : arg3.IsWhole)
    (arg4 : Memref sig .tc .vmem S1024x512 .f32) (harg4 : arg4.IsWhole) (arg5 : Memref sig .tc .vmem S1024x512 .f32) (harg5 : arg5.IsWhole)
    (x : Vec F S1024x2048 .bf16) (y : Vec F S2048x512 .bf16) (o : Vec F S1024x512 .f32) (s : Vec F S1024x512 .f32) (K : PUnit → sProp 𝕄) :
    iprop(owns (c : Thread nD τ) arg2 fullShare x ∗ owns (c : Thread nD τ) arg3 fullShare y ∗ owns (c : Thread nD τ) arg4 fullShare o
        ∗ owns (c : Thread nD τ) arg5 fullShare s
        ∗ (iprop(owns (c : Thread nD τ) arg2 fullShare x ∗ owns (c : Thread nD τ) arg3 fullShare y ∗ owns (c : Thread nD τ) arg4 fullShare o
            ∗ owns (c : Thread nD τ) arg5 fullShare (k1_pay2 s x y)) -∗ K ⟨⟩))
      ⊢ wp frame (wpE (defs₀ (F := F)) Variants.none c none) E (cc1__diff_kernel i arg2 harg2 arg3 harg3 arg4 harg4 arg5 harg5) K := by
  simp only [cc1__diff_kernel_eq_skeleton]; unfold cc1__diff_kernel_skel
  unfold owns
  iintro ⟨⟨%f2, %hf2, H2⟩, ⟨%f3, %hf3, H3⟩, ⟨%f4, %hf4, H4⟩, ⟨%f5, %hf5, H5⟩, Hk⟩
  subst hf2; subst hf3; subst hf4; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (fun y => ⟨_, List.mem_cons_self .., View.mem_set_unit_zero hz2_1 inb_S1024x512_S1024x512_0_0 y⟩)]
  sl_unfold_words
  rw [View.canon_unit_zero hz2_1]
  simp only [View.readAt_eq_ld, View.ld_unit_zero (S := S1024x2048) hz2_1, View.ld_unit_zero (S := S2048x512) hz2_1, View.ld_unit_zero (S := S1024x512) hz2_1]

set_option maxHeartbeats 2000000 in
/-- Last stretch (k = 3): the block product is added to what the accumulator held, and the sum is also left in the
    output's buffer. -/
theorem sound_kernel1_C (c : Dev nD) (E : Set ℕ) (i : grid1.Coords) (hc0 : ¬condZ1 i) (hc1 : condL1 i)
    (arg2 : Memref sig .tc .vmem S1024x2048 .bf16) (harg2 : arg2.IsWhole) (arg3 : Memref sig .tc .vmem S2048x512 .bf16) (harg3 : arg3.IsWhole)
    (arg4 : Memref sig .tc .vmem S1024x512 .f32) (harg4 : arg4.IsWhole) (arg5 : Memref sig .tc .vmem S1024x512 .f32) (harg5 : arg5.IsWhole)
    (x : Vec F S1024x2048 .bf16) (y : Vec F S2048x512 .bf16) (s : Vec F S1024x512 .f32) (K : PUnit → sProp 𝕄) :
    iprop(owns (c : Thread nD τ) arg2 fullShare x ∗ owns (c : Thread nD τ) arg3 fullShare y ∗ (∃ d, owns (c : Thread nD τ) arg4 fullShare d)
        ∗ owns (c : Thread nD τ) arg5 fullShare s
        ∗ (iprop(owns (c : Thread nD τ) arg2 fullShare x ∗ owns (c : Thread nD τ) arg3 fullShare y ∗ owns (c : Thread nD τ) arg4 fullShare (k1_pay2 s x y)
            ∗ owns (c : Thread nD τ) arg5 fullShare (k1_pay2 s x y)) -∗ K ⟨⟩))
      ⊢ wp frame (wpE (defs₀ (F := F)) Variants.none c none) E (cc1__diff_kernel i arg2 harg2 arg3 harg3 arg4 harg4 arg5 harg5) K := by
  simp only [cc1__diff_kernel_eq_skeleton]; unfold cc1__diff_kernel_skel
  unfold owns
  iintro ⟨⟨%f2, %hf2, H2⟩, ⟨%f3, %hf3, H3⟩, ⟨%d4, %f4, -, H4⟩, ⟨%f5, %hf5, H5⟩, Hk⟩
  subst hf2; subst hf3; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (fun y => ⟨_, List.mem_cons_self .., View.mem_set_unit_zero hz2_1 inb_S1024x512_S1024x512_0_0 y⟩), View.canon_unit_zero hz2_1]
    sl_unfold_words
    rw [View.readCov_unit_zero _ hz2_1]
    simp only [View.readAt_eq_ld, View.ld_unit_zero (S := S1024x2048) hz2_1, View.ld_unit_zero (S := S2048x512) hz2_1, View.ld_unit_zero (S := S1024x512) hz2_1]
  iexists _; isplitr
  swap; · iexact H5
  ipureintro
  sl_unfold_words
  rw [View.read_writes_eq_canon _ _ _ (fun y => ⟨_, List.mem_cons_self .., View.mem_set_unit_zero hz2_1 inb_S1024x512_S1024x512_0_0 y⟩)]
  rw [View.canon_unit_zero hz2_1]
  simp only [View.readAt_eq_ld, View.ld_unit_zero (S := S1024x2048) hz2_1, View.ld_unit_zero (S := S2048x512) hz2_1, View.ld_unit_zero (S := S1024x512) hz2_1]

/-! ## What the accumulator holds after each point -/

/-- The accumulator after point n: from zero where a row block's run begins (n a multiple of 4), else from what the
    point before left, the point's block product added. -/
def acc1 (c : Dev nD) : (n : ℕ) → n < cfg1.N → Vec F S1024x512 .f32
  | 0, h => k1_pay2 (k1_pay1 (F := F)) (iblk1 V c 0 ⟨0, h⟩) (iblk1 V c 1 ⟨0, h⟩)
  | n + 1, h =>
    if (n + 1) % 4 = 0 then k1_pay2 (k1_pay1 (F := F)) (iblk1 V c 0 ⟨n + 1, h⟩) (iblk1 V c 1 ⟨n + 1, h⟩)
    else k1_pay2 (acc1 c n (Nat.lt_of_succ_lt h)) (iblk1 V c 0 ⟨n + 1, h⟩) (iblk1 V c 1 ⟨n + 1, h⟩)

theorem acc1_reset (c : Dev nD) (t : Fin cfg1.N) (h : t.val % 4 = 0) :
    acc1 V c t.val t.isLt = k1_pay2 (k1_pay1 (F := F)) (iblk1 V c 0 t) (iblk1 V c 1 t) := by
  obtain ⟨n, hn⟩ := t
  cases n with
  | zero => rfl
  | succ n => simp only [acc1, if_pos h]

theorem acc1_step (c : Dev nD) (t : Fin cfg1.N) (h : ¬t.val % 4 = 0) :
    acc1 V c t.val t.isLt = k1_pay2 (acc1 V c (t.val - 1) (Nat.lt_of_le_of_lt (Nat.sub_le _ _) t.isLt)) (iblk1 V c 0 t) (iblk1 V c 1 t) := by
  obtain ⟨n, hn⟩ := t
  cases n with
  | zero => exact absurd rfl h
  | succ n => simp only [acc1, if_neg h]; rfl

/-! ## The invariant carried between the points -/

theorem scratch_mem1 : ([cc1_scratch0] : List (Ref sig .tc)).Forall fun b =>
    b.isScoped = true ∧ ∀ (w : Fin 3) (s : Fin (spec1 w).nbuf), ((spec1 w).stage s).view.ref ≠ b := by decide

/-- The region's plain invariant with the accumulator split off: the accumulator at some contents, the core's other
    scoped buffers unopened, the generator register at some state. -/
theorem PhiA1_eq (c : Dev nD) :
    (Pipeline.ΦA spec1 c : sProp 𝕄)
      = iprop(((∃ d, owns (c : Thread nD τ) sc1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] scratch_mem1 (by decide)]
  simp only [Idealize.SL.BI.bigSepL_singleton, sc1, owns_whole]; try rfl

/-- Before point 0 the plain invariant; after point n the same with the accumulator at acc1 n. -/
def Phi1 (c : Dev nD) : (n : ℕ) → n ≤ cfg1.N → sProp 𝕄
  | 0, _ => Pipeline.ΦA spec1 c
  | n + 1, h => iprop((owns (c : Thread nD τ) sc1 fullShare (acc1 V c n h)
      ∗ Pipeline.scopedRestBut (Ix := Unit) (Name := ℕ) (U := UR sig nD τ) (Lvl := ℕ) (Val := Elt F) spec1 c [cc1_scratch0]) ∗ (∃ r, prngReg c r))

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop((owns (c : Thread nD τ) sc1 fullShare (acc1 V c n hn)
      ∗ Pipeline.scopedRestBut (Ix := Unit) (Name := ℕ) (U := UR sig nD τ) (Lvl := ℕ) (Val := Elt F) spec1 c [cc1_scratch0]) ∗ (∃ r, prngReg c r)) := rfl
theorem Phi1_pos (c : Dev nD) (n : ℕ) (h : n ≤ cfg1.N) (hz : n ≠ 0) :
    Phi1 V c n h = iprop((owns (c : Thread nD τ) sc1 fullShare (acc1 V c (n - 1) (by omega))
      ∗ Pipeline.scopedRestBut (Ix := Unit) (Name := ℕ) (U := UR sig nD τ) (Lvl := ℕ) (Val := Elt F) spec1 c [cc1_scratch0]) ∗ (∃ r, prngReg c r)) := by
  obtain ⟨k, rfl⟩ := Nat.exists_eq_succ_of_ne_zero hz
  rfl

/-! ## The proof data of the pipeline -/

/-- The arrays as the region finds them; after the body at point t the two inputs' buffers at their blocks and the
    output's at the accumulator (stated at every point, read only where the window is written back: the last stretch
    of each row block); the invariant Phi1; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem Phi1_castSucc (c : Dev nD) (t : Fin cfg1.N) :
    (dat1 V c).Φ t.castSucc = Phi1 V c t.val (Nat.le_of_lt t.isLt) := rfl

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ (match cfg1.idle 2 (cfg1.grid.coords t) with
        | true =>
          match (cfg1.win 2).flush t with
          | false => iprop(∃ d, owns (c : Thread nD τ) (st1_2 t) fullShare ((dat1 V c).before 2 t d))
          | true => owns (c : Thread nD τ) (st1_2 t) fullShare ((dat1 V c).after 2 t)
        | false => owns (c : Thread nD τ) (st1_2 t) fullShare ((dat1 V c).after 2 t)))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = Phi1 V c (t.val + 1) t.isLt from rfl, Phi1_succ,
    show (dat1 V c).owesAt () t.succ = (dat1 V c).owesAt () t.castSucc from rfl,
    after1_0, after1_1, after1_2, Phi1_castSucc]
  by_cases h0 : t.val % 4 = 0
  · -- the first stretch of a row block
    have hc0 : condZ1 (grid1.coords t) := (hcondZ1 t).mpr h0
    have hc1 : ¬condL1 (grid1.coords t) := fun h => by have := (hcondL1 t).mp h; omega
    rw [acc1_reset V c t h0, idleAt1 t hc1]
    simp only [noFlush1 t hc1]
    by_cases hz : t.val = 0
    · rw [Phi1_zero V c _ _ hz, PhiA1_eq]
      iintro ⟨⟨⟨HS, Hr⟩, Hp⟩, Ho, ⟨%d0, H0⟩, ⟨%d1, H1⟩, ⟨%d2, H2⟩⟩
      iapply (sound_kernel1_A c Set.univ _ hc0 hc1 _ _ _ _ _ _ _ _ (iblk1 V c 0 t) (iblk1 V c 1 t) _ _)
      isplitl [H0]; · iexact H0
      isplitl [H1]; · iexact H1
      isplitl [H2]; · iexact H2
      isplitl [HS]; · iexact HS
      iintro ⟨H0, H1, H2, HS⟩
      isplitl [HS Hr Hp]
      · isplitl [HS Hr]
        · isplitl [HS]; · iexact HS
          iexact Hr
        iexact Hp
      isplitl [Ho]; · iexact Ho
      isplitl [H0]; · iexact H0
      isplitl [H1]; · iexact H1
      iexists _; iexact H2
    · rw [Phi1_pos V c _ _ hz]
      iintro ⟨⟨⟨HS, Hr⟩, Hp⟩, Ho, ⟨%d0, H0⟩, ⟨%d1, H1⟩, ⟨%d2, H2⟩⟩
      iapply (sound_kernel1_A c Set.univ _ hc0 hc1 _ _ _ _ _ _ _ _ (iblk1 V c 0 t) (iblk1 V c 1 t) _ _)
      isplitl [H0]; · iexact H0
      isplitl [H1]; · iexact H1
      isplitl [H2]; · iexact H2
      isplitl [HS]; · iexists _; iexact HS
      iintro ⟨H0, H1, H2, HS⟩
      isplitl [HS Hr Hp]
      · isplitl [HS Hr]
        · isplitl [HS]; · iexact HS
          iexact Hr
        iexact Hp
      isplitl [Ho]; · iexact Ho
      isplitl [H0]; · iexact H0
      isplitl [H1]; · iexact H1
      iexists _; iexact H2
  · have hc0 : ¬condZ1 (grid1.coords t) := fun h => h0 ((hcondZ1 t).mp h)
    have hz : t.val ≠ 0 := fun h => h0 (by rw [h])
    rw [Phi1_pos V c _ _ hz, acc1_step V c t h0]
    by_cases h3 : t.val % 4 = 3
    · -- the last stretch: the sum is also left in the output's buffer
      have hc1 : condL1 (grid1.coords t) := (hcondL1 t).mpr h3
      rw [liveAt1 t hc1]
      iintro ⟨⟨⟨HS, Hr⟩, Hp⟩, Ho, ⟨%d0, H0⟩, ⟨%d1, H1⟩, ⟨%d2, H2⟩⟩
      iapply (sound_kernel1_C c Set.univ _ hc0 hc1 _ _ _ _ _ _ _ _ (iblk1 V c 0 t) (iblk1 V c 1 t) _ _)
      isplitl [H0]; · iexact H0
      isplitl [H1]; · iexact H1
      isplitl [H2]; · iexists _; iexact H2
      isplitl [HS]; · iexact HS
      iintro ⟨H0, H1, H2, HS⟩
      isplitl [HS Hr Hp]
      · isplitl [HS Hr]
        · isplitl [HS]; · iexact HS
          iexact Hr
        iexact Hp
      isplitl [Ho]; · iexact Ho
      isplitl [H0]; · iexact H0
      isplitl [H1]; · iexact H1
      iexact H2
    · -- a middle stretch
      have hc1 : ¬condL1 (grid1.coords t) := fun h => h3 ((hcondL1 t).mp h)
      rw [idleAt1 t hc1]
      simp only [noFlush1 t hc1]
      iintro ⟨⟨⟨HS, Hr⟩, Hp⟩, Ho, ⟨%d0, H0⟩, ⟨%d1, H1⟩, ⟨%d2, H2⟩⟩
      iapply (sound_kernel1_B c Set.univ _ hc0 hc1 _ _ _ _ _ _ _ _ (iblk1 V c 0 t) (iblk1 V c 1 t) _ _ _)
      isplitl [H0]; · iexact H0
      isplitl [H1]; · iexact H1
      isplitl [H2]; · iexact H2
      isplitl [HS]; · iexact HS
      iintro ⟨H0, H1, H2, HS⟩
      isplitl [HS Hr Hp]
      · isplitl [HS Hr]
        · isplitl [HS]; · iexact HS
          iexact Hr
        iexact Hp
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

/-! ## The invariant at the region's two ends -/

theorem hin1 (c : Dev nD) : Pipeline.ΦA spec1 c ⊢ (dat1 V c).Φ 0 := .rfl

theorem hout1 (c : Dev nD) : (dat1 V c).Φ (Fin.last cfg1.N) ⊢ Pipeline.ΦA spec1 c := by
  rw [show (dat1 V c).Φ (Fin.last cfg1.N) = Phi1 V c cfg1.N (Nat.le_refl _) from rfl,
    Phi1_pos V c _ _ (by rw [show cfg1.N = 32 from N_1]; decide), PhiA1_eq]
  iintro ⟨⟨HS, Hr⟩, Hp⟩
  isplitl [HS Hr]
  · isplitl [HS]; · iexists _; iexact HS
    iexact Hr
  iexact Hp

end Cert.KernelIdeal.Hand

end
-- ==== Proof.Diff2.lean ====
/-
  Region 2 of the idealized kernel program: one diffusion hop, the product of the 8192x8192 normalized adjacency with
  an 8192x512 matrix, on a grid of 8 row blocks by 4 column stretches. At point (i, k) the body reads the 1024x2048
  block (i, k) of the adjacency and the 2048x512 block k of the right factor. A scratch accumulator carried between
  the points is reset to zero where k = 0, the block product is added to it at every point, and where k = 3 the
  accumulator is copied into the output's staging buffer, which the pipeline writes back as row block i.
  Stated at any float instance F, at a parameter V: the contents of the core's buffers when the region is entered.
-/
import proofs.«122622_j10385230921953_1_alg».proof.Proof.Gen.KernelIdeal.Launch
import proofs.«122622_j10385230921953_1_alg».proof.Proof.Gen.KernelIdeal.Skeleton
import proofs.«122622_j10385230921953_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's current staging buffer holds its block at every point, for any proof data whose array is V's and
    whose body leaves the block in place (the window is uncut and never idle). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's two branch conditions, decided over the grid -/

/-- The reset branch is taken where the second grid coordinate is 0. -/
abbrev condZ2 (i : grid2.Coords) : Prop := (Scalar.cmpi .ne (Scalar.extui (Scalar.cmpi .eq (BitVec.ofNat 32 (i 1).val) 0#32)) 0#32) = 1#1
theorem hcondZ2 : ∀ t : Fin cfg2.N, condZ2 (grid2.coords t) ↔ t.val % 4 = 0 :=
  (by decide +kernel : ∀ t : Fin grid2.N, condZ2 (grid2.coords t) ↔ t.val % 4 = 0)
/-- The copy-out branch is taken where the second grid coordinate is 3. -/
abbrev condL2 (i : grid2.Coords) : Prop := k2_cond2 i = 1#1
theorem hcondL2 : ∀ t : Fin cfg2.N, condL2 (grid2.coords t) ↔ t.val % 4 = 3 :=
  (by decide +kernel : ∀ t : Fin grid2.N, condL2 (grid2.coords t) ↔ t.val % 4 = 3)

/-- Where the copy-out branch is not taken the output window is idle and is not written back; where it is taken the
    window is live. -/
theorem idleAt2 : ∀ t : Fin grid2.N, ¬condL2 (grid2.coords t) → idle2 2 (grid2.coords t) = true := by decide +kernel
theorem noFlush2 : ∀ t : Fin grid2.N, ¬condL2 (grid2.coords t) → (win2 2).flush t = false := by decide +kernel
theorem liveAt2 : ∀ t : Fin grid2.N, condL2 (grid2.coords t) → idle2 2 (grid2.coords t) = false := by decide +kernel

/-! ## The body's triple, case by case -/

theorem hz2_2 : (![0, 0] : Fin 2 → Nat) = fun _ => 0 := by funext a; fin_cases a <;> rfl

/-- The scratch accumulator as a memref: a whole scoped buffer of the kernel's own. -/
abbrev sc2 : Memref sig .tc .vmem S1024x512 .f32 := Memref.whole cc2_scratch0

set_option maxHeartbeats 2000000 in
/-- First stretch of a row block (k = 0): the accumulator is reset and the block product added; the output's buffer is
    not touched. -/
theorem sound_kernel2_A (c : Dev nD) (E : Set ℕ) (i : grid2.Coords) (hc0 : condZ2 i) (hc1 : ¬condL2 i)
    (arg2 : Memref sig .tc .vmem S1024x2048 .bf16) (harg2 : arg2.IsWhole) (arg3 : Memref sig .tc .vmem S2048x512 .bf16) (harg3 : arg3.IsWhole)
    (arg4 : Memref sig .tc .vmem S1024x512 .f32) (harg4 : arg4.IsWhole) (arg5 : Memref sig .tc .vmem S1024x512 .f32) (harg5 : arg5.IsWhole)
    (x : Vec F S1024x2048 .bf16) (y : Vec F S2048x512 .bf16) (o : Vec F S1024x512 .f32) (K : PUnit → sProp 𝕄) :
    iprop(owns (c : Thread nD τ) arg2 fullShare x ∗ owns (c : Thread nD τ) arg3 fullShare y ∗ owns (c : Thread nD τ) arg4 fullShare o
        ∗ (∃ d, owns (c : Thread nD τ) arg5 fullShare d)
        ∗ (iprop(owns (c : Thread nD τ) arg2 fullShare x ∗ owns (c : Thread nD τ) arg3 fullShare y ∗ owns (c : Thread nD τ) arg4 fullShare o
            ∗ owns (c : Thread nD τ) arg5 fullShare (k2_pay2 (k2_pay1 (F := F)) x y)) -∗ K ⟨⟩))
      ⊢ wp frame (wpE (defs₀ (F := F)) Variants.none c none) E (cc2__diff_kernel i arg2 harg2 arg3 harg3 arg4 harg4 arg5 harg5) K := by
  simp only [cc2__diff_kernel_eq_skeleton]; unfold cc2__diff_kernel_skel
  unfold owns
  iintro ⟨⟨%f2, %hf2, H2⟩, ⟨%f3, %hf3, H3⟩, ⟨%f4, %hf4, H4⟩, ⟨%d5, %f5, -, H5⟩, Hk⟩
  subst hf2; subst hf3; subst hf4
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (fun y => ⟨_, List.mem_cons_self .., View.mem_set_unit_zero hz2_2 inb_S1024x512_S1024x512_0_0 y⟩),
    View.canon_cons_unit_zero hz2_2]
  sl_unfold_words
  rw [View.readCov_unit_zero _ hz2_2]
  simp only [View.readAt_eq_ld, View.ld_unit_zero (S := S1024x2048) hz2_2, View.ld_unit_zero (S := S2048x512) hz2_2]

set_option maxHeartbeats 2000000 in
/-- A middle stretch (k = 1, 2): the block product is added to what the accumulator held; the output's buffer is not
    touched. -/
theorem sound_kernel2_B (c : Dev nD) (E : Set ℕ) (i : grid2.Coords) (hc0 : ¬condZ2 i) (hc1 : ¬condL2 i)
    (arg2 : Memref sig .tc .vmem S1024x2048 .bf16) (harg2 : arg2.IsWhole) (arg3 : Memref sig .tc .vmem S2048x512 .bf16) (harg3 : arg3.IsWhole)
    (arg4 : Memref sig .tc .vmem S1024x512 .f32) (harg4 : arg4.IsWhole) (arg5 : Memref sig .tc .vmem S1024x512 .f32) (harg5 : arg5.IsWhole)
    (x : Vec F S1024x2048 .bf16) (y : Vec F S2048x512 .bf16) (o : Vec F S1024x512 .f32) (s : Vec F S1024x512 .f32) (K : PUnit → sProp 𝕄) :
    iprop(owns (c : Thread nD τ) arg2 fullShare x ∗ owns (c : Thread nD τ) arg3 fullShare y ∗ owns (c : Thread nD τ) arg4 fullShare o
        ∗ owns (c : Thread nD τ) arg5 fullShare s
        ∗ (iprop(owns (c : Thread nD τ) arg2 fullShare x ∗ owns (c : Thread nD τ) arg3 fullShare y ∗ owns (c : Thread nD τ) arg4 fullShare o
            ∗ owns (c : Thread nD τ) arg5 fullShare (k2_pay2 s x y)) -∗ K ⟨⟩))
      ⊢ wp frame (wpE (defs₀ (F := F)) Variants.none c none) E (cc2__diff_kernel i arg2 harg2 arg3 harg3 arg4 harg4 arg5 harg5) K := by
  simp only [cc2__diff_kernel_eq_skeleton]; unfold cc2__diff_kernel_skel
  unfold owns
  iintro ⟨⟨%f2, %hf2, H2⟩, ⟨%f3, %hf3, H3⟩, ⟨%f4, %hf4, H4⟩, ⟨%f5, %hf5, H5⟩, Hk⟩
  subst hf2; subst hf3; subst hf4; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (fun y => ⟨_, List.mem_cons_self .., View.mem_set_unit_zero hz2_2 inb_S1024x512_S1024x512_0_0 y⟩)]
  sl_unfold_words
  rw [View.canon_unit_zero hz2_2]
  simp only [View.readAt_eq_ld, View.ld_unit_zero (S := S1024x2048) hz2_2, View.ld_unit_zero (S := S2048x512) hz2_2, View.ld_unit_zero (S := S1024x512) hz2_2]

set_option maxHeartbeats 2000000 in
/-- Last stretch (k = 3): the block product is added to what the accumulator held, and the sum is also left in the
    output's buffer. -/
theorem sound_kernel2_C (c : Dev nD) (E : Set ℕ) (i : grid2.Coords) (hc0 : ¬condZ2 i) (hc1 : condL2 i)
    (arg2 : Memref sig .tc .vmem S1024x2048 .bf16) (harg2 : arg2.IsWhole) (arg3 : Memref sig .tc .vmem S2048x512 .bf16) (harg3 : arg3.IsWhole)
    (arg4 : Memref sig .tc .vmem S1024x512 .f32) (harg4 : arg4.IsWhole) (arg5 : Memref sig .tc .vmem S1024x512 .f32) (harg5 : arg5.IsWhole)
    (x : Vec F S1024x2048 .bf16) (y : Vec F S2048x512 .bf16) (s : Vec F S1024x512 .f32) (K : PUnit → sProp 𝕄) :
    iprop(owns (c : Thread nD τ) arg2 fullShare x ∗ owns (c : Thread nD τ) arg3 fullShare y ∗ (∃ d, owns (c : Thread nD τ) arg4 fullShare d)
        ∗ owns (c : Thread nD τ) arg5 fullShare s
        ∗ (iprop(owns (c : Thread nD τ) arg2 fullShare x ∗ owns (c : Thread nD τ) arg3 fullShare y ∗ owns (c : Thread nD τ) arg4 fullShare (k2_pay2 s x y)
            ∗ owns (c : Thread nD τ) arg5 fullShare (k2_pay2 s x y)) -∗ K ⟨⟩))
      ⊢ wp frame (wpE (defs₀ (F := F)) Variants.none c none) E (cc2__diff_kernel i arg2 harg2 arg3 harg3 arg4 harg4 arg5 harg5) K := by
  simp only [cc2__diff_kernel_eq_skeleton]; unfold cc2__diff_kernel_skel
  unfold owns
  iintro ⟨⟨%f2, %hf2, H2⟩, ⟨%f3, %hf3, H3⟩, ⟨%d4, %f4, -, H4⟩, ⟨%f5, %hf5, H5⟩, Hk⟩
  subst hf2; subst hf3; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (fun y => ⟨_, List.mem_cons_self .., View.mem_set_unit_zero hz2_2 inb_S1024x512_S1024x512_0_0 y⟩), View.canon_unit_zero hz2_2]
    sl_unfold_words
    rw [View.readCov_unit_zero _ hz2_2]
    simp only [View.readAt_eq_ld, View.ld_unit_zero (S := S1024x2048) hz2_2, View.ld_unit_zero (S := S2048x512) hz2_2, View.ld_unit_zero (S := S1024x512) hz2_2]
  iexists _; isplitr
  swap; · iexact H5
  ipureintro
  sl_unfold_words
  rw [View.read_writes_eq_canon _ _ _ (fun y => ⟨_, List.mem_cons_self .., View.mem_set_unit_zero hz2_2 inb_S1024x512_S1024x512_0_0 y⟩)]
  rw [View.canon_unit_zero hz2_2]
  simp only [View.readAt_eq_ld, View.ld_unit_zero (S := S1024x2048) hz2_2, View.ld_unit_zero (S := S2048x512) hz2_2, View.ld_unit_zero (S := S1024x512) hz2_2]

/-! ## What the accumulator holds after each point -/

/-- The accumulator after point n: from zero where a row block's run begins (n a multiple of 4), else from what the
    point before left, the point's block product added. -/
def acc2 (c : Dev nD) : (n : ℕ) → n < cfg2.N → Vec F S1024x512 .f32
  | 0, h => k2_pay2 (k2_pay1 (F := F)) (iblk2 V c 0 ⟨0, h⟩) (iblk2 V c 1 ⟨0, h⟩)
  | n + 1, h =>
    if (n + 1) % 4 = 0 then k2_pay2 (k2_pay1 (F := F)) (iblk2 V c 0 ⟨n + 1, h⟩) (iblk2 V c 1 ⟨n + 1, h⟩)
    else k2_pay2 (acc2 c n (Nat.lt_of_succ_lt h)) (iblk2 V c 0 ⟨n + 1, h⟩) (iblk2 V c 1 ⟨n + 1, h⟩)

theorem acc2_reset (c : Dev nD) (t : Fin cfg2.N) (h : t.val % 4 = 0) :
    acc2 V c t.val t.isLt = k2_pay2 (k2_pay1 (F := F)) (iblk2 V c 0 t) (iblk2 V c 1 t) := by
  obtain ⟨n, hn⟩ := t
  cases n with
  | zero => rfl
  | succ n => simp only [acc2, if_pos h]

theorem acc2_step (c : Dev nD) (t : Fin cfg2.N) (h : ¬t.val % 4 = 0) :
    acc2 V c t.val t.isLt = k2_pay2 (acc2 V c (t.val - 1) (Nat.lt_of_le_of_lt (Nat.sub_le _ _) t.isLt)) (iblk2 V c 0 t) (iblk2 V c 1 t) := by
  obtain ⟨n, hn⟩ := t
  cases n with
  | zero => exact absurd rfl h
  | succ n => simp only [acc2, if_neg h]; rfl

/-! ## The invariant carried between the points -/

theorem scratch_mem2 : ([cc2_scratch0] : List (Ref sig .tc)).Forall fun b =>
    b.isScoped = true ∧ ∀ (w : Fin 3) (s : Fin (spec2 w).nbuf), ((spec2 w).stage s).view.ref ≠ b := by decide

/-- The region's plain invariant with the accumulator split off: the accumulator at some contents, the core's other
    scoped buffers unopened, the generator register at some state. -/
theorem PhiA2_eq (c : Dev nD) :
    (Pipeline.ΦA spec2 c : sProp 𝕄)
      = iprop(((∃ d, owns (c : Thread nD τ) sc2 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA
  rw [Pipeline.scopedRest_split_of_list spec2 c [cc2_scratch0] scratch_mem2 (by decide)]
  simp only [Idealize.SL.BI.bigSepL_singleton, sc2, owns_whole]; try rfl

/-- Before point 0 the plain invariant; after point n the same with the accumulator at acc2 n. -/
def Phi2 (c : Dev nD) : (n : ℕ) → n ≤ cfg2.N → sProp 𝕄
  | 0, _ => Pipeline.ΦA spec2 c
  | n + 1, h => iprop((owns (c : Thread nD τ) sc2 fullShare (acc2 V c n h)
      ∗ Pipeline.scopedRestBut (Ix := Unit) (Name := ℕ) (U := UR sig nD τ) (Lvl := ℕ) (Val := Elt F) spec2 c [cc2_scratch0]) ∗ (∃ r, prngReg c r))

theorem Phi2_zero (c : Dev nD) (n : ℕ) (h : n ≤ cfg2.N) (hz : n = 0) : Phi2 V c n h = Pipeline.ΦA spec2 c := by
  subst hz; rfl
theorem Phi2_succ (c : Dev nD) (n : ℕ) (hn : n < cfg2.N) :
    Phi2 V c (n + 1) hn = iprop((owns (c : Thread nD τ) sc2 fullShare (acc2 V c n hn)
      ∗ Pipeline.scopedRestBut (Ix := Unit) (Name := ℕ) (U := UR sig nD τ) (Lvl := ℕ) (Val := Elt F) spec2 c [cc2_scratch0]) ∗ (∃ r, prngReg c r)) := rfl
theorem Phi2_pos (c : Dev nD) (n : ℕ) (h : n ≤ cfg2.N) (hz : n ≠ 0) :
    Phi2 V c n h = iprop((owns (c : Thread nD τ) sc2 fullShare (acc2 V c (n - 1) (by omega))
      ∗ Pipeline.scopedRestBut (Ix := Unit) (Name := ℕ) (U := UR sig nD τ) (Lvl := ℕ) (Val := Elt F) spec2 c [cc2_scratch0]) ∗ (∃ r, prngReg c r)) := by
  obtain ⟨k, rfl⟩ := Nat.exists_eq_succ_of_ne_zero hz
  rfl

/-! ## The proof data of the pipeline -/

/-- The arrays as the region finds them; after the body at point t the two inputs' buffers at their blocks and the
    output's at the accumulator (stated at every point, read only where the window is written back: the last stretch
    of each row block); the invariant Phi2; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = acc2 V c t.val t.isLt := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem Phi2_castSucc (c : Dev nD) (t : Fin cfg2.N) :
    (dat2 V c).Φ t.castSucc = Phi2 V c t.val (Nat.le_of_lt t.isLt) := rfl

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ (match cfg2.idle 2 (cfg2.grid.coords t) with
        | true =>
          match (cfg2.win 2).flush t with
          | false => iprop(∃ d, owns (c : Thread nD τ) (st2_2 t) fullShare ((dat2 V c).before 2 t d))
          | true => owns (c : Thread nD τ) (st2_2 t) fullShare ((dat2 V c).after 2 t)
        | false => owns (c : Thread nD τ) (st2_2 t) fullShare ((dat2 V c).after 2 t)))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = Phi2 V c (t.val + 1) t.isLt from rfl, Phi2_succ,
    show (dat2 V c).owesAt () t.succ = (dat2 V c).owesAt () t.castSucc from rfl,
    after2_0, after2_1, after2_2, Phi2_castSucc]
  by_cases h0 : t.val % 4 = 0
  · -- the first stretch of a row block
    have hc0 : condZ2 (grid2.coords t) := (hcondZ2 t).mpr h0
    have hc1 : ¬condL2 (grid2.coords t) := fun h => by have := (hcondL2 t).mp h; omega
    rw [acc2_reset V c t h0, idleAt2 t hc1]
    simp only [noFlush2 t hc1]
    by_cases hz : t.val = 0
    · rw [Phi2_zero V c _ _ hz, PhiA2_eq]
      iintro ⟨⟨⟨HS, Hr⟩, Hp⟩, Ho, ⟨%d0, H0⟩, ⟨%d1, H1⟩, ⟨%d2, H2⟩⟩
      iapply (sound_kernel2_A c Set.univ _ hc0 hc1 _ _ _ _ _ _ _ _ (iblk2 V c 0 t) (iblk2 V c 1 t) _ _)
      isplitl [H0]; · iexact H0
      isplitl [H1]; · iexact H1
      isplitl [H2]; · iexact H2
      isplitl [HS]; · iexact HS
      iintro ⟨H0, H1, H2, HS⟩
      isplitl [HS Hr Hp]
      · isplitl [HS Hr]
        · isplitl [HS]; · iexact HS
          iexact Hr
        iexact Hp
      isplitl [Ho]; · iexact Ho
      isplitl [H0]; · iexact H0
      isplitl [H1]; · iexact H1
      iexists _; iexact H2
    · rw [Phi2_pos V c _ _ hz]
      iintro ⟨⟨⟨HS, Hr⟩, Hp⟩, Ho, ⟨%d0, H0⟩, ⟨%d1, H1⟩, ⟨%d2, H2⟩⟩
      iapply (sound_kernel2_A c Set.univ _ hc0 hc1 _ _ _ _ _ _ _ _ (iblk2 V c 0 t) (iblk2 V c 1 t) _ _)
      isplitl [H0]; · iexact H0
      isplitl [H1]; · iexact H1
      isplitl [H2]; · iexact H2
      isplitl [HS]; · iexists _; iexact HS
      iintro ⟨H0, H1, H2, HS⟩
      isplitl [HS Hr Hp]
      · isplitl [HS Hr]
        · isplitl [HS]; · iexact HS
          iexact Hr
        iexact Hp
      isplitl [Ho]; · iexact Ho
      isplitl [H0]; · iexact H0
      isplitl [H1]; · iexact H1
      iexists _; iexact H2
  · have hc0 : ¬condZ2 (grid2.coords t) := fun h => h0 ((hcondZ2 t).mp h)
    have hz : t.val ≠ 0 := fun h => h0 (by rw [h])
    rw [Phi2_pos V c _ _ hz, acc2_step V c t h0]
    by_cases h3 : t.val % 4 = 3
    · -- the last stretch: the sum is also left in the output's buffer
      have hc1 : condL2 (grid2.coords t) := (hcondL2 t).mpr h3
      rw [liveAt2 t hc1]
      iintro ⟨⟨⟨HS, Hr⟩, Hp⟩, Ho, ⟨%d0, H0⟩, ⟨%d1, H1⟩, ⟨%d2, H2⟩⟩
      iapply (sound_kernel2_C c Set.univ _ hc0 hc1 _ _ _ _ _ _ _ _ (iblk2 V c 0 t) (iblk2 V c 1 t) _ _)
      isplitl [H0]; · iexact H0
      isplitl [H1]; · iexact H1
      isplitl [H2]; · iexists _; iexact H2
      isplitl [HS]; · iexact HS
      iintro ⟨H0, H1, H2, HS⟩
      isplitl [HS Hr Hp]
      · isplitl [HS Hr]
        · isplitl [HS]; · iexact HS
          iexact Hr
        iexact Hp
      isplitl [Ho]; · iexact Ho
      isplitl [H0]; · iexact H0
      isplitl [H1]; · iexact H1
      iexact H2
    · -- a middle stretch
      have hc1 : ¬condL2 (grid2.coords t) := fun h => h3 ((hcondL2 t).mp h)
      rw [idleAt2 t hc1]
      simp only [noFlush2 t hc1]
      iintro ⟨⟨⟨HS, Hr⟩, Hp⟩, Ho, ⟨%d0, H0⟩, ⟨%d1, H1⟩, ⟨%d2, H2⟩⟩
      iapply (sound_kernel2_B c Set.univ _ hc0 hc1 _ _ _ _ _ _ _ _ (iblk2 V c 0 t) (iblk2 V c 1 t) _ _ _)
      isplitl [H0]; · iexact H0
      isplitl [H1]; · iexact H1
      isplitl [H2]; · iexact H2
      isplitl [HS]; · iexact HS
      iintro ⟨H0, H1, H2, HS⟩
      isplitl [HS Hr Hp]
      · isplitl [HS Hr]
        · isplitl [HS]; · iexact HS
          iexact Hr
        iexact Hp
      isplitl [Ho]; · iexact Ho
      isplitl [H0]; · iexact H0
      isplitl [H1]; · iexact H1
      iexists _; iexact H2

theorem body_obligation2 (c : Dev nD) : BodyObligation (dat2 (F := F) V c) (defs₀ (F := F)) Variants.none () Set.univ := fun t => by
  rw [bigSep_W2, bigSep_W2]
  exact sound_body2 V c t

/-! ## The invariant at the region's two ends -/

theorem hin2 (c : Dev nD) : Pipeline.ΦA spec2 c ⊢ (dat2 V c).Φ 0 := .rfl

theorem hout2 (c : Dev nD) : (dat2 V c).Φ (Fin.last cfg2.N) ⊢ Pipeline.ΦA spec2 c := by
  rw [show (dat2 V c).Φ (Fin.last cfg2.N) = Phi2 V c cfg2.N (Nat.le_refl _) from rfl,
    Phi2_pos V c _ _ (by rw [show cfg2.N = 32 from N_2]; decide), PhiA2_eq]
  iintro ⟨⟨HS, Hr⟩, Hp⟩
  isplitl [HS Hr]
  · isplitl [HS]; · iexists _; iexact HS
    iexact Hr
  iexact Hp

end Cert.KernelIdeal.Hand

end
-- ==== Proof.Diff3.lean ====
/-
  Region 3 of the idealized kernel program: one diffusion hop, the product of the 8192x8192 normalized adjacency with
  an 8192x512 matrix, on a grid of 8 row blocks by 4 column stretches. At point (i, k) the body reads the 1024x2048
  block (i, k) of the adjacency and the 2048x512 block k of the right factor. A scratch accumulator carried between
  the points is reset to zero where k = 0, the block product is added to it at every point, and where k = 3 the
  accumulator is copied into the output's staging buffer, which the pipeline writes back as row block i.
  Stated at any float instance F, at a parameter V: the contents of the core's buffers when the region is entered.
-/
import proofs.«122622_j10385230921953_1_alg».proof.Proof.Gen.KernelIdeal.Launch
import proofs.«122622_j10385230921953_1_alg».proof.Proof.Gen.KernelIdeal.Skeleton
import proofs.«122622_j10385230921953_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each input window's current staging buffer holds its block at every point, for any proof data whose array is V's and
    whose body leaves the block in place (the window is uncut and never idle). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's two branch conditions, decided over the grid -/

/-- The reset branch is taken where the second grid coordinate is 0. -/
abbrev condZ3 (i : grid3.Coords) : Prop := (Scalar.cmpi .ne (Scalar.extui (Scalar.cmpi .eq (BitVec.ofNat 32 (i 1).val) 0#32)) 0#32) = 1#1
theorem hcondZ3 : ∀ t : Fin cfg3.N, condZ3 (grid3.coords t) ↔ t.val % 4 = 0 :=
  (by decide +kernel : ∀ t : Fin grid3.N, condZ3 (grid3.coords t) ↔ t.val % 4 = 0)
/-- The copy-out branch is taken where the second grid coordinate is 3. -/
abbrev condL3 (i : grid3.Coords) : Prop := k3_cond2 i = 1#1
theorem hcondL3 : ∀ t : Fin cfg3.N, condL3 (grid3.coords t) ↔ t.val % 4 = 3 :=
  (by decide +kernel : ∀ t : Fin grid3.N, condL3 (grid3.coords t) ↔ t.val % 4 = 3)

/-- Where the copy-out branch is not taken the output window is idle and is not written back; where it is taken the
    window is live. -/
theorem idleAt3 : ∀ t : Fin grid3.N, ¬condL3 (grid3.coords t) → idle3 2 (grid3.coords t) = true := by decide +kernel
theorem noFlush3 : ∀ t : Fin grid3.N, ¬condL3 (grid3.coords t) → (win3 2).flush t = false := by decide +kernel
theorem liveAt3 : ∀ t : Fin grid3.N, condL3 (grid3.coords t) → idle3 2 (grid3.coords t) = false := by decide +kernel

/-! ## The body's triple, case by case -/

theorem hz2_3 : (![0, 0] : Fin 2 → Nat) = fun _ => 0 := by funext a; fin_cases a <;> rfl

/-- The scratch accumulator as a memref: a whole scoped buffer of the kernel's own. -/
abbrev sc3 : Memref sig .tc .vmem S1024x512 .f32 := Memref.whole cc3_scratch0

set_option maxHeartbeats 2000000 in
/-- First stretch of a row block (k = 0): the accumulator is reset and the block product added; the output's buffer is
    not touched. -/
theorem sound_kernel3_A (c : Dev nD) (E : Set ℕ) (i : grid3.Coords) (hc0 : condZ3 i) (hc1 : ¬condL3 i)
    (arg2 : Memref sig .tc .vmem S1024x2048 .bf16) (harg2 : arg2.IsWhole) (arg3 : Memref sig .tc .vmem S2048x512 .bf16) (harg3 : arg3.IsWhole)
    (arg4 : Memref sig .tc .vmem S1024x512 .f32) (harg4 : arg4.IsWhole) (arg5 : Memref sig .tc .vmem S1024x512 .f32) (harg5 : arg5.IsWhole)
    (x : Vec F S1024x2048 .bf16) (y : Vec F S2048x512 .bf16) (o : Vec F S1024x512 .f32) (K : PUnit → sProp 𝕄) :
    iprop(owns (c : Thread nD τ) arg2 fullShare x ∗ owns (c : Thread nD τ) arg3 fullShare y ∗ owns (c : Thread nD τ) arg4 fullShare o
        ∗ (∃ d, owns (c : Thread nD τ) arg5 fullShare d)
        ∗ (iprop(owns (c : Thread nD τ) arg2 fullShare x ∗ owns (c : Thread nD τ) arg3 fullShare y ∗ owns (c : Thread nD τ) arg4 fullShare o
            ∗ owns (c : Thread nD τ) arg5 fullShare (k3_pay2 (k3_pay1 (F := F)) x y)) -∗ K ⟨⟩))
      ⊢ wp frame (wpE (defs₀ (F := F)) Variants.none c none) E (cc3__diff_kernel i arg2 harg2 arg3 harg3 arg4 harg4 arg5 harg5) K := by
  simp only [cc3__diff_kernel_eq_skeleton]; unfold cc3__diff_kernel_skel
  unfold owns
  iintro ⟨⟨%f2, %hf2, H2⟩, ⟨%f3, %hf3, H3⟩, ⟨%f4, %hf4, H4⟩, ⟨%d5, %f5, -, H5⟩, Hk⟩
  subst hf2; subst hf3; subst hf4
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (fun y => ⟨_, List.mem_cons_self .., View.mem_set_unit_zero hz2_3 inb_S1024x512_S1024x512_0_0 y⟩),
    View.canon_cons_unit_zero hz2_3]
  sl_unfold_words
  rw [View.readCov_unit_zero _ hz2_3]
  simp only [View.readAt_eq_ld, View.ld_unit_zero (S := S1024x2048) hz2_3, View.ld_unit_zero (S := S2048x512) hz2_3]

set_option maxHeartbeats 2000000 in
/-- A middle stretch (k = 1, 2): the block product is added to what the accumulator held; the output's buffer is not
    touched. -/
theorem sound_kernel3_B (c : Dev nD) (E : Set ℕ) (i : grid3.Coords) (hc0 : ¬condZ3 i) (hc1 : ¬condL3 i)
    (arg2 : Memref sig .tc .vmem S1024x2048 .bf16) (harg2 : arg2.IsWhole) (arg3 : Memref sig .tc .vmem S2048x512 .bf16) (harg3 : arg3.IsWhole)
    (arg4 : Memref sig .tc .vmem S1024x512 .f32) (harg4 : arg4.IsWhole) (arg5 : Memref sig .tc .vmem S1024x512 .f32) (harg5 : arg5.IsWhole)
    (x : Vec F S1024x2048 .bf16) (y : Vec F S2048x512 .bf16) (o : Vec F S1024x512 .f32) (s : Vec F S1024x512 .f32) (K : PUnit → sProp 𝕄) :
    iprop(owns (c : Thread nD τ) arg2 fullShare x ∗ owns (c : Thread nD τ) arg3 fullShare y ∗ owns (c : Thread nD τ) arg4 fullShare o
        ∗ owns (c : Thread nD τ) arg5 fullShare s
        ∗ (iprop(owns (c : Thread nD τ) arg2 fullShare x ∗ owns (c : Thread nD τ) arg3 fullShare y ∗ owns (c : Thread nD τ) arg4 fullShare o
            ∗ owns (c : Thread nD τ) arg5 fullShare (k3_pay2 s x y)) -∗ K ⟨⟩))
      ⊢ wp frame (wpE (defs₀ (F := F)) Variants.none c none) E (cc3__diff_kernel i arg2 harg2 arg3 harg3 arg4 harg4 arg5 harg5) K := by
  simp only [cc3__diff_kernel_eq_skeleton]; unfold cc3__diff_kernel_skel
  unfold owns
  iintro ⟨⟨%f2, %hf2, H2⟩, ⟨%f3, %hf3, H3⟩, ⟨%f4, %hf4, H4⟩, ⟨%f5, %hf5, H5⟩, Hk⟩
  subst hf2; subst hf3; subst hf4; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (fun y => ⟨_, List.mem_cons_self .., View.mem_set_unit_zero hz2_3 inb_S1024x512_S1024x512_0_0 y⟩)]
  sl_unfold_words
  rw [View.canon_unit_zero hz2_3]
  simp only [View.readAt_eq_ld, View.ld_unit_zero (S := S1024x2048) hz2_3, View.ld_unit_zero (S := S2048x512) hz2_3, View.ld_unit_zero (S := S1024x512) hz2_3]

set_option maxHeartbeats 2000000 in
/-- Last stretch (k = 3): the block product is added to what the accumulator held, and the sum is also left in the
    output's buffer. -/
theorem sound_kernel3_C (c : Dev nD) (E : Set ℕ) (i : grid3.Coords) (hc0 : ¬condZ3 i) (hc1 : condL3 i)
    (arg2 : Memref sig .tc .vmem S1024x2048 .bf16) (harg2 : arg2.IsWhole) (arg3 : Memref sig .tc .vmem S2048x512 .bf16) (harg3 : arg3.IsWhole)
    (arg4 : Memref sig .tc .vmem S1024x512 .f32) (harg4 : arg4.IsWhole) (arg5 : Memref sig .tc .vmem S1024x512 .f32) (harg5 : arg5.IsWhole)
    (x : Vec F S1024x2048 .bf16) (y : Vec F S2048x512 .bf16) (s : Vec F S1024x512 .f32) (K : PUnit → sProp 𝕄) :
    iprop(owns (c : Thread nD τ) arg2 fullShare x ∗ owns (c : Thread nD τ) arg3 fullShare y ∗ (∃ d, owns (c : Thread nD τ) arg4 fullShare d)
        ∗ owns (c : Thread nD τ) arg5 fullShare s
        ∗ (iprop(owns (c : Thread nD τ) arg2 fullShare x ∗ owns (c : Thread nD τ) arg3 fullShare y ∗ owns (c : Thread nD τ) arg4 fullShare (k3_pay2 s x y)
            ∗ owns (c : Thread nD τ) arg5 fullShare (k3_pay2 s x y)) -∗ K ⟨⟩))
      ⊢ wp frame (wpE (defs₀ (F := F)) Variants.none c none) E (cc3__diff_kernel i arg2 harg2 arg3 harg3 arg4 harg4 arg5 harg5) K := by
  simp only [cc3__diff_kernel_eq_skeleton]; unfold cc3__diff_kernel_skel
  unfold owns
  iintro ⟨⟨%f2, %hf2, H2⟩, ⟨%f3, %hf3, H3⟩, ⟨%d4, %f4, -, H4⟩, ⟨%f5, %hf5, H5⟩, Hk⟩
  subst hf2; subst hf3; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (fun y => ⟨_, List.mem_cons_self .., View.mem_set_unit_zero hz2_3 inb_S1024x512_S1024x512_0_0 y⟩), View.canon_unit_zero hz2_3]
    sl_unfold_words
    rw [View.readCov_unit_zero _ hz2_3]
    simp only [View.readAt_eq_ld, View.ld_unit_zero (S := S1024x2048) hz2_3, View.ld_unit_zero (S := S2048x512) hz2_3, View.ld_unit_zero (S := S1024x512) hz2_3]
  iexists _; isplitr
  swap; · iexact H5
  ipureintro
  sl_unfold_words
  rw [View.read_writes_eq_canon _ _ _ (fun y => ⟨_, List.mem_cons_self .., View.mem_set_unit_zero hz2_3 inb_S1024x512_S1024x512_0_0 y⟩)]
  rw [View.canon_unit_zero hz2_3]
  simp only [View.readAt_eq_ld, View.ld_unit_zero (S := S1024x2048) hz2_3, View.ld_unit_zero (S := S2048x512) hz2_3, View.ld_unit_zero (S := S1024x512) hz2_3]

/-! ## What the accumulator holds after each point -/

/-- The accumulator after point n: from zero where a row block's run begins (n a multiple of 4), else from what the
    point before left, the point's block product added. -/
def acc3 (c : Dev nD) : (n : ℕ) → n < cfg3.N → Vec F S1024x512 .f32
  | 0, h => k3_pay2 (k3_pay1 (F := F)) (iblk3 V c 0 ⟨0, h⟩) (iblk3 V c 1 ⟨0, h⟩)
  | n + 1, h =>
    if (n + 1) % 4 = 0 then k3_pay2 (k3_pay1 (F := F)) (iblk3 V c 0 ⟨n + 1, h⟩) (iblk3 V c 1 ⟨n + 1, h⟩)
    else k3_pay2 (acc3 c n (Nat.lt_of_succ_lt h)) (iblk3 V c 0 ⟨n + 1, h⟩) (iblk3 V c 1 ⟨n + 1, h⟩)

theorem acc3_reset (c : Dev nD) (t : Fin cfg3.N) (h : t.val % 4 = 0) :
    acc3 V c t.val t.isLt = k3_pay2 (k3_pay1 (F := F)) (iblk3 V c 0 t) (iblk3 V c 1 t) := by
  obtain ⟨n, hn⟩ := t
  cases n with
  | zero => rfl
  | succ n => simp only [acc3, if_pos h]

theorem acc3_step (c : Dev nD) (t : Fin cfg3.N) (h : ¬t.val % 4 = 0) :
    acc3 V c t.val t.isLt = k3_pay2 (acc3 V c (t.val - 1) (Nat.lt_of_le_of_lt (Nat.sub_le _ _) t.isLt)) (iblk3 V c 0 t) (iblk3 V c 1 t) := by
  obtain ⟨n, hn⟩ := t
  cases n with
  | zero => exact absurd rfl h
  | succ n => simp only [acc3, if_neg h]; rfl

/-! ## The invariant carried between the points -/

theorem scratch_mem3 : ([cc3_scratch0] : List (Ref sig .tc)).Forall fun b =>
    b.isScoped = true ∧ ∀ (w : Fin 3) (s : Fin (spec3 w).nbuf), ((spec3 w).stage s).view.ref ≠ b := by decide

/-- The region's plain invariant with the accumulator split off: the accumulator at some contents, the core's other
    scoped buffers unopened, the generator register at some state. -/
theorem PhiA3_eq (c : Dev nD) :
    (Pipeline.ΦA spec3 c : sProp 𝕄)
      = iprop(((∃ d, owns (c : Thread nD τ) sc3 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA
  rw [Pipeline.scopedRest_split_of_list spec3 c [cc3_scratch0] scratch_mem3 (by decide)]
  simp only [Idealize.SL.BI.bigSepL_singleton, sc3, owns_whole]; try rfl

/-- Before point 0 the plain invariant; after point n the same with the accumulator at acc3 n. -/
def Phi3 (c : Dev nD) : (n : ℕ) → n ≤ cfg3.N → sProp 𝕄
  | 0, _ => Pipeline.ΦA spec3 c
  | n + 1, h => iprop((owns (c : Thread nD τ) sc3 fullShare (acc3 V c n h)
      ∗ Pipeline.scopedRestBut (Ix := Unit) (Name := ℕ) (U := UR sig nD τ) (Lvl := ℕ) (Val := Elt F) spec3 c [cc3_scratch0]) ∗ (∃ r, prngReg c r))

theorem Phi3_zero (c : Dev nD) (n : ℕ) (h : n ≤ cfg3.N) (hz : n = 0) : Phi3 V c n h = Pipeline.ΦA spec3 c := by
  subst hz; rfl
theorem Phi3_succ (c : Dev nD) (n : ℕ) (hn : n < cfg3.N) :
    Phi3 V c (n + 1) hn = iprop((owns (c : Thread nD τ) sc3 fullShare (acc3 V c n hn)
      ∗ Pipeline.scopedRestBut (Ix := Unit) (Name := ℕ) (U := UR sig nD τ) (Lvl := ℕ) (Val := Elt F) spec3 c [cc3_scratch0]) ∗ (∃ r, prngReg c r)) := rfl
theorem Phi3_pos (c : Dev nD) (n : ℕ) (h : n ≤ cfg3.N) (hz : n ≠ 0) :
    Phi3 V c n h = iprop((owns (c : Thread nD τ) sc3 fullShare (acc3 V c (n - 1) (by omega))
      ∗ Pipeline.scopedRestBut (Ix := Unit) (Name := ℕ) (U := UR sig nD τ) (Lvl := ℕ) (Val := Elt F) spec3 c [cc3_scratch0]) ∗ (∃ r, prngReg c r)) := by
  obtain ⟨k, rfl⟩ := Nat.exists_eq_succ_of_ne_zero hz
  rfl

/-! ## The proof data of the pipeline -/

/-- The arrays as the region finds them; after the body at point t the two inputs' buffers at their blocks and the
    output's at the accumulator (stated at every point, read only where the window is written back: the last stretch
    of each row block); the invariant Phi3; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => acc3 V c t.val t.isLt
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = acc3 V c t.val t.isLt := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem Phi3_castSucc (c : Dev nD) (t : Fin cfg3.N) :
    (dat3 V c).Φ t.castSucc = Phi3 V c t.val (Nat.le_of_lt t.isLt) := rfl

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ (match cfg3.idle 2 (cfg3.grid.coords t) with
        | true =>
          match (cfg3.win 2).flush t with
          | false => iprop(∃ d, owns (c : Thread nD τ) (st3_2 t) fullShare ((dat3 V c).before 2 t d))
          | true => owns (c : Thread nD τ) (st3_2 t) fullShare ((dat3 V c).after 2 t)
        | false => owns (c : Thread nD τ) (st3_2 t) fullShare ((dat3 V c).after 2 t)))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = Phi3 V c (t.val + 1) t.isLt from rfl, Phi3_succ,
    show (dat3 V c).owesAt () t.succ = (dat3 V c).owesAt () t.castSucc from rfl,
    after3_0, after3_1, after3_2, Phi3_castSucc]
  by_cases h0 : t.val % 4 = 0
  · -- the first stretch of a row block
    have hc0 : condZ3 (grid3.coords t) := (hcondZ3 t).mpr h0
    have hc1 : ¬condL3 (grid3.coords t) := fun h => by have := (hcondL3 t).mp h; omega
    rw [acc3_reset V c t h0, idleAt3 t hc1]
    simp only [noFlush3 t hc1]
    by_cases hz : t.val = 0
    · rw [Phi3_zero V c _ _ hz, PhiA3_eq]
      iintro ⟨⟨⟨HS, Hr⟩, Hp⟩, Ho, ⟨%d0, H0⟩, ⟨%d1, H1⟩, ⟨%d2, H2⟩⟩
      iapply (sound_kernel3_A c Set.univ _ hc0 hc1 _ _ _ _ _ _ _ _ (iblk3 V c 0 t) (iblk3 V c 1 t) _ _)
      isplitl [H0]; · iexact H0
      isplitl [H1]; · iexact H1
      isplitl [H2]; · iexact H2
      isplitl [HS]; · iexact HS
      iintro ⟨H0, H1, H2, HS⟩
      isplitl [HS Hr Hp]
      · isplitl [HS Hr]
        · isplitl [HS]; · iexact HS
          iexact Hr
        iexact Hp
      isplitl [Ho]; · iexact Ho
      isplitl [H0]; · iexact H0
      isplitl [H1]; · iexact H1
      iexists _; iexact H2
    · rw [Phi3_pos V c _ _ hz]
      iintro ⟨⟨⟨HS, Hr⟩, Hp⟩, Ho, ⟨%d0, H0⟩, ⟨%d1, H1⟩, ⟨%d2, H2⟩⟩
      iapply (sound_kernel3_A c Set.univ _ hc0 hc1 _ _ _ _ _ _ _ _ (iblk3 V c 0 t) (iblk3 V c 1 t) _ _)
      isplitl [H0]; · iexact H0
      isplitl [H1]; · iexact H1
      isplitl [H2]; · iexact H2
      isplitl [HS]; · iexists _; iexact HS
      iintro ⟨H0, H1, H2, HS⟩
      isplitl [HS Hr Hp]
      · isplitl [HS Hr]
        · isplitl [HS]; · iexact HS
          iexact Hr
        iexact Hp
      isplitl [Ho]; · iexact Ho
      isplitl [H0]; · iexact H0
      isplitl [H1]; · iexact H1
      iexists _; iexact H2
  · have hc0 : ¬condZ3 (grid3.coords t) := fun h => h0 ((hcondZ3 t).mp h)
    have hz : t.val ≠ 0 := fun h => h0 (by rw [h])
    rw [Phi3_pos V c _ _ hz, acc3_step V c t h0]
    by_cases h3 : t.val % 4 = 3
    · -- the last stretch: the sum is also left in the output's buffer
      have hc1 : condL3 (grid3.coords t) := (hcondL3 t).mpr h3
      rw [liveAt3 t hc1]
      iintro ⟨⟨⟨HS, Hr⟩, Hp⟩, Ho, ⟨%d0, H0⟩, ⟨%d1, H1⟩, ⟨%d2, H2⟩⟩
      iapply (sound_kernel3_C c Set.univ _ hc0 hc1 _ _ _ _ _ _ _ _ (iblk3 V c 0 t) (iblk3 V c 1 t) _ _)
      isplitl [H0]; · iexact H0
      isplitl [H1]; · iexact H1
      isplitl [H2]; · iexists _; iexact H2
      isplitl [HS]; · iexact HS
      iintro ⟨H0, H1, H2, HS⟩
      isplitl [HS Hr Hp]
      · isplitl [HS Hr]
        · isplitl [HS]; · iexact HS
          iexact Hr
        iexact Hp
      isplitl [Ho]; · iexact Ho
      isplitl [H0]; · iexact H0
      isplitl [H1]; · iexact H1
      iexact H2
    · -- a middle stretch
      have hc1 : ¬condL3 (grid3.coords t) := fun h => h3 ((hcondL3 t).mp h)
      rw [idleAt3 t hc1]
      simp only [noFlush3 t hc1]
      iintro ⟨⟨⟨HS, Hr⟩, Hp⟩, Ho, ⟨%d0, H0⟩, ⟨%d1, H1⟩, ⟨%d2, H2⟩⟩
      iapply (sound_kernel3_B c Set.univ _ hc0 hc1 _ _ _ _ _ _ _ _ (iblk3 V c 0 t) (iblk3 V c 1 t) _ _ _)
      isplitl [H0]; · iexact H0
      isplitl [H1]; · iexact H1
      isplitl [H2]; · iexact H2
      isplitl [HS]; · iexact HS
      iintro ⟨H0, H1, H2, HS⟩
      isplitl [HS Hr Hp]
      · isplitl [HS Hr]
        · isplitl [HS]; · iexact HS
          iexact Hr
        iexact Hp
      isplitl [Ho]; · iexact Ho
      isplitl [H0]; · iexact H0
      isplitl [H1]; · iexact H1
      iexists _; iexact H2

theorem body_obligation3 (c : Dev nD) : BodyObligation (dat3 (F := F) V c) (defs₀ (F := F)) Variants.none () Set.univ := fun t => by
  rw [bigSep_W3, bigSep_W3]
  exact sound_body3 V c t

/-! ## The invariant at the region's two ends -/

theorem hin3 (c : Dev nD) : Pipeline.ΦA spec3 c ⊢ (dat3 V c).Φ 0 := .rfl

theorem hout3 (c : Dev nD) : (dat3 V c).Φ (Fin.last cfg3.N) ⊢ Pipeline.ΦA spec3 c := by
  rw [show (dat3 V c).Φ (Fin.last cfg3.N) = Phi3 V c cfg3.N (Nat.le_refl _) from rfl,
    Phi3_pos V c _ _ (by rw [show cfg3.N = 32 from N_3]; decide), PhiA3_eq]
  iintro ⟨⟨HS, Hr⟩, Hp⟩
  isplitl [HS Hr]
  · isplitl [HS]; · iexists _; iexact HS
    iexact Hr
  iexact Hp

end Cert.KernelIdeal.Hand

end
-- ==== Proof.Run.lean ====
/-
  The run of the idealized kernel program from the launch to the return: @main as eleven segments — seven stretches of
  host operations and the four kernel regions between them — each entered with every unscoped buffer of the core at
  contents named here (W0 … W11: a host stretch applies its operations to the contents before it; a region leaves its
  arrays at what its write-backs fold to and every other buffer as it found it). Every weakly fair execution
  terminates with every unscoped buffer at W11; the argument arrays are written by no segment, so they end as launched.
  Stated at any float instance F.
-/
import proofs.«122622_j10385230921953_1_alg».proof.Proof.Linear
import proofs.«122622_j10385230921953_1_alg».proof.Proof.Diff1
import proofs.«122622_j10385230921953_1_alg».proof.Proof.Diff2
import proofs.«122622_j10385230921953_1_alg».proof.Proof.Diff3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the host stretches write, and that they allocate nothing -/

theorem main_part0_ops0_fresh : (main_part0_ops0 : List (HloOp τ sig (Elt F))).Forall fun op => op.fresh = ∅ := by
  simp only [List.Forall]; repeat' constructor
theorem main_part0_ops1_fresh : (main_part0_ops1 : List (HloOp τ sig (Elt F))).Forall fun op => op.fresh = ∅ := by
  simp only [List.Forall]; repeat' constructor
theorem main_part1_ops0_fresh : (main_part1_ops0 : List (HloOp τ sig (Elt F))).Forall fun op => op.fresh = ∅ := by
  simp only [List.Forall]; repeat' constructor
theorem main_part1_ops1_fresh : (main_part1_ops1 : List (HloOp τ sig (Elt F))).Forall fun op => op.fresh = ∅ := by
  simp only [List.Forall]; repeat' constructor
theorem main_part1_ops2_fresh : (main_part1_ops2 : List (HloOp τ sig (Elt F))).Forall fun op => op.fresh = ∅ := by
  simp only [List.Forall]; repeat' constructor
theorem main_part1_ops3_fresh : (main_part1_ops3 : List (HloOp τ sig (Elt F))).Forall fun op => op.fresh = ∅ := by
  simp only [List.Forall]; repeat' constructor
theorem main_part1_ops4_fresh : (main_part1_ops4 : List (HloOp τ sig (Elt F))).Forall fun op => op.fresh = ∅ := by
  simp only [List.Forall]; repeat' constructor

/-- The buffers the operations of main_part0_ops0 write. -/
abbrev main_part0_ops0_W : List (Ref sig .tc) := [main_v0, main_v1, main_v2]
theorem main_part0_ops0_writes : (main_part0_ops0 : List (HloOp τ sig (Elt F))).Forall fun op => op.writes ⊆ (main_part0_ops0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- The buffers the operations of main_part0_ops1 write. -/
abbrev main_part0_ops1_W : List (Ref sig .tc) := [main_v4, main_v5, main_v6, main_v7, main_cst, main_v8, main_c, main_v9, main_v10, main_c_0, main_v11, main_v12, main_v13, main_c_1, main_v14, main_v15, main_c_2, main_v16, main_v17, main_v18, main_v19, main_v20, main_v21, main_cst_3, main_v22, main_v23, main_c_4, main_v24, main_v25, main_c_5, main_v26, main_v27, main_v28, main_c_6, main_v29, main_v30, main_c_7, main_v31, main_v32, main_v33, main_v34, main_v35, main_v36, main_cst_8, main_v37, main_v38, main_v39, main_v40, main_c_9, main_v41, main_v42, main_v43, main_v44, main_v45, main_cst_10, main_v46]
set_option maxHeartbeats 4000000 in
theorem main_part0_ops1_writes : (main_part0_ops1 : List (HloOp τ sig (Elt F))).Forall fun op => op.writes ⊆ (main_part0_ops1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- The buffers the operations of main_part1_ops0 write. -/
abbrev main_part1_ops0_W : List (Ref sig .tc) := [main_v47, main_cst_11, main_v48, main_v49, main_v50, main_v51, main_v52, main_v53, main_v54, main_v55, main_v56, main_v57]
theorem main_part1_ops0_writes : (main_part1_ops0 : List (HloOp τ sig (Elt F))).Forall fun op => op.writes ⊆ (main_part1_ops0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- The buffers the operations of main_part1_ops1 write. -/
abbrev main_part1_ops1_W : List (Ref sig .tc) := [main_v59, main_v60, main_v61, main_v62, main_v63, main_v64]
theorem main_part1_ops1_writes : (main_part1_ops1 : List (HloOp τ sig (Elt F))).Forall fun op => op.writes ⊆ (main_part1_ops1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- The buffers the operations of main_part1_ops2 write. -/
abbrev main_part1_ops2_W : List (Ref sig .tc) := [main_v66, main_v67, main_v68, main_v69, main_v70, main_v71]
theorem main_part1_ops2_writes : (main_part1_ops2 : List (HloOp τ sig (Elt F))).Forall fun op => op.writes ⊆ (main_part1_ops2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- The buffers the operations of main_part1_ops3 write. -/
abbrev main_part1_ops3_W : List (Ref sig .tc) := [main_v73, main_v74, main_v75, main_v76, main_v77]
theorem main_part1_ops3_writes : (main_part1_ops3 : List (HloOp τ sig (Elt F))).Forall fun op => op.writes ⊆ (main_part1_ops3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- The buffers the operations of main_part1_ops4 write. -/
abbrev main_part1_ops4_W : List (Ref sig .tc) := [main_call0_cst, main_call0_v0, main_v78]
theorem main_part1_ops4_writes : (main_part1_ops4 : List (HloOp τ sig (Elt F))).Forall fun op => op.writes ⊆ (main_part1_ops4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

variable (m : (ℓ : Loc nD τ sig) → Buf (Elt F) ℓ) (ρ : Dev nD → PrngReg)

/-! ## The buffers' contents at each segment boundary -/

/-- Core c's buffers at launch. -/
abbrev W0 : Dev nD → Valuation τ sig (Elt F) := fun c b => (s₀ m ρ).mem ((c : Dev nD), b)
/-- After the first host stretch: region 0's entry. -/
abbrev W1 : Dev nD → Valuation τ sig (Elt F) := fun c => StableHlo.after main_part0_ops0 (W0 m ρ c)
theorem W1_of (c : Dev nD) (r : Ref sig .tc) (h : r ∉ main_part0_ops0_W) : W1 m ρ c r = W0 m ρ c r :=
  StableHlo.after_of_writes_sub main_part0_ops0 _ main_part0_ops0_writes h

abbrev V1 : (c : Dev nD) → (b : Ref sig .tc) → Buf (Elt F) ((c : Thread nD τ).loc b) := fun c b => W1 m ρ c b

/-- At region 0's exit: its arrays at what the pipeline leaves (the inputs as entered, the output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch. -/
abbrev W3 : Dev nD → Valuation τ sig (Elt F) := fun c => StableHlo.after main_part0_ops1 (W2 m ρ c)
theorem W3_of (c : Dev nD) (r : Ref sig .tc) (h : r ∉ main_part0_ops1_W) : W3 m ρ c r = W2 m ρ c r :=
  StableHlo.after_of_writes_sub main_part0_ops1 _ main_part0_ops1_writes h

/-- After the third host stretch: region 1's entry. -/
abbrev W4 : Dev nD → Valuation τ sig (Elt F) := fun c => StableHlo.after main_part1_ops0 (W3 m ρ c)
theorem W4_of (c : Dev nD) (r : Ref sig .tc) (h : r ∉ main_part1_ops0_W) : W4 m ρ c r = W3 m ρ c r :=
  StableHlo.after_of_writes_sub main_part1_ops0 _ main_part1_ops0_writes h

abbrev V4 : (c : Dev nD) → (b : Ref sig .tc) → Buf (Elt F) ((c : Thread nD τ).loc b) := fun c b => W4 m ρ c b

/-- At region 1's exit: its arrays at what the pipeline leaves (the inputs as entered, the output's write-backs folded),
    every other buffer as entered. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
abbrev V5 : (c : Dev nD) → (b : Ref sig .tc) → Buf (Elt F) ((c : Thread nD τ).loc b) := fun c b => W5 m ρ c b
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-- After the fourth host stretch: region 2's entry. -/
abbrev W6 : Dev nD → Valuation τ sig (Elt F) := fun c => StableHlo.after main_part1_ops1 (W5 m ρ c)
theorem W6_of (c : Dev nD) (r : Ref sig .tc) (h : r ∉ main_part1_ops1_W) : W6 m ρ c r = W5 m ρ c r :=
  StableHlo.after_of_writes_sub main_part1_ops1 _ main_part1_ops1_writes h

abbrev V6 : (c : Dev nD) → (b : Ref sig .tc) → Buf (Elt F) ((c : Thread nD τ).loc b) := fun c b => W6 m ρ c b

/-- At region 2's exit: its arrays at what the pipeline leaves (the inputs as entered, the output's write-backs folded),
    every other buffer as entered. -/
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
abbrev V7 : (c : Dev nD) → (b : Ref sig .tc) → Buf (Elt F) ((c : Thread nD τ).loc b) := fun c b => W7 m ρ c b
theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)

/-- After the fifth host stretch: region 3's entry. -/
abbrev W8 : Dev nD → Valuation τ sig (Elt F) := fun c => StableHlo.after main_part1_ops2 (W7 m ρ c)
theorem W8_of (c : Dev nD) (r : Ref sig .tc) (h : r ∉ main_part1_ops2_W) : W8 m ρ c r = W7 m ρ c r :=
  StableHlo.after_of_writes_sub main_part1_ops2 _ main_part1_ops2_writes h

abbrev V8 : (c : Dev nD) → (b : Ref sig .tc) → Buf (Elt F) ((c : Thread nD τ).loc b) := fun c b => W8 m ρ c b

/-- At region 3's exit: its arrays at what the pipeline leaves (the inputs as entered, the output's write-backs folded),
    every other buffer as entered. -/
def W9 (c : Dev nD) : Valuation τ sig (Elt F) :=
  Pipeline.withArrays spec3 c (W8 m ρ c) fun w => (dat3 (V8 m ρ) c).arrAt w cfg3.N
theorem W9_arr (c : Dev nD) (w : Fin cfg3.W) :
    W9 m ρ c (Proc.devRef .tc (Pipeline.arrRef spec3 w)) = (dat3 (V8 m ρ) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m ρ c (Proc.devRef .tc b) = W8 m ρ c (Proc.devRef .tc b) := by
  unfold W9; exact Pipeline.withArrays_of_ne spec3 c _ _ b hb
abbrev V9 : (c : Dev nD) → (b : Ref sig .tc) → Buf (Elt F) ((c : Thread nD τ).loc b) := fun c b => W9 m ρ c b
theorem hF3 (c : Dev nD) (w : Fin cfg3.W) : (dat3 (V8 m ρ) c).arrAt w cfg3.N = V9 m ρ c (Pipeline.arrRef spec3 w) :=
  (W9_arr m ρ c w).symm
theorem hrest3 (c : Dev nD) : ∀ b, b ∉ Finset.univ.image (Pipeline.arrRef spec3) → V9 m ρ c b = V8 m ρ c b :=
  fun b hb => W9_of_ne m ρ c b fun w e => hb (Finset.mem_image.mpr ⟨w, Finset.mem_univ _, e⟩)

/-- After the sixth host stretch. -/
abbrev W10 : Dev nD → Valuation τ sig (Elt F) := fun c => StableHlo.after main_part1_ops3 (W9 m ρ c)
theorem W10_of (c : Dev nD) (r : Ref sig .tc) (h : r ∉ main_part1_ops3_W) : W10 m ρ c r = W9 m ρ c r :=
  StableHlo.after_of_writes_sub main_part1_ops3 _ main_part1_ops3_writes h

/-- After the last host stretch (the rectifier): the contents at the return. -/
abbrev W11 : Dev nD → Valuation τ sig (Elt F) := fun c => StableHlo.after main_part1_ops4 (W10 m ρ c)
theorem W11_of (c : Dev nD) (r : Ref sig .tc) (h : r ∉ main_part1_ops4_W) : W11 m ρ c r = W10 m ρ c r :=
  StableHlo.after_of_writes_sub main_part1_ops4 _ main_part1_ops4_writes h

/-! ## The arguments end as launched: no host operation writes one and no region has one among its arrays -/

theorem W1_main_arg0 (c : Dev nD) : W1 m ρ c (Proc.devRef .tc main_arg0) = m ((c : Thread nD τ).loc main_arg0) := (W1_of m ρ c main_arg0 (by decide)).trans (rfl)
theorem W2_main_arg0 (c : Dev nD) : W2 m ρ c (Proc.devRef .tc main_arg0) = m ((c : Thread nD τ).loc main_arg0) := (W2_of_ne m ρ c main_arg0 (by decide)).trans (W1_main_arg0 m ρ c)
theorem W3_main_arg0 (c : Dev nD) : W3 m ρ c (Proc.devRef .tc main_arg0) = m ((c : Thread nD τ).loc main_arg0) := (W3_of m ρ c main_arg0 (by decide)).trans (W2_main_arg0 m ρ c)
theorem W4_main_arg0 (c : Dev nD) : W4 m ρ c (Proc.devRef .tc main_arg0) = m ((c : Thread nD τ).loc main_arg0) := (W4_of m ρ c main_arg0 (by decide)).trans (W3_main_arg0 m ρ c)
theorem W5_main_arg0 (c : Dev nD) : W5 m ρ c (Proc.devRef .tc main_arg0) = m ((c : Thread nD τ).loc main_arg0) := (W5_of_ne m ρ c main_arg0 (by decide)).trans (W4_main_arg0 m ρ c)
theorem W6_main_arg0 (c : Dev nD) : W6 m ρ c (Proc.devRef .tc main_arg0) = m ((c : Thread nD τ).loc main_arg0) := (W6_of m ρ c main_arg0 (by decide)).trans (W5_main_arg0 m ρ c)
theorem W7_main_arg0 (c : Dev nD) : W7 m ρ c (Proc.devRef .tc main_arg0) = m ((c : Thread nD τ).loc main_arg0) := (W7_of_ne m ρ c main_arg0 (by decide)).trans (W6_main_arg0 m ρ c)
theorem W8_main_arg0 (c : Dev nD) : W8 m ρ c (Proc.devRef .tc main_arg0) = m ((c : Thread nD τ).loc main_arg0) := (W8_of m ρ c main_arg0 (by decide)).trans (W7_main_arg0 m ρ c)
theorem W9_main_arg0 (c : Dev nD) : W9 m ρ c (Proc.devRef .tc main_arg0) = m ((c : Thread nD τ).loc main_arg0) := (W9_of_ne m ρ c main_arg0 (by decide)).trans (W8_main_arg0 m ρ c)
theorem W10_main_arg0 (c : Dev nD) : W10 m ρ c (Proc.devRef .tc main_arg0) = m ((c : Thread nD τ).loc main_arg0) := (W10_of m ρ c main_arg0 (by decide)).trans (W9_main_arg0 m ρ c)
theorem W11_main_arg0 (c : Dev nD) : W11 m ρ c (Proc.devRef .tc main_arg0) = m ((c : Thread nD τ).loc main_arg0) := (W11_of m ρ c main_arg0 (by decide)).trans (W10_main_arg0 m ρ c)

theorem W1_main_arg1 (c : Dev nD) : W1 m ρ c (Proc.devRef .tc main_arg1) = m ((c : Thread nD τ).loc main_arg1) := (W1_of m ρ c main_arg1 (by decide)).trans (rfl)
theorem W2_main_arg1 (c : Dev nD) : W2 m ρ c (Proc.devRef .tc main_arg1) = m ((c : Thread nD τ).loc main_arg1) := (W2_of_ne m ρ c main_arg1 (by decide)).trans (W1_main_arg1 m ρ c)
theorem W3_main_arg1 (c : Dev nD) : W3 m ρ c (Proc.devRef .tc main_arg1) = m ((c : Thread nD τ).loc main_arg1) := (W3_of m ρ c main_arg1 (by decide)).trans (W2_main_arg1 m ρ c)
theorem W4_main_arg1 (c : Dev nD) : W4 m ρ c (Proc.devRef .tc main_arg1) = m ((c : Thread nD τ).loc main_arg1) := (W4_of m ρ c main_arg1 (by decide)).trans (W3_main_arg1 m ρ c)
theorem W5_main_arg1 (c : Dev nD) : W5 m ρ c (Proc.devRef .tc main_arg1) = m ((c : Thread nD τ).loc main_arg1) := (W5_of_ne m ρ c main_arg1 (by decide)).trans (W4_main_arg1 m ρ c)
theorem W6_main_arg1 (c : Dev nD) : W6 m ρ c (Proc.devRef .tc main_arg1) = m ((c : Thread nD τ).loc main_arg1) := (W6_of m ρ c main_arg1 (by decide)).trans (W5_main_arg1 m ρ c)
theorem W7_main_arg1 (c : Dev nD) : W7 m ρ c (Proc.devRef .tc main_arg1) = m ((c : Thread nD τ).loc main_arg1) := (W7_of_ne m ρ c main_arg1 (by decide)).trans (W6_main_arg1 m ρ c)
theorem W8_main_arg1 (c : Dev nD) : W8 m ρ c (Proc.devRef .tc main_arg1) = m ((c : Thread nD τ).loc main_arg1) := (W8_of m ρ c main_arg1 (by decide)).trans (W7_main_arg1 m ρ c)
theorem W9_main_arg1 (c : Dev nD) : W9 m ρ c (Proc.devRef .tc main_arg1) = m ((c : Thread nD τ).loc main_arg1) := (W9_of_ne m ρ c main_arg1 (by decide)).trans (W8_main_arg1 m ρ c)
theorem W10_main_arg1 (c : Dev nD) : W10 m ρ c (Proc.devRef .tc main_arg1) = m ((c : Thread nD τ).loc main_arg1) := (W10_of m ρ c main_arg1 (by decide)).trans (W9_main_arg1 m ρ c)
theorem W11_main_arg1 (c : Dev nD) : W11 m ρ c (Proc.devRef .tc main_arg1) = m ((c : Thread nD τ).loc main_arg1) := (W11_of m ρ c main_arg1 (by decide)).trans (W10_main_arg1 m ρ c)

theorem W1_main_arg2 (c : Dev nD) : W1 m ρ c (Proc.devRef .tc main_arg2) = m ((c : Thread nD τ).loc main_arg2) := (W1_of m ρ c main_arg2 (by decide)).trans (rfl)
theorem W2_main_arg2 (c : Dev nD) : W2 m ρ c (Proc.devRef .tc main_arg2) = m ((c : Thread nD τ).loc main_arg2) := (W2_of_ne m ρ c main_arg2 (by decide)).trans (W1_main_arg2 m ρ c)
theorem W3_main_arg2 (c : Dev nD) : W3 m ρ c (Proc.devRef .tc main_arg2) = m ((c : Thread nD τ).loc main_arg2) := (W3_of m ρ c main_arg2 (by decide)).trans (W2_main_arg2 m ρ c)
theorem W4_main_arg2 (c : Dev nD) : W4 m ρ c (Proc.devRef .tc main_arg2) = m ((c : Thread nD τ).loc main_arg2) := (W4_of m ρ c main_arg2 (by decide)).trans (W3_main_arg2 m ρ c)
theorem W5_main_arg2 (c : Dev nD) : W5 m ρ c (Proc.devRef .tc main_arg2) = m ((c : Thread nD τ).loc main_arg2) := (W5_of_ne m ρ c main_arg2 (by decide)).trans (W4_main_arg2 m ρ c)
theorem W6_main_arg2 (c : Dev nD) : W6 m ρ c (Proc.devRef .tc main_arg2) = m ((c : Thread nD τ).loc main_arg2) := (W6_of m ρ c main_arg2 (by decide)).trans (W5_main_arg2 m ρ c)
theorem W7_main_arg2 (c : Dev nD) : W7 m ρ c (Proc.devRef .tc main_arg2) = m ((c : Thread nD τ).loc main_arg2) := (W7_of_ne m ρ c main_arg2 (by decide)).trans (W6_main_arg2 m ρ c)
theorem W8_main_arg2 (c : Dev nD) : W8 m ρ c (Proc.devRef .tc main_arg2) = m ((c : Thread nD τ).loc main_arg2) := (W8_of m ρ c main_arg2 (by decide)).trans (W7_main_arg2 m ρ c)
theorem W9_main_arg2 (c : Dev nD) : W9 m ρ c (Proc.devRef .tc main_arg2) = m ((c : Thread nD τ).loc main_arg2) := (W9_of_ne m ρ c main_arg2 (by decide)).trans (W8_main_arg2 m ρ c)
theorem W10_main_arg2 (c : Dev nD) : W10 m ρ c (Proc.devRef .tc main_arg2) = m ((c : Thread nD τ).loc main_arg2) := (W10_of m ρ c main_arg2 (by decide)).trans (W9_main_arg2 m ρ c)
theorem W11_main_arg2 (c : Dev nD) : W11 m ρ c (Proc.devRef .tc main_arg2) = m ((c : Thread nD τ).loc main_arg2) := (W11_of m ρ c main_arg2 (by decide)).trans (W10_main_arg2 m ρ c)

theorem W1_main_arg3 (c : Dev nD) : W1 m ρ c (Proc.devRef .tc main_arg3) = m ((c : Thread nD τ).loc main_arg3) := (W1_of m ρ c main_arg3 (by decide)).trans (rfl)
theorem W2_main_arg3 (c : Dev nD) : W2 m ρ c (Proc.devRef .tc main_arg3) = m ((c : Thread nD τ).loc main_arg3) := (W2_of_ne m ρ c main_arg3 (by decide)).trans (W1_main_arg3 m ρ c)
theorem W3_main_arg3 (c : Dev nD) : W3 m ρ c (Proc.devRef .tc main_arg3) = m ((c : Thread nD τ).loc main_arg3) := (W3_of m ρ c main_arg3 (by decide)).trans (W2_main_arg3 m ρ c)
theorem W4_main_arg3 (c : Dev nD) : W4 m ρ c (Proc.devRef .tc main_arg3) = m ((c : Thread nD τ).loc main_arg3) := (W4_of m ρ c main_arg3 (by decide)).trans (W3_main_arg3 m ρ c)
theorem W5_main_arg3 (c : Dev nD) : W5 m ρ c (Proc.devRef .tc main_arg3) = m ((c : Thread nD τ).loc main_arg3) := (W5_of_ne m ρ c main_arg3 (by decide)).trans (W4_main_arg3 m ρ c)
theorem W6_main_arg3 (c : Dev nD) : W6 m ρ c (Proc.devRef .tc main_arg3) = m ((c : Thread nD τ).loc main_arg3) := (W6_of m ρ c main_arg3 (by decide)).trans (W5_main_arg3 m ρ c)
theorem W7_main_arg3 (c : Dev nD) : W7 m ρ c (Proc.devRef .tc main_arg3) = m ((c : Thread nD τ).loc main_arg3) := (W7_of_ne m ρ c main_arg3 (by decide)).trans (W6_main_arg3 m ρ c)
theorem W8_main_arg3 (c : Dev nD) : W8 m ρ c (Proc.devRef .tc main_arg3) = m ((c : Thread nD τ).loc main_arg3) := (W8_of m ρ c main_arg3 (by decide)).trans (W7_main_arg3 m ρ c)
theorem W9_main_arg3 (c : Dev nD) : W9 m ρ c (Proc.devRef .tc main_arg3) = m ((c : Thread nD τ).loc main_arg3) := (W9_of_ne m ρ c main_arg3 (by decide)).trans (W8_main_arg3 m ρ c)
theorem W10_main_arg3 (c : Dev nD) : W10 m ρ c (Proc.devRef .tc main_arg3) = m ((c : Thread nD τ).loc main_arg3) := (W10_of m ρ c main_arg3 (by decide)).trans (W9_main_arg3 m ρ c)
theorem W11_main_arg3 (c : Dev nD) : W11 m ρ c (Proc.devRef .tc main_arg3) = m ((c : Thread nD τ).loc main_arg3) := (W11_of m ρ c main_arg3 (by decide)).trans (W10_main_arg3 m ρ c)

theorem W1_main_arg4 (c : Dev nD) : W1 m ρ c (Proc.devRef .tc main_arg4) = m ((c : Thread nD τ).loc main_arg4) := (W1_of m ρ c main_arg4 (by decide)).trans (rfl)
theorem W2_main_arg4 (c : Dev nD) : W2 m ρ c (Proc.devRef .tc main_arg4) = m ((c : Thread nD τ).loc main_arg4) := (W2_of_ne m ρ c main_arg4 (by decide)).trans (W1_main_arg4 m ρ c)
theorem W3_main_arg4 (c : Dev nD) : W3 m ρ c (Proc.devRef .tc main_arg4) = m ((c : Thread nD τ).loc main_arg4) := (W3_of m ρ c main_arg4 (by decide)).trans (W2_main_arg4 m ρ c)
theorem W4_main_arg4 (c : Dev nD) : W4 m ρ c (Proc.devRef .tc main_arg4) = m ((c : Thread nD τ).loc main_arg4) := (W4_of m ρ c main_arg4 (by decide)).trans (W3_main_arg4 m ρ c)
theorem W5_main_arg4 (c : Dev nD) : W5 m ρ c (Proc.devRef .tc main_arg4) = m ((c : Thread nD τ).loc main_arg4) := (W5_of_ne m ρ c main_arg4 (by decide)).trans (W4_main_arg4 m ρ c)
theorem W6_main_arg4 (c : Dev nD) : W6 m ρ c (Proc.devRef .tc main_arg4) = m ((c : Thread nD τ).loc main_arg4) := (W6_of m ρ c main_arg4 (by decide)).trans (W5_main_arg4 m ρ c)
theorem W7_main_arg4 (c : Dev nD) : W7 m ρ c (Proc.devRef .tc main_arg4) = m ((c : Thread nD τ).loc main_arg4) := (W7_of_ne m ρ c main_arg4 (by decide)).trans (W6_main_arg4 m ρ c)
theorem W8_main_arg4 (c : Dev nD) : W8 m ρ c (Proc.devRef .tc main_arg4) = m ((c : Thread nD τ).loc main_arg4) := (W8_of m ρ c main_arg4 (by decide)).trans (W7_main_arg4 m ρ c)
theorem W9_main_arg4 (c : Dev nD) : W9 m ρ c (Proc.devRef .tc main_arg4) = m ((c : Thread nD τ).loc main_arg4) := (W9_of_ne m ρ c main_arg4 (by decide)).trans (W8_main_arg4 m ρ c)
theorem W10_main_arg4 (c : Dev nD) : W10 m ρ c (Proc.devRef .tc main_arg4) = m ((c : Thread nD τ).loc main_arg4) := (W10_of m ρ c main_arg4 (by decide)).trans (W9_main_arg4 m ρ c)
theorem W11_main_arg4 (c : Dev nD) : W11 m ρ c (Proc.devRef .tc main_arg4) = m ((c : Thread nD τ).loc main_arg4) := (W11_of m ρ c main_arg4 (by decide)).trans (W10_main_arg4 m ρ c)

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V4 m ρ) c
  | ⟨2, _⟩ => fun c => dat2 (V6 m ρ) c
  | ⟨3, _⟩ => fun c => dat3 (V8 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped buffers from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered with every unscoped buffer at W1, left with them at W2. Its arrays
    are split out of the unscoped buffers at entry and put back at what the write-backs leave at the exit; the generator
    register and the scoped rest go into the invariant and come back; nothing is owed; the kernel has no semaphore of
    its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (V1 m ρ) c
    unfold Pipeline.ΦA at h
    rw [show (pdats m ρ 0 c).Φ 0 = (dat0 (V1 m ρ) c).Φ 0 from rfl]
    iintro ⟨Hp, -, Hr⟩
    iapply h
    isplitl [Hr]; · iexact Hr
    iexact Hp
  hout c := by
    have h := hout0 (V1 m ρ) c
    unfold Pipeline.ΦA at h
    rw [Pipeline.ownSems0_none, show (pdats m ρ 0 c).Φ (Fin.last _) = (dat0 (V1 m ρ) c).Φ (Fin.last cfg0.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at W4, left with them at W5. Its arrays
    are split out of the unscoped buffers at entry and put back at what the write-backs leave at the exit; the generator
    register and the scoped rest go into the invariant and come back; nothing is owed; the kernel has no semaphore of
    its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (V4 m ρ) c
    unfold Pipeline.ΦA at h
    rw [show (pdats m ρ 1 c).Φ 0 = (dat1 (V4 m ρ) c).Φ 0 from rfl]
    iintro ⟨Hp, -, Hr⟩
    iapply h
    isplitl [Hr]; · iexact Hr
    iexact Hp
  hout c := by
    have h := hout1 (V4 m ρ) c
    unfold Pipeline.ΦA at h
    rw [Pipeline.ownSems0_none, show (pdats m ρ 1 c).Φ (Fin.last _) = (dat1 (V4 m ρ) c).Φ (Fin.last cfg1.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at W6, left with them at W7. Its arrays
    are split out of the unscoped buffers at entry and put back at what the write-backs leave at the exit; the generator
    register and the scoped rest go into the invariant and come back; nothing is owed; the kernel has no semaphore of
    its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin2 (V6 m ρ) c
    unfold Pipeline.ΦA at h
    rw [show (pdats m ρ 2 c).Φ 0 = (dat2 (V6 m ρ) c).Φ 0 from rfl]
    iintro ⟨Hp, -, Hr⟩
    iapply h
    isplitl [Hr]; · iexact Hr
    iexact Hp
  hout c := by
    have h := hout2 (V6 m ρ) c
    unfold Pipeline.ΦA at h
    rw [Pipeline.ownSems0_none, show (pdats m ρ 2 c).Φ (Fin.last _) = (dat2 (V6 m ρ) c).Φ (Fin.last cfg2.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at W8, left with them at W9. Its arrays
    are split out of the unscoped buffers at entry and put back at what the write-backs leave at the exit; the generator
    register and the scoped rest go into the invariant and come back; nothing is owed; the kernel has no semaphore of
    its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m ρ) c).loose
  hwaits := Pipeline.hwaits_of_owed_zero _ _ _ _ L lv 3 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec3 c (V8 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin3 (V8 m ρ) c
    unfold Pipeline.ΦA at h
    rw [show (pdats m ρ 3 c).Φ 0 = (dat3 (V8 m ρ) c).Φ 0 from rfl]
    iintro ⟨Hp, -, Hr⟩
    iapply h
    isplitl [Hr]; · iexact Hr
    iexact Hp
  hout c := by
    have h := hout3 (V8 m ρ) c
    unfold Pipeline.ΦA at h
    rw [Pipeline.ownSems0_none, show (pdats m ρ 3 c).Φ (Fin.last _) = (dat3 (V8 m ρ) c).Φ (Fin.last cfg3.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V8 m ρ c) (V9 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg main_part0_ops0 main_part0_ops0_sub main_part0_ops0_fresh (W0 m ρ)),
    .region (reg0 m ρ),
    .host (hseg main_part0_ops1 main_part0_ops1_sub main_part0_ops1_fresh (W2 m ρ)),
    .host (hseg main_part1_ops0 main_part1_ops0_sub main_part1_ops0_fresh (W3 m ρ)),
    .region (reg1 m ρ),
    .host (hseg main_part1_ops1 main_part1_ops1_sub main_part1_ops1_fresh (W5 m ρ)),
    .region (reg2 m ρ),
    .host (hseg main_part1_ops2 main_part1_ops2_sub main_part1_ops2_fresh (W7 m ρ)),
    .region (reg3 m ρ),
    .host (hseg main_part1_ops3 main_part1_ops3_sub main_part1_ops3_fresh (W9 m ρ)),
    .host (hseg main_part1_ops4 main_part1_ops4_sub main_part1_ops4_fresh (W10 m ρ)) ]

theorem main_run (c : Dev nD) : main (F := F) c = Pipeline.Seg.run (segs m ρ) := (main_chain_windows c).trans (by chain_rfl)

set_option backward.isDefEq.respectTransparency.types false in
/-- THE RUN: from any memory with zero counters every weakly fair execution of @main on the TensorCores terminates,
    nothing faulting, and every final state holds each unscoped buffer of each core at W11. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W11 m ρ c) ∗ ∃ r, prngReg c r))
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (W11 m ρ c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c)⟩) (run_main m ρ)

end Cert.KernelIdeal.Hand

end
-- ==== Proof.HostStages.lean ====
/-
  The host stretches of the idealized kernel program read at the ideal instance, against the reference's stages:
  applied to any contents X of the core's buffers, each stretch leaves in its result buffers the same operations of
  the same operands as the reference applies (a narrowing to bf16 is the identity on the extended reals), so each
  result is the reference's stage function of the operands X holds — by unfolding both sides, no arithmetic.
-/
import proofs.«122622_j10385230921953_1_alg».proof.Proof.Gen.KernelIdeal.Launch
import proofs.«122622_j10385230921953_1_alg».proof.Proof.Gen.ReferenceIdeal.Read
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (X : Valuation τ sig (Elt Ideal))

/-! ## Before the linear layer: the two narrowings and the bias as a row -/

theorem stageA_v0 : StableHlo.after (main_part0_ops0 (F := Ideal)) X (Proc.devRef .tc main_v0) = (truncf .bf16 (X (Proc.devRef .tc main_arg0) : FVec Ideal S8192x512 .f32) bitsLt_bf16_f32 : FVec Ideal S8192x512 .bf16) := by
  dsimp only [main_part0_ops0]; after_results
theorem stageA_v1 : StableHlo.after (main_part0_ops0 (F := Ideal)) X (Proc.devRef .tc main_v1) = (truncf .bf16 (X (Proc.devRef .tc main_arg2) : FVec Ideal S512x512 .f32) bitsLt_bf16_f32 : FVec Ideal S512x512 .bf16) := by
  dsimp only [main_part0_ops0]; after_results
theorem stageA_v2 : StableHlo.after (main_part0_ops0 (F := Ideal)) X (Proc.devRef .tc main_v2) = shapeCast S1x512 (X (Proc.devRef .tc main_arg3)) shapeCasts_S512_S1x512 := by
  dsimp only [main_part0_ops0]; after_results; rfl

/-! ## The adjacency before normalization and its row sums -/

set_option maxHeartbeats 4000000 in
theorem stageB_v45 : StableHlo.after (main_part0_ops1 (F := Ideal)) X (Proc.devRef .tc main_v45) = Cert.ReferenceIdeal.Read.val_main_v45 (F := Ideal) (X (Proc.devRef .tc main_arg1)) := by
  dsimp only [main_part0_ops1]; after_results_simp; rfl
set_option maxHeartbeats 4000000 in
theorem stageB_v46 : StableHlo.after (main_part0_ops1 (F := Ideal)) X (Proc.devRef .tc main_v46) = Cert.ReferenceIdeal.Read.val_main_v46 (F := Ideal) (X (Proc.devRef .tc main_arg1)) := by
  dsimp only [main_part0_ops1]; after_results_simp; rfl

variable (x0 : (⟨Cert.ReferenceIdeal.S8192x512, .f32⟩ : BufTy).Contents (Elt Ideal)) (x1 : (⟨Cert.ReferenceIdeal.S2x262144, .i32⟩ : BufTy).Contents (Elt Ideal)) (x2 : (⟨Cert.ReferenceIdeal.S512x512, .f32⟩ : BufTy).Contents (Elt Ideal)) (x3 : (⟨Cert.ReferenceIdeal.S512, .f32⟩ : BufTy).Contents (Elt Ideal)) (x4 : (⟨Cert.ReferenceIdeal.S4, .f32⟩ : BufTy).Contents (Elt Ideal))

/-! ## The normalization, the first weighted term and the narrowed linear result -/

theorem stageC_v52 (h45 : X (Proc.devRef .tc main_v45) = Cert.ReferenceIdeal.Read.val_main_v45 (F := Ideal) x1) (h46 : X (Proc.devRef .tc main_v46) = Cert.ReferenceIdeal.Read.val_main_v46 (F := Ideal) x1) :
    StableHlo.after (main_part1_ops0 (F := Ideal)) X (Proc.devRef .tc main_v52) = (truncf .bf16 (Cert.ReferenceIdeal.Read.val_main_v51 (F := Ideal) x1 : FVec Ideal S8192x8192 .f32) bitsLt_bf16_f32 : FVec Ideal S8192x8192 .bf16) := by
  dsimp only [main_part1_ops0]; after_results; rw [h45, h46]; rfl
theorem stageC_v56 (h3 : X (Proc.devRef .tc main_v3) = Cert.ReferenceIdeal.Read.val_main_v3 (F := Ideal) x0 x2 x3) (h4 : X (Proc.devRef .tc main_arg4) = x4) :
    StableHlo.after (main_part1_ops0 (F := Ideal)) X (Proc.devRef .tc main_v56) = Cert.ReferenceIdeal.Read.val_main_v55 (F := Ideal) x0 x2 x3 x4 := by
  dsimp only [main_part1_ops0]; after_results; rw [h3, h4]; rfl
theorem stageC_v57 :
    StableHlo.after (main_part1_ops0 (F := Ideal)) X (Proc.devRef .tc main_v57) = (truncf .bf16 (X (Proc.devRef .tc main_v3) : FVec Ideal S8192x512 .f32) bitsLt_bf16_f32 : FVec Ideal S8192x512 .bf16) := by
  dsimp only [main_part1_ops0]; after_results

/-! ## After each diffusion hop: the running weighted sum and the narrowed hop result -/

theorem stageD_v63 (h56 : X (Proc.devRef .tc main_v56) = Cert.ReferenceIdeal.Read.val_main_v55 (F := Ideal) x0 x2 x3 x4) (h58 : X (Proc.devRef .tc main_v58) = Cert.ReferenceIdeal.Read.val_main_v56 (F := Ideal) x0 x1 x2 x3)
    (h4 : X (Proc.devRef .tc main_arg4) = x4) :
    StableHlo.after (main_part1_ops1 (F := Ideal)) X (Proc.devRef .tc main_v63) = Cert.ReferenceIdeal.Read.val_main_v61 (F := Ideal) x0 x1 x2 x3 x4 := by
  dsimp only [main_part1_ops1]; after_results; rw [h56, h58, h4]; rfl
theorem stageD_v64 :
    StableHlo.after (main_part1_ops1 (F := Ideal)) X (Proc.devRef .tc main_v64) = (truncf .bf16 (X (Proc.devRef .tc main_v58) : FVec Ideal S8192x512 .f32) bitsLt_bf16_f32 : FVec Ideal S8192x512 .bf16) := by
  dsimp only [main_part1_ops1]; after_results

theorem stageE_v70 (h63 : X (Proc.devRef .tc main_v63) = Cert.ReferenceIdeal.Read.val_main_v61 (F := Ideal) x0 x1 x2 x3 x4) (h65 : X (Proc.devRef .tc main_v65) = Cert.ReferenceIdeal.Read.val_main_v62 (F := Ideal) x0 x1 x2 x3)
    (h4 : X (Proc.devRef .tc main_arg4) = x4) :
    StableHlo.after (main_part1_ops2 (F := Ideal)) X (Proc.devRef .tc main_v70) = Cert.ReferenceIdeal.Read.val_main_v67 (F := Ideal) x0 x1 x2 x3 x4 := by
  dsimp only [main_part1_ops2]; after_results; rw [h63, h65, h4]; rfl
theorem stageE_v71 :
    StableHlo.after (main_part1_ops2 (F := Ideal)) X (Proc.devRef .tc main_v71) = (truncf .bf16 (X (Proc.devRef .tc main_v65) : FVec Ideal S8192x512 .f32) bitsLt_bf16_f32 : FVec Ideal S8192x512 .bf16) := by
  dsimp only [main_part1_ops2]; after_results

theorem stageF_v77 (h70 : X (Proc.devRef .tc main_v70) = Cert.ReferenceIdeal.Read.val_main_v67 (F := Ideal) x0 x1 x2 x3 x4) (h72 : X (Proc.devRef .tc main_v72) = Cert.ReferenceIdeal.Read.val_main_v68 (F := Ideal) x0 x1 x2 x3)
    (h4 : X (Proc.devRef .tc main_arg4) = x4) :
    StableHlo.after (main_part1_ops3 (F := Ideal)) X (Proc.devRef .tc main_v77) = Cert.ReferenceIdeal.Read.val_main_v73 (F := Ideal) x0 x1 x2 x3 x4 := by
  dsimp only [main_part1_ops3]; after_results; rw [h70, h72, h4]; rfl

/-! ## The rectifier -/

theorem stageG_v78 (h77 : X (Proc.devRef .tc main_v77) = Cert.ReferenceIdeal.Read.val_main_v73 (F := Ideal) x0 x1 x2 x3 x4) :
    StableHlo.after (main_part1_ops4 (F := Ideal)) X (Proc.devRef .tc main_v78) = Cert.ReferenceIdeal.Read.val_main_v74 (F := Ideal) x0 x1 x2 x3 x4 := by
  dsimp only [main_part1_ops4]; after_results; rw [h77]; rfl

end Cert.KernelIdeal.Hand

end
-- ==== Proof.Spec.lean ====
/-
  The values the idealized kernel program stores, read at an index, at the ideal instance (a float is an extended real).
  Three stored blocks: the linear layer's block (a row of the input against a column of the weights, plus the bias of
  that column), the accumulator's reset value (zero), and one accumulation step (what the accumulator held plus a row of
  a 1024x2048 block against a column of a 2048x512 block). Last, the arithmetic fact that joins four such steps: a sum
  over 8192 terms is the sum of its four consecutive stretches of 2048.
-/
import proofs.«122622_j10385230921953_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx

/-! ## The linear layer's matrix product read at an index

The contraction runs over the left operand's axis 1 and the right operand's axis 0; the result's row comes from the left
operand's axis 0 and its column from the right operand's axis 1. The four lemmas below say so of the operand indices,
one axis each; the product lemma then re-indexes the sum over the one-axis contraction index by its coordinate. -/

private theorem lhs_lin_0 (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
private theorem lhs_lin_1 (i : S2048x512.Idx) (q : dot_S2048x512_S512x512_S2048x512_1_0_0_1_n_n.contr.Idx) :
    (dot_S2048x512_S512x512_S2048x512_1_0_0_1_n_n.lhsIdx i q 1).val = (q ⟨0, by decide⟩).val :=
  dot_S2048x512_S512x512_S2048x512_1_0_0_1_n_n.lhsIdx_val_of_single rfl i q
private theorem rhs_lin_0 (i : S2048x512.Idx) (q : dot_S2048x512_S512x512_S2048x512_1_0_0_1_n_n.contr.Idx) :
    (dot_S2048x512_S512x512_S2048x512_1_0_0_1_n_n.rhsIdx i q 0).val = (q ⟨0, by decide⟩).val :=
  dot_S2048x512_S512x512_S2048x512_1_0_0_1_n_n.rhsIdx_val_of_single rfl i q
private theorem rhs_lin_1 (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

/-- The 2048x512 by 512x512 product into the zero splat, at row p and column q: the row of the left operand against the
    column of the right one. -/
private theorem lin_matmul_apply (a : FVec Ideal S2048x512 .bf16) (b : FVec Ideal S512x512 .bf16) (p : Fin 2048) (q : Fin 512) :
    matmul (F := Ideal) dot_S2048x512_S512x512_S2048x512_1_0_0_1_n_n none a b (constant (F := Ideal) S2048x512 .f32 0x00000000#32) (ix2 p q)
      = ∑ k : Fin 512, a (ix2 p k) * b (ix2 k q) := by
  simp only [matmul]
  rw [Ideal.matmul_constant_zero_apply, ← Equiv.sum_comp (contrEquiv1 dot_S2048x512_S512x512_S2048x512_1_0_0_1_n_n 512 rfl rfl).symm]
  refine Finset.sum_congr rfl fun k _ => ?_
  have hk := contrEquiv1_symm_val dot_S2048x512_S512x512_S2048x512_1_0_0_1_n_n 512 rfl rfl k
  have el : dot_S2048x512_S512x512_S2048x512_1_0_0_1_n_n.lhsIdx (ix2 p q) ((contrEquiv1 dot_S2048x512_S512x512_S2048x512_1_0_0_1_n_n 512 rfl rfl).symm k) = ix2 p k := funext fun ax => Fin.ext (by
    match ax with
    | ⟨0, _⟩ => exact lhs_lin_0 _ _
    | ⟨1, _⟩ => exact (lhs_lin_1 _ _).trans hk)
  have er : dot_S2048x512_S512x512_S2048x512_1_0_0_1_n_n.rhsIdx (ix2 p q) ((contrEquiv1 dot_S2048x512_S512x512_S2048x512_1_0_0_1_n_n 512 rfl rfl).symm k) = ix2 k q := funext fun ax => Fin.ext (by
    match ax with
    | ⟨0, _⟩ => exact (rhs_lin_0 _ _).trans hk
    | ⟨1, _⟩ => exact rhs_lin_1 _ _)
  rw [el, er]

/-- The linear layer's stored block at row p, column q: the row of x against the column of w, plus the bias entry of that column. -/
theorem lin_pay_apply (x : Vec Ideal S2048x512 .bf16) (w : Vec Ideal S512x512 .bf16) (b : Vec Ideal S1x512 .f32) (p : Fin 2048) (q : Fin 512) :
    k0_pay1 (F := Ideal) x w b (ix2 p q) = (∑ k : Fin 512, x (ix2 p k) * w (ix2 k q)) + b (ix2 (0 : Fin 1) q) := by
  unfold k0_pay1
  rw [addf_apply, shapeCast_self, shapeCast_self, shapeCast_self, lin_matmul_apply, broadcastTo_1b_ab_apply]

/-! ## The accumulator's reset value -/

/-- The accumulator's reset value is zero everywhere. -/
theorem zero1_pay_apply (i : S1024x512.Idx) : k1_pay1 (F := Ideal) i = 0 := by
  unfold k1_pay1
  rw [shapeCast_self, broadcast_apply]
  exact Ideal.ofBits_zero_f32

/-! ## One accumulation step's matrix product read at an index -/

private theorem lhs_diff_0 (i : S1024x512.Idx) (q : dot_S1024x2048_S2048x512_S1024x512_1_0_0_1_n_n.contr.Idx) :
    (dot_S1024x2048_S2048x512_S1024x512_1_0_0_1_n_n.lhsIdx i q 0).val = (i 0).val := by
  unfold DotDims.lhsIdx
  rw [dif_neg (show ¬(0 : Fin S1024x2048.rank) ∈ dot_S1024x2048_S2048x512_S1024x512_1_0_0_1_n_n.lhsBatch by decide), dif_pos (show (0 : Fin S1024x2048.rank) ∈ dot_S1024x2048_S2048x512_S1024x512_1_0_0_1_n_n.lhsNonContracting by decide)]
  rfl
private theorem lhs_diff_1 (i : S1024x512.Idx) (q : dot_S1024x2048_S2048x512_S1024x512_1_0_0_1_n_n.contr.Idx) :
    (dot_S1024x2048_S2048x512_S1024x512_1_0_0_1_n_n.lhsIdx i q 1).val = (q ⟨0, by decide⟩).val :=
  dot_S1024x2048_S2048x512_S1024x512_1_0_0_1_n_n.lhsIdx_val_of_single rfl i q
private theorem rhs_diff_0 (i : S1024x512.Idx) (q : dot_S1024x2048_S2048x512_S1024x512_1_0_0_1_n_n.contr.Idx) :
    (dot_S1024x2048_S2048x512_S1024x512_1_0_0_1_n_n.rhsIdx i q 0).val = (q ⟨0, by decide⟩).val :=
  dot_S1024x2048_S2048x512_S1024x512_1_0_0_1_n_n.rhsIdx_val_of_single rfl i q
private theorem rhs_diff_1 (i : S1024x512.Idx) (q : dot_S1024x2048_S2048x512_S1024x512_1_0_0_1_n_n.contr.Idx) :
    (dot_S1024x2048_S2048x512_S1024x512_1_0_0_1_n_n.rhsIdx i q 1).val = (i 1).val := by
  unfold DotDims.rhsIdx
  rw [dif_neg (show ¬(1 : Fin S2048x512.rank) ∈ dot_S1024x2048_S2048x512_S1024x512_1_0_0_1_n_n.rhsBatch by decide), dif_pos (show (1 : Fin S2048x512.rank) ∈ dot_S1024x2048_S2048x512_S1024x512_1_0_0_1_n_n.rhsNonContracting by decide)]
  rfl

/-- The 1024x2048 by 2048x512 product into the zero splat, at row p and column q. -/
private theorem diff_matmul_apply (a : FVec Ideal S1024x2048 .bf16) (b : FVec Ideal S2048x512 .bf16) (p : Fin 1024) (q : Fin 512) :
    matmul (F := Ideal) dot_S1024x2048_S2048x512_S1024x512_1_0_0_1_n_n none a b (constant (F := Ideal) S1024x512 .f32 0x00000000#32) (ix2 p q)
      = ∑ k : Fin 2048, a (ix2 p k) * b (ix2 k q) := by
  simp only [matmul]
  rw [Ideal.matmul_constant_zero_apply, ← Equiv.sum_comp (contrEquiv1 dot_S1024x2048_S2048x512_S1024x512_1_0_0_1_n_n 2048 rfl rfl).symm]
  refine Finset.sum_congr rfl fun k _ => ?_
  have hk := contrEquiv1_symm_val dot_S1024x2048_S2048x512_S1024x512_1_0_0_1_n_n 2048 rfl rfl k
  have el : dot_S1024x2048_S2048x512_S1024x512_1_0_0_1_n_n.lhsIdx (ix2 p q) ((contrEquiv1 dot_S1024x2048_S2048x512_S1024x512_1_0_0_1_n_n 2048 rfl rfl).symm k) = ix2 p k := funext fun ax => Fin.ext (by
    match ax with
    | ⟨0, _⟩ => exact lhs_diff_0 _ _
    | ⟨1, _⟩ => exact (lhs_diff_1 _ _).trans hk)
  have er : dot_S1024x2048_S2048x512_S1024x512_1_0_0_1_n_n.rhsIdx (ix2 p q) ((contrEquiv1 dot_S1024x2048_S2048x512_S1024x512_1_0_0_1_n_n 2048 rfl rfl).symm k) = ix2 k q := funext fun ax => Fin.ext (by
    match ax with
    | ⟨0, _⟩ => exact (rhs_diff_0 _ _).trans hk
    | ⟨1, _⟩ => exact rhs_diff_1 _ _)
  rw [el, er]

/-- One accumulation step at row p, column q: what the accumulator held plus the row of the 1024x2048 block against the column of the 2048x512 block. -/
theorem diff1_pay_apply (s : Vec Ideal S1024x512 .f32) (x : Vec Ideal S1024x2048 .bf16) (y : Vec Ideal S2048x512 .bf16) (p : Fin 1024) (q : Fin 512) :
    k1_pay2 (F := Ideal) s x y (ix2 p q) = s (ix2 p q) + ∑ k : Fin 2048, x (ix2 p k) * y (ix2 k q) := by
  unfold k1_pay2
  rw [shapeCast_self, addf_apply, shapeCast_self, shapeCast_self, diff_matmul_apply]

/-! ## Four stretches of 2048 make 8192 -/

/-- A sum over a + b terms is the sum of the first a plus the sum of the last b. -/
private theorem sum_split {N : Nat} (a b : Nat) (h : a + b = N) (g : Fin N → EReal) :
    ∑ k : Fin N, g k = (∑ k : Fin a, g ⟨k.val, by omega⟩) + ∑ k : Fin b, g ⟨a + k.val, by omega⟩ := by
  subst h
  rw [Fin.sum_univ_add]
  rfl

/-- A sum over 8192 terms is the sum of its four consecutive stretches of 2048 (commutativity and associativity only: it holds on the extended reals with no finiteness assumption). -/
theorem sum_four_blocks (f : Fin 8192 → EReal) :
    (((0 + ∑ k : Fin 2048, f ⟨k.val, by omega⟩) + ∑ k : Fin 2048, f ⟨2048 + k.val, by omega⟩) + ∑ k : Fin 2048, f ⟨4096 + k.val, by omega⟩)
      + ∑ k : Fin 2048, f ⟨6144 + k.val, by omega⟩ = ∑ k : Fin 8192, f k := by
  have h3 := sum_split 6144 2048 rfl f
  have h2 := sum_split 4096 2048 rfl (fun k : Fin 6144 => f ⟨k.val, by omega⟩)
  have h1 := sum_split 2048 2048 rfl (fun k : Fin 4096 => f ⟨k.val, by omega⟩)
  rw [h3, h2, h1, zero_add]

/-! The second and third diffusion regions run the same kernel function: their stored values are the same terms. -/

theorem zero2_pay_apply (i : S1024x512.Idx) : k2_pay1 (F := Ideal) i = 0 := zero1_pay_apply i
theorem diff2_pay_apply (s : Vec Ideal S1024x512 .f32) (x : Vec Ideal S1024x2048 .bf16) (y : Vec Ideal S2048x512 .bf16) (p : Fin 1024) (q : Fin 512) :
    k2_pay2 (F := Ideal) s x y (ix2 p q) = s (ix2 p q) + ∑ k : Fin 2048, x (ix2 p k) * y (ix2 k q) := diff1_pay_apply s x y p q
theorem zero3_pay_apply (i : S1024x512.Idx) : k3_pay1 (F := Ideal) i = 0 := zero1_pay_apply i
theorem diff3_pay_apply (s : Vec Ideal S1024x512 .f32) (x : Vec Ideal S1024x2048 .bf16) (y : Vec Ideal S2048x512 .bf16) (p : Fin 1024) (q : Fin 512) :
    k3_pay2 (F := Ideal) s x y (ix2 p q) = s (ix2 p q) + ∑ k : Fin 2048, x (ix2 p k) * y (ix2 k q) := diff1_pay_apply s x y p q

end Cert.KernelIdeal.Hand

end
-- ==== Proof.SpecG.lean ====
/-
  The two whole-array functions the kernel regions compute at the ideal instance: a matrix product with a bias row
  added (the linear layer) and a plain matrix product (one diffusion hop), each entry a finite sum over the
  contracted index on the extended reals.
-/
import proofs.«122622_j10385230921953_1_alg».proof.KernelIdeal
import Idealize.ShloMosaic.Lib.ValueIdx

noncomputable section

namespace Cert.KernelIdeal.Hand

open Cert.KernelIdeal Idealize.ShloMosaic Idealize.ShloMosaic.ValueIdx

/-- Entry (r, q) of x · w + b: row r of x against column q of w, plus the bias entry of column q. -/
def linG (x : Vec Ideal S8192x512 .bf16) (w : Vec Ideal S512x512 .bf16) (b : Vec Ideal S1x512 .f32) : Vec Ideal S8192x512 .f32 :=
  fun i => (∑ k : Fin 512, x (ix2 (i 0) k) * w (ix2 k (i 1))) + b (ix2 (0 : Fin 1) (i 1))

/-- Entry (r, q) of a · b: row r of a against column q of b. -/
def mmG (a : Vec Ideal S8192x8192 .bf16) (b : Vec Ideal S8192x512 .bf16) : Vec Ideal S8192x512 .f32 :=
  fun i => ∑ k : Fin 8192, a (ix2 (i 0) k) * b (ix2 k (i 1))

end Cert.KernelIdeal.Hand

end
-- ==== Proof.ValueLin.lean ====
/-
  The value of the linear region's result array at the ideal instance. The region's grid has four points; point t
  reads rows 2048 t .. 2048 t + 2047 of the 8192x512 input matrix, the whole 512x512 weight matrix and the 1x512 bias
  row, and writes back row block t of the 8192x512 result. Each written block is the matching row block of the one
  whole-array function  x · W + b  of the three arrays the region read, and the four blocks tile the result; so after
  the region the result array is that function, entry by entry.
-/
import proofs.«122622_j10385230921953_1_alg».proof.Proof.Linear
import proofs.«122622_j10385230921953_1_alg».proof.Proof.Spec
import proofs.«122622_j10385230921953_1_alg».proof.Proof.SpecG
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-- The grid has four points. -/
theorem lin_pt_lt (t : Fin cfg0.N) : t.val < 4 := by
  have h := t.isLt
  have hN : cfg0.N = 4 := N_0
  omega

/-- The windows' index maps over the grid: the input matrix and the result move with the point along the rows, at
    column block 0; the weight matrix and the bias row stay at block (0, 0). -/
theorem lin_idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of the input block at point t is row 2048 t + p of the input matrix. -/
theorem lin_xblk_apply (c : Dev nD) (t : Fin cfg0.N) (p : Fin 2048) (k : Fin 512) :
    (iblk0 V c 0 t : Vec Ideal S2048x512 .bf16) (ix2 p k)
      = (V c (Pipeline.arrRef spec0 0) : Vec Ideal S8192x512 .bf16)
          (ix2 (⟨t.val * 2048 + p.val, by have := lin_pt_lt t; omega⟩ : Fin 8192) k) := by
  obtain ⟨e0, e1, -⟩ := lin_idx_facts t
  unfold iblk0
  show V c (Pipeline.arrRef spec0 0) (((cfg0.win 0).blk t).view.emb (ix2 p k)) = _
  refine congrArg _ ?_
  funext a
  apply Fin.ext
  match a with
  | ⟨0, _⟩ => show win0_0.index t (0 : Fin 2) * 2048 + 1 * p.val = t.val * 2048 + p.val; omega
  | ⟨1, _⟩ => show win0_0.index t (1 : Fin 2) * 512 + 1 * k.val = k.val; omega

/-- The weight block at every point is the whole weight matrix. -/
theorem lin_wblk_apply (c : Dev nD) (t : Fin cfg0.N) (k : Fin 512) (q : Fin 512) :
    (iblk0 V c 1 t : Vec Ideal S512x512 .bf16) (ix2 k q)
      = (V c (Pipeline.arrRef spec0 1) : Vec Ideal S512x512 .bf16) (ix2 k q) := by
  obtain ⟨-, -, e0, e1, -⟩ := lin_idx_facts t
  unfold iblk0
  show V c (Pipeline.arrRef spec0 1) (((cfg0.win 1).blk t).view.emb (ix2 k q)) = _
  refine congrArg _ ?_
  funext a
  apply Fin.ext
  match a with
  | ⟨0, _⟩ => show win0_1.index t (0 : Fin 2) * 512 + 1 * k.val = k.val; omega
  | ⟨1, _⟩ => show win0_1.index t (1 : Fin 2) * 512 + 1 * q.val = q.val; omega

/-- The bias block at every point is the whole bias row. -/
theorem lin_bblk_apply (c : Dev nD) (t : Fin cfg0.N) (z : Fin 1) (q : Fin 512) :
    (iblk0 V c 2 t : Vec Ideal S1x512 .f32) (ix2 z q)
      = (V c (Pipeline.arrRef spec0 2) : Vec Ideal S1x512 .f32) (ix2 z q) := by
  obtain ⟨-, -, -, -, e0, e1, -⟩ := lin_idx_facts t
  unfold iblk0
  show V c (Pipeline.arrRef spec0 2) (((cfg0.win 2).blk t).view.emb (ix2 z q)) = _
  refine congrArg _ ?_
  funext a
  apply Fin.ext
  match a with
  | ⟨0, _⟩ => show win0_2.index t (0 : Fin 2) * 1 + 1 * z.val = z.val; omega
  | ⟨1, _⟩ => show win0_2.index t (1 : Fin 2) * 512 + 1 * q.val = q.val; omega

/-- Entry (r, q) of  x · W + b : row r of x against column q of W, plus the bias entry of column q. -/
theorem linG_apply (x : Vec Ideal S8192x512 .bf16) (w : Vec Ideal S512x512 .bf16) (b : Vec Ideal S1x512 .f32)
    (r : Fin 8192) (q : Fin 512) :
    linG x w b (ix2 r q) = (∑ k : Fin 512, x (ix2 r k) * w (ix2 k q)) + b (ix2 (0 : Fin 1) q) := rfl

/-- What point t writes back is row block t of  x · W + b  of the three arrays as the region finds them. -/
theorem lin_flushed_eq (c : Dev nD) (t : Fin cfg0.N) :
    (dat0 (F := Ideal) V c).flushed 3 t
      = ((cfg0.win 3).blk t).view.read (Elt Ideal)
          (linG (V c (Pipeline.arrRef spec0 0)) (V c (Pipeline.arrRef spec0 1)) (V c (Pipeline.arrRef spec0 2))) := by
  show (cfg0.win 3).cut (cfg0.grid.coords t) ((dat0 (F := Ideal) V c).after 3 t) = _
  rw [after0_3]
  unfold out0
  obtain ⟨-, -, -, -, -, -, e0, e1⟩ := lin_idx_facts t
  funext y
  obtain ⟨p, q, rfl⟩ : ∃ (p : Fin 2048) (q : Fin 512), y = ix2 p q := ⟨y 0, y 1, eq_ix2 y⟩
  have hi : ((cfg0.win 3).blk t).view.emb (ix2 p q)
      = (ix2 (⟨t.val * 2048 + p.val, by have := lin_pt_lt t; omega⟩ : Fin 8192) q : S8192x512.Idx) := by
    funext a
    apply Fin.ext
    match a with
    | ⟨0, _⟩ => show win0_3.index t (0 : Fin 2) * 2048 + 1 * p.val = t.val * 2048 + p.val; omega
    | ⟨1, _⟩ => show win0_3.index t (1 : Fin 2) * 512 + 1 * q.val = q.val; omega
  show k0_pay1 (F := Ideal) (iblk0 V c 0 t) (iblk0 V c 1 t) (iblk0 V c 2 t) (ix2 p q)
      = linG (V c (Pipeline.arrRef spec0 0)) (V c (Pipeline.arrRef spec0 1)) (V c (Pipeline.arrRef spec0 2))
          (((cfg0.win 3).blk t).view.emb (ix2 p q))
  rw [hi]
  refine (lin_pay_apply (iblk0 V c 0 t) (iblk0 V c 1 t) (iblk0 V c 2 t) p q).trans ?_
  refine Eq.trans ?_ (linG_apply (V c (Pipeline.arrRef spec0 0)) (V c (Pipeline.arrRef spec0 1))
    (V c (Pipeline.arrRef spec0 2)) ⟨t.val * 2048 + p.val, by have := lin_pt_lt t; omega⟩ q).symm
  exact congrArg₂ (· + ·)
    (Finset.sum_congr rfl fun k _ => congrArg₂ (· * ·) (lin_xblk_apply V c t p k) (lin_wblk_apply V c t k q))
    (lin_bblk_apply V c t 0 q)

/-- An index of the result is in point t's block iff each coordinate is in the block's range on its axis. -/
theorem lin_mem_blk (t : Fin cfg0.N) (i : S8192x512.Idx) :
    i ∈ ((cfg0.win 3).blk t).view.set
      ↔ ∀ a : Fin 2, win0_3.index t a * S2048x512.size a ≤ (i a).val
          ∧ (i a).val < win0_3.index t a * S2048x512.size a + S2048x512.size a := by
  show i ∈ ((View.whole main_v3).slice (win0_3.rect t)).set ↔ _
  rw [View.set_slice_whole, Rect.mem_set_unit]
  exact Iff.rfl

/-- The four row blocks tile the result: row r lies in the block of point r / 2048. -/
theorem lin_cover (i : S8192x512.Idx) :
    ∃ t : Fin cfg0.N, (cfg0.win 3).flush t = true ∧ i ∈ ((cfg0.win 3).blk t).view.set := by
  have hi0 : (i 0).val < 8192 := (i 0).isLt
  have hi1 : (i 1).val < 512 := (i 1).isLt
  have hN : cfg0.N = 4 := N_0
  obtain ⟨t, ht⟩ : ∃ t : Fin cfg0.N, t.val = (i 0).val / 2048 := ⟨⟨(i 0).val / 2048, by omega⟩, rfl⟩
  obtain ⟨-, -, -, -, -, -, e0, e1⟩ := lin_idx_facts t
  refine ⟨t, flush0_3 t, ?_⟩
  rw [lin_mem_blk]
  intro a
  match a with
  | ⟨0, _⟩ =>
    show win0_3.index t (0 : Fin 2) * 2048 ≤ (i 0).val ∧ (i 0).val < win0_3.index t (0 : Fin 2) * 2048 + 2048
    omega
  | ⟨1, _⟩ =>
    show win0_3.index t (1 : Fin 2) * 512 ≤ (i 1).val ∧ (i 1).val < win0_3.index t (1 : Fin 2) * 512 + 512
    omega

/-- After the region the result array holds x · W + b of the three arrays the region read, entry by entry. -/
theorem arr0_out (c : Dev nD) :
    (dat0 (F := Ideal) V c).arrAt 3 cfg0.N = linG (V c (Pipeline.arrRef spec0 0)) (V c (Pipeline.arrRef spec0 1)) (V c (Pipeline.arrRef spec0 2)) :=
  (dat0 (F := Ideal) V c).arrAt_eq_of_cover 3
    (linG (V c (Pipeline.arrRef spec0 0)) (V c (Pipeline.arrRef spec0 1)) (V c (Pipeline.arrRef spec0 2)))
    (fun t _ => lin_flushed_eq V c t) lin_cover

end Cert.KernelIdeal.Hand

end
-- ==== Proof.ValueDiff1.lean ====
/-
  The value of region 1's result array: one diffusion hop, the product of the 8192x8192 normalized adjacency with an
  8192x512 matrix, on a grid of 8 row blocks by 4 column stretches. Point t = 4 i + k reads block (i, k) of the left
  factor (1024 rows, 2048 columns) and block k of the right factor (2048 rows); the accumulator is reset where k = 0,
  the block product is added at every point, and the last point of a row block (k = 3) writes the accumulator back as
  row block i of the result. Read at an entry, the accumulator there is zero plus four sums over 2048 consecutive
  columns, which together are the one sum over all 8192; the eight row blocks cover the result array.
-/
import proofs.«122622_j10385230921953_1_alg».proof.Proof.Diff1
import proofs.«122622_j10385230921953_1_alg».proof.Proof.Spec
import proofs.«122622_j10385230921953_1_alg».proof.Proof.SpecG
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The index maps over the grid -/

/-- The windows' index maps at point t: the left factor's block is (t / 4, t % 4), the right factor's is (t % 4, 0), the
    result's is (t / 4, 0). -/
theorem idx1_facts : ∀ t : Fin cfg1.N, win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = t.val / 4 ∧ win1_2.index t (1 : Fin 2) = 0 :=
  (by decide +kernel : ∀ t : Fin grid1.N, _)

variable (V : (c : Dev nD) → (b : Ref sig .tc) → Buf (Elt Ideal) ((c : Thread nD τ).loc b))

/-! ## The two input blocks read at coordinates -/

/-- The left factor's block at point t, read at (p, kk), is the array's entry at row 1024 (t / 4) + p and column
    2048 (t % 4) + kk. -/
theorem blk1_0_apply (c : Dev nD) (t : Fin cfg1.N) (p : Fin 1024) (kk : Fin 2048) (r k : Fin 8192)
    (hr : r.val = 1024 * (t.val / 4) + p.val) (hk : k.val = 2048 * (t.val % 4) + kk.val) :
    iblk1 (F := Ideal) V c 0 t (ix2 p kk) = V c (Pipeline.arrRef spec1 0) (ix2 r k) := by
  unfold iblk1
  show V c (Pipeline.arrRef spec1 0) (((cfg1.win 0).blk t).view.emb (ix2 p kk)) = _
  obtain ⟨ea, eb, -, -, -, -⟩ := idx1_facts t
  congr 1
  funext a
  apply Fin.ext
  match a with
  | ⟨0, _⟩ => show win1_0.index t (0 : Fin 2) * 1024 + 1 * p.val = r.val; rw [ea, hr]; omega
  | ⟨1, _⟩ => show win1_0.index t (1 : Fin 2) * 2048 + 1 * kk.val = k.val; rw [eb, hk]; omega

/-- The right factor's block at point t, read at (kk, q), is the array's entry at row 2048 (t % 4) + kk and column q. -/
theorem blk1_1_apply (c : Dev nD) (t : Fin cfg1.N) (kk : Fin 2048) (q : Fin 512) (k : Fin 8192)
    (hk : k.val = 2048 * (t.val % 4) + kk.val) :
    iblk1 (F := Ideal) V c 1 t (ix2 kk q) = V c (Pipeline.arrRef spec1 1) (ix2 k q) := by
  unfold iblk1
  show V c (Pipeline.arrRef spec1 1) (((cfg1.win 1).blk t).view.emb (ix2 kk q)) = _
  obtain ⟨-, -, ea, eb, -, -⟩ := idx1_facts t
  congr 1
  funext a
  apply Fin.ext
  match a with
  | ⟨0, _⟩ => show win1_1.index t (0 : Fin 2) * 2048 + 1 * kk.val = k.val; rw [ea, hk]; omega
  | ⟨1, _⟩ => show win1_1.index t (1 : Fin 2) * 512 + 1 * q.val = q.val; rw [eb]; omega

/-! ## The accumulator where a row block's run ends -/

/-- Four accumulation steps from the reset value, read at entry (p, q), when the four left blocks are the four
    consecutive stretches of 2048 columns of row r of A and the four right blocks the matching stretches of rows of B:
    zero plus the four block products' entries, added in the order of the steps, is the entry (r, q) of A · B. -/
private theorem acc_entry (A : Vec Ideal S8192x8192 .bf16) (B : Vec Ideal S8192x512 .bf16)
    (xa xb xc xd : Vec Ideal S1024x2048 .bf16) (ya yb yc yd : Vec Ideal S2048x512 .bf16)
    (p : Fin 1024) (q : Fin 512) (r : Fin 8192)
    (hxa : ∀ k : Fin 2048, xa (ix2 p k) = A (ix2 r ⟨k.val, by omega⟩))
    (hxb : ∀ k : Fin 2048, xb (ix2 p k) = A (ix2 r ⟨2048 + k.val, by omega⟩))
    (hxc : ∀ k : Fin 2048, xc (ix2 p k) = A (ix2 r ⟨4096 + k.val, by omega⟩))
    (hxd : ∀ k : Fin 2048, xd (ix2 p k) = A (ix2 r ⟨6144 + k.val, by omega⟩))
    (hya : ∀ k : Fin 2048, ya (ix2 k q) = B (ix2 ⟨k.val, by omega⟩ q))
    (hyb : ∀ k : Fin 2048, yb (ix2 k q) = B (ix2 ⟨2048 + k.val, by omega⟩ q))
    (hyc : ∀ k : Fin 2048, yc (ix2 k q) = B (ix2 ⟨4096 + k.val, by omega⟩ q))
    (hyd : ∀ k : Fin 2048, yd (ix2 k q) = B (ix2 ⟨6144 + k.val, by omega⟩ q)) :
    k1_pay2 (F := Ideal) (k1_pay2 (F := Ideal) (k1_pay2 (F := Ideal) (k1_pay2 (F := Ideal) (k1_pay1 (F := Ideal)) xa ya) xb yb) xc yc) xd yd (ix2 p q)
      = mmG A B (ix2 r q) := by
  rw [diff1_pay_apply, diff1_pay_apply, diff1_pay_apply, diff1_pay_apply, zero1_pay_apply]
  simp only [hxa, hxb, hxc, hxd, hya, hyb, hyc, hyd]
  exact sum_four_blocks (fun kk : Fin 8192 => A (ix2 r kk) * B (ix2 kk q))

/-- The accumulator after the last of four consecutive points that begin at a multiple of 4: the reset and the four
    steps, spelled out. -/
private theorem acc_unroll (c : Dev nD) (n : ℕ) (hd : n + 3 < cfg1.N) (hm : n % 4 = 0) :
    acc1 (F := Ideal) V c (n + 3) hd
      = k1_pay2 (k1_pay2 (k1_pay2 (k1_pay2 (k1_pay1 (F := Ideal))
            (iblk1 V c 0 ⟨n, by omega⟩) (iblk1 V c 1 ⟨n, by omega⟩))
            (iblk1 V c 0 ⟨n + 1, by omega⟩) (iblk1 V c 1 ⟨n + 1, by omega⟩))
            (iblk1 V c 0 ⟨n + 2, by omega⟩) (iblk1 V c 1 ⟨n + 2, by omega⟩))
            (iblk1 V c 0 ⟨n + 3, hd⟩) (iblk1 V c 1 ⟨n + 3, hd⟩) := by
  have ha : n < cfg1.N := by omega
  have hb : n + 1 < cfg1.N := by omega
  have hc : n + 2 < cfg1.N := by omega
  have ed : acc1 (F := Ideal) V c (n + 3) hd = k1_pay2 (acc1 V c (n + 2) hc) (iblk1 V c 0 ⟨n + 3, hd⟩) (iblk1 V c 1 ⟨n + 3, hd⟩) :=
    acc1_step V c ⟨n + 3, hd⟩ (by show ¬(n + 3) % 4 = 0; omega)
  have ec : acc1 (F := Ideal) V c (n + 2) hc = k1_pay2 (acc1 V c (n + 1) hb) (iblk1 V c 0 ⟨n + 2, hc⟩) (iblk1 V c 1 ⟨n + 2, hc⟩) :=
    acc1_step V c ⟨n + 2, hc⟩ (by show ¬(n + 2) % 4 = 0; omega)
  have eb : acc1 (F := Ideal) V c (n + 1) hb = k1_pay2 (acc1 V c n ha) (iblk1 V c 0 ⟨n + 1, hb⟩) (iblk1 V c 1 ⟨n + 1, hb⟩) :=
    acc1_step V c ⟨n + 1, hb⟩ (by show ¬(n + 1) % 4 = 0; omega)
  have ea : acc1 (F := Ideal) V c n ha = k1_pay2 (k1_pay1 (F := Ideal)) (iblk1 V c 0 ⟨n, ha⟩) (iblk1 V c 1 ⟨n, ha⟩) :=
    acc1_reset V c ⟨n, ha⟩ hm
  rw [ed, ec, eb, ea]

/-- Where a row block's run ends (t % 4 = 3) the accumulator's entry (p, q) is the whole product's entry at row
    1024 (t / 4) + p and column q: the four stretches of 2048 summed one after the other are the one sum over 8192. -/
theorem acc1_apply (c : Dev nD) (t : Fin cfg1.N) (hf : t.val % 4 = 3) (p : Fin 1024) (q : Fin 512) (r : Fin 8192)
    (hr : r.val = 1024 * (t.val / 4) + p.val) :
    acc1 (F := Ideal) V c t.val t.isLt (ix2 p q) = mmG (V c (Pipeline.arrRef spec1 0)) (V c (Pipeline.arrRef spec1 1)) (ix2 r q) := by
  obtain ⟨tv, ht⟩ := t
  obtain ⟨n, rfl⟩ : ∃ n, tv = n + 3 := ⟨tv - 3, by have : tv % 4 = 3 := hf; omega⟩
  have hm : n % 4 = 0 := by have : (n + 3) % 4 = 3 := hf; omega
  have hrow : r.val = 1024 * ((n + 3) / 4) + p.val := hr
  have ha : n < cfg1.N := by omega
  have hb : n + 1 < cfg1.N := by omega
  have hc : n + 2 < cfg1.N := by omega
  show acc1 (F := Ideal) V c (n + 3) ht (ix2 p q) = _
  rw [acc_unroll V c n ht hm]
  exact acc_entry (V c (Pipeline.arrRef spec1 0)) (V c (Pipeline.arrRef spec1 1))
    (iblk1 V c 0 ⟨n, ha⟩) (iblk1 V c 0 ⟨n + 1, hb⟩) (iblk1 V c 0 ⟨n + 2, hc⟩) (iblk1 V c 0 ⟨n + 3, ht⟩)
    (iblk1 V c 1 ⟨n, ha⟩) (iblk1 V c 1 ⟨n + 1, hb⟩) (iblk1 V c 1 ⟨n + 2, hc⟩) (iblk1 V c 1 ⟨n + 3, ht⟩) p q r
    (fun k => blk1_0_apply V c ⟨n, ha⟩ p k r ⟨k.val, by omega⟩ (by show r.val = 1024 * (n / 4) + p.val; omega) (by show k.val = 2048 * (n % 4) + k.val; omega))
    (fun k => blk1_0_apply V c ⟨n + 1, hb⟩ p k r ⟨2048 + k.val, by omega⟩ (by show r.val = 1024 * ((n + 1) / 4) + p.val; omega) (by show 2048 + k.val = 2048 * ((n + 1) % 4) + k.val; omega))
    (fun k => blk1_0_apply V c ⟨n + 2, hc⟩ p k r ⟨4096 + k.val, by omega⟩ (by show r.val = 1024 * ((n + 2) / 4) + p.val; omega) (by show 4096 + k.val = 2048 * ((n + 2) % 4) + k.val; omega))
    (fun k => blk1_0_apply V c ⟨n + 3, ht⟩ p k r ⟨6144 + k.val, by omega⟩ (by show r.val = 1024 * ((n + 3) / 4) + p.val; omega) (by show 6144 + k.val = 2048 * ((n + 3) % 4) + k.val; omega))
    (fun k => blk1_1_apply V c ⟨n, ha⟩ k q ⟨k.val, by omega⟩ (by show k.val = 2048 * (n % 4) + k.val; omega))
    (fun k => blk1_1_apply V c ⟨n + 1, hb⟩ k q ⟨2048 + k.val, by omega⟩ (by show 2048 + k.val = 2048 * ((n + 1) % 4) + k.val; omega))
    (fun k => blk1_1_apply V c ⟨n + 2, hc⟩ k q ⟨4096 + k.val, by omega⟩ (by show 4096 + k.val = 2048 * ((n + 2) % 4) + k.val; omega))
    (fun k => blk1_1_apply V c ⟨n + 3, ht⟩ k q ⟨6144 + k.val, by omega⟩ (by show 6144 + k.val = 2048 * ((n + 3) % 4) + k.val; omega))

/-! ## What a row block's last point writes back, the cover, and the array -/

/-- What a point t with t % 4 = 3 writes back is its block of the product of the two arrays the region read. -/
theorem flushed1_eq (c : Dev nD) (t : Fin cfg1.N) (hf : t.val % 4 = 3) :
    (dat1 (F := Ideal) V c).flushed 2 t
      = ((cfg1.win 2).blk t).view.read (Elt Ideal) (mmG (V c (Pipeline.arrRef spec1 0)) (V c (Pipeline.arrRef spec1 1))) := by
  show (cfg1.win 2).cut (cfg1.grid.coords t) ((dat1 (F := Ideal) V c).after 2 t) = _
  rw [after1_2]
  have hN : cfg1.N = 32 := N_1
  have hlt := t.isLt
  funext y
  obtain ⟨p, q, rfl⟩ : ∃ (p : Fin 1024) (q : Fin 512), y = ix2 p q := ⟨y 0, y 1, eq_ix2 y⟩
  obtain ⟨-, -, -, -, ea, eb⟩ := idx1_facts t
  have hemb : ((cfg1.win 2).blk t).view.emb (ix2 p q) = ix2 (⟨1024 * (t.val / 4) + p.val, by omega⟩ : Fin 8192) q := by
    funext a
    apply Fin.ext
    match a with
    | ⟨0, _⟩ => show win1_2.index t (0 : Fin 2) * 1024 + 1 * p.val = 1024 * (t.val / 4) + p.val; rw [ea]; omega
    | ⟨1, _⟩ => show win1_2.index t (1 : Fin 2) * 512 + 1 * q.val = q.val; rw [eb]; omega
  show acc1 (F := Ideal) V c t.val t.isLt (ix2 p q)
    = mmG (V c (Pipeline.arrRef spec1 0)) (V c (Pipeline.arrRef spec1 1)) (((cfg1.win 2).blk t).view.emb (ix2 p q))
  rw [hemb]
  exact acc1_apply V c t hf p q _ rfl

/-- An index of the result array is in point t's block iff each coordinate is in the block's range on its axis. -/
theorem mem_blk1 (t : Fin cfg1.N) (i : S8192x512.Idx) :
    i ∈ ((cfg1.win 2).blk t).view.set ↔ ∀ a : Fin 2, win1_2.index t a * S1024x512.size a ≤ (i a).val ∧ (i a).val < win1_2.index t a * S1024x512.size a + S1024x512.size a := by
  show i ∈ ((View.whole (Pipeline.arrRef spec1 2)).slice (win1_2.rect t)).set ↔ _
  rw [View.set_slice_whole, Rect.mem_set_unit]
  exact Iff.rfl

/-- Every entry of the result array is in the block of a point that writes back: row r is covered by the last point of
    row block r / 1024. -/
theorem cover1 (i : S8192x512.Idx) : ∃ t : Fin cfg1.N, (cfg1.win 2).flush t = true ∧ i ∈ ((cfg1.win 2).blk t).view.set := by
  have hN : cfg1.N = 32 := N_1
  have hr : (i 0).val < 8192 := (i 0).isLt
  have hq : (i 1).val < 512 := (i 1).isLt
  obtain ⟨t, ht⟩ : ∃ t : Fin cfg1.N, t.val = 4 * ((i 0).val / 1024) + 3 := ⟨⟨4 * ((i 0).val / 1024) + 3, by omega⟩, rfl⟩
  obtain ⟨-, -, -, -, ea, eb⟩ := idx1_facts t
  refine ⟨t, (flush1_2 t).mpr (by omega), ?_⟩
  rw [mem_blk1]
  intro a
  match a with
  | ⟨0, _⟩ => show win1_2.index t (0 : Fin 2) * 1024 ≤ (i 0).val ∧ (i 0).val < win1_2.index t (0 : Fin 2) * 1024 + 1024; rw [ea]; omega
  | ⟨1, _⟩ => show win1_2.index t (1 : Fin 2) * 512 ≤ (i 1).val ∧ (i 1).val < win1_2.index t (1 : Fin 2) * 512 + 512; rw [eb]; omega

/-- After the region the result array holds the matrix product of the two arrays the region read, entry by entry: the
    four stretches of 2048 the accumulator summed one after the other are the one sum over 8192. -/
theorem arr1_out (V : (c : Dev nD) → (b : Ref sig .tc) → Buf (Elt Ideal) ((c : Thread nD τ).loc b)) (c : Dev nD) :
    (dat1 (F := Ideal) V c).arrAt 2 cfg1.N = mmG (V c (Pipeline.arrRef spec1 0)) (V c (Pipeline.arrRef spec1 1)) :=
  (dat1 (F := Ideal) V c).arrAt_eq_of_cover 2 (mmG (V c (Pipeline.arrRef spec1 0)) (V c (Pipeline.arrRef spec1 1)))
    (fun t ht => flushed1_eq V c t ((flush1_2 t).mp ht)) cover1

end Cert.KernelIdeal.Hand

end
-- ==== Proof.ValueDiff2.lean ====
/-
  The value of region 2's result array: one diffusion hop, the product of the 8192x8192 normalized adjacency with an
  8192x512 matrix, on a grid of 8 row blocks by 4 column stretches. Point t = 4 i + k reads block (i, k) of the left
  factor (1024 rows, 2048 columns) and block k of the right factor (2048 rows); the accumulator is reset where k = 0,
  the block product is added at every point, and the last point of a row block (k = 3) writes the accumulator back as
  row block i of the result. Read at an entry, the accumulator there is zero plus four sums over 2048 consecutive
  columns, which together are the one sum over all 8192; the eight row blocks cover the result array.
-/
import proofs.«122622_j10385230921953_1_alg».proof.Proof.Diff2
import proofs.«122622_j10385230921953_1_alg».proof.Proof.Spec
import proofs.«122622_j10385230921953_1_alg».proof.Proof.SpecG
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The index maps over the grid -/

/-- The windows' index maps at point t: the left factor's block is (t / 4, t % 4), the right factor's is (t % 4, 0), the
    result's is (t / 4, 0). -/
theorem idx2_facts : ∀ t : Fin cfg2.N, win2_0.index t (0 : Fin 2) = t.val / 4 ∧ win2_0.index t (1 : Fin 2) = t.val % 4
    ∧ win2_1.index t (0 : Fin 2) = t.val % 4 ∧ win2_1.index t (1 : Fin 2) = 0
    ∧ win2_2.index t (0 : Fin 2) = t.val / 4 ∧ win2_2.index t (1 : Fin 2) = 0 :=
  (by decide +kernel : ∀ t : Fin grid2.N, _)

variable (V : (c : Dev nD) → (b : Ref sig .tc) → Buf (Elt Ideal) ((c : Thread nD τ).loc b))

/-! ## The two input blocks read at coordinates -/

/-- The left factor's block at point t, read at (p, kk), is the array's entry at row 1024 (t / 4) + p and column
    2048 (t % 4) + kk. -/
theorem blk2_0_apply (c : Dev nD) (t : Fin cfg2.N) (p : Fin 1024) (kk : Fin 2048) (r k : Fin 8192)
    (hr : r.val = 1024 * (t.val / 4) + p.val) (hk : k.val = 2048 * (t.val % 4) + kk.val) :
    iblk2 (F := Ideal) V c 0 t (ix2 p kk) = V c (Pipeline.arrRef spec2 0) (ix2 r k) := by
  unfold iblk2
  show V c (Pipeline.arrRef spec2 0) (((cfg2.win 0).blk t).view.emb (ix2 p kk)) = _
  obtain ⟨ea, eb, -, -, -, -⟩ := idx2_facts t
  congr 1
  funext a
  apply Fin.ext
  match a with
  | ⟨0, _⟩ => show win2_0.index t (0 : Fin 2) * 1024 + 1 * p.val = r.val; rw [ea, hr]; omega
  | ⟨1, _⟩ => show win2_0.index t (1 : Fin 2) * 2048 + 1 * kk.val = k.val; rw [eb, hk]; omega

/-- The right factor's block at point t, read at (kk, q), is the array's entry at row 2048 (t % 4) + kk and column q. -/
theorem blk2_1_apply (c : Dev nD) (t : Fin cfg2.N) (kk : Fin 2048) (q : Fin 512) (k : Fin 8192)
    (hk : k.val = 2048 * (t.val % 4) + kk.val) :
    iblk2 (F := Ideal) V c 1 t (ix2 kk q) = V c (Pipeline.arrRef spec2 1) (ix2 k q) := by
  unfold iblk2
  show V c (Pipeline.arrRef spec2 1) (((cfg2.win 1).blk t).view.emb (ix2 kk q)) = _
  obtain ⟨-, -, ea, eb, -, -⟩ := idx2_facts t
  congr 1
  funext a
  apply Fin.ext
  match a with
  | ⟨0, _⟩ => show win2_1.index t (0 : Fin 2) * 2048 + 1 * kk.val = k.val; rw [ea, hk]; omega
  | ⟨1, _⟩ => show win2_1.index t (1 : Fin 2) * 512 + 1 * q.val = q.val; rw [eb]; omega

/-! ## The accumulator where a row block's run ends -/

/-- Four accumulation steps from the reset value, read at entry (p, q), when the four left blocks are the four
    consecutive stretches of 2048 columns of row r of A and the four right blocks the matching stretches of rows of B:
    zero plus the four block products' entries, added in the order of the steps, is the entry (r, q) of A · B. -/
private theorem acc_entry (A : Vec Ideal S8192x8192 .bf16) (B : Vec Ideal S8192x512 .bf16)
    (xa xb xc xd : Vec Ideal S1024x2048 .bf16) (ya yb yc yd : Vec Ideal S2048x512 .bf16)
    (p : Fin 1024) (q : Fin 512) (r : Fin 8192)
    (hxa : ∀ k : Fin 2048, xa (ix2 p k) = A (ix2 r ⟨k.val, by omega⟩))
    (hxb : ∀ k : Fin 2048, xb (ix2 p k) = A (ix2 r ⟨2048 + k.val, by omega⟩))
    (hxc : ∀ k : Fin 2048, xc (ix2 p k) = A (ix2 r ⟨4096 + k.val, by omega⟩))
    (hxd : ∀ k : Fin 2048, xd (ix2 p k) = A (ix2 r ⟨6144 + k.val, by omega⟩))
    (hya : ∀ k : Fin 2048, ya (ix2 k q) = B (ix2 ⟨k.val, by omega⟩ q))
    (hyb : ∀ k : Fin 2048, yb (ix2 k q) = B (ix2 ⟨2048 + k.val, by omega⟩ q))
    (hyc : ∀ k : Fin 2048, yc (ix2 k q) = B (ix2 ⟨4096 + k.val, by omega⟩ q))
    (hyd : ∀ k : Fin 2048, yd (ix2 k q) = B (ix2 ⟨6144 + k.val, by omega⟩ q)) :
    k2_pay2 (F := Ideal) (k2_pay2 (F := Ideal) (k2_pay2 (F := Ideal) (k2_pay2 (F := Ideal) (k2_pay1 (F := Ideal)) xa ya) xb yb) xc yc) xd yd (ix2 p q)
      = mmG A B (ix2 r q) := by
  rw [diff2_pay_apply, diff2_pay_apply, diff2_pay_apply, diff2_pay_apply, zero2_pay_apply]
  simp only [hxa, hxb, hxc, hxd, hya, hyb, hyc, hyd]
  exact sum_four_blocks (fun kk : Fin 8192 => A (ix2 r kk) * B (ix2 kk q))

/-- The accumulator after the last of four consecutive points that begin at a multiple of 4: the reset and the four
    steps, spelled out. -/
private theorem acc_unroll (c : Dev nD) (n : ℕ) (hd : n + 3 < cfg2.N) (hm : n % 4 = 0) :
    acc2 (F := Ideal) V c (n + 3) hd
      = k2_pay2 (k2_pay2 (k2_pay2 (k2_pay2 (k2_pay1 (F := Ideal))
            (iblk2 V c 0 ⟨n, by omega⟩) (iblk2 V c 1 ⟨n, by omega⟩))
            (iblk2 V c 0 ⟨n + 1, by omega⟩) (iblk2 V c 1 ⟨n + 1, by omega⟩))
            (iblk2 V c 0 ⟨n + 2, by omega⟩) (iblk2 V c 1 ⟨n + 2, by omega⟩))
            (iblk2 V c 0 ⟨n + 3, hd⟩) (iblk2 V c 1 ⟨n + 3, hd⟩) := by
  have ha : n < cfg2.N := by omega
  have hb : n + 1 < cfg2.N := by omega
  have hc : n + 2 < cfg2.N := by omega
  have ed : acc2 (F := Ideal) V c (n + 3) hd = k2_pay2 (acc2 V c (n + 2) hc) (iblk2 V c 0 ⟨n + 3, hd⟩) (iblk2 V c 1 ⟨n + 3, hd⟩) :=
    acc2_step V c ⟨n + 3, hd⟩ (by show ¬(n + 3) % 4 = 0; omega)
  have ec : acc2 (F := Ideal) V c (n + 2) hc = k2_pay2 (acc2 V c (n + 1) hb) (iblk2 V c 0 ⟨n + 2, hc⟩) (iblk2 V c 1 ⟨n + 2, hc⟩) :=
    acc2_step V c ⟨n + 2, hc⟩ (by show ¬(n + 2) % 4 = 0; omega)
  have eb : acc2 (F := Ideal) V c (n + 1) hb = k2_pay2 (acc2 V c n ha) (iblk2 V c 0 ⟨n + 1, hb⟩) (iblk2 V c 1 ⟨n + 1, hb⟩) :=
    acc2_step V c ⟨n + 1, hb⟩ (by show ¬(n + 1) % 4 = 0; omega)
  have ea : acc2 (F := Ideal) V c n ha = k2_pay2 (k2_pay1 (F := Ideal)) (iblk2 V c 0 ⟨n, ha⟩) (iblk2 V c 1 ⟨n, ha⟩) :=
    acc2_reset V c ⟨n, ha⟩ hm
  rw [ed, ec, eb, ea]

/-- Where a row block's run ends (t % 4 = 3) the accumulator's entry (p, q) is the whole product's entry at row
    1024 (t / 4) + p and column q: the four stretches of 2048 summed one after the other are the one sum over 8192. -/
theorem acc2_apply (c : Dev nD) (t : Fin cfg2.N) (hf : t.val % 4 = 3) (p : Fin 1024) (q : Fin 512) (r : Fin 8192)
    (hr : r.val = 1024 * (t.val / 4) + p.val) :
    acc2 (F := Ideal) V c t.val t.isLt (ix2 p q) = mmG (V c (Pipeline.arrRef spec2 0)) (V c (Pipeline.arrRef spec2 1)) (ix2 r q) := by
  obtain ⟨tv, ht⟩ := t
  obtain ⟨n, rfl⟩ : ∃ n, tv = n + 3 := ⟨tv - 3, by have : tv % 4 = 3 := hf; omega⟩
  have hm : n % 4 = 0 := by have : (n + 3) % 4 = 3 := hf; omega
  have hrow : r.val = 1024 * ((n + 3) / 4) + p.val := hr
  have ha : n < cfg2.N := by omega
  have hb : n + 1 < cfg2.N := by omega
  have hc : n + 2 < cfg2.N := by omega
  show acc2 (F := Ideal) V c (n + 3) ht (ix2 p q) = _
  rw [acc_unroll V c n ht hm]
  exact acc_entry (V c (Pipeline.arrRef spec2 0)) (V c (Pipeline.arrRef spec2 1))
    (iblk2 V c 0 ⟨n, ha⟩) (iblk2 V c 0 ⟨n + 1, hb⟩) (iblk2 V c 0 ⟨n + 2, hc⟩) (iblk2 V c 0 ⟨n + 3, ht⟩)
    (iblk2 V c 1 ⟨n, ha⟩) (iblk2 V c 1 ⟨n + 1, hb⟩) (iblk2 V c 1 ⟨n + 2, hc⟩) (iblk2 V c 1 ⟨n + 3, ht⟩) p q r
    (fun k => blk2_0_apply V c ⟨n, ha⟩ p k r ⟨k.val, by omega⟩ (by show r.val = 1024 * (n / 4) + p.val; omega) (by show k.val = 2048 * (n % 4) + k.val; omega))
    (fun k => blk2_0_apply V c ⟨n + 1, hb⟩ p k r ⟨2048 + k.val, by omega⟩ (by show r.val = 1024 * ((n + 1) / 4) + p.val; omega) (by show 2048 + k.val = 2048 * ((n + 1) % 4) + k.val; omega))
    (fun k => blk2_0_apply V c ⟨n + 2, hc⟩ p k r ⟨4096 + k.val, by omega⟩ (by show r.val = 1024 * ((n + 2) / 4) + p.val; omega) (by show 4096 + k.val = 2048 * ((n + 2) % 4) + k.val; omega))
    (fun k => blk2_0_apply V c ⟨n + 3, ht⟩ p k r ⟨6144 + k.val, by omega⟩ (by show r.val = 1024 * ((n + 3) / 4) + p.val; omega) (by show 6144 + k.val = 2048 * ((n + 3) % 4) + k.val; omega))
    (fun k => blk2_1_apply V c ⟨n, ha⟩ k q ⟨k.val, by omega⟩ (by show k.val = 2048 * (n % 4) + k.val; omega))
    (fun k => blk2_1_apply V c ⟨n + 1, hb⟩ k q ⟨2048 + k.val, by omega⟩ (by show 2048 + k.val = 2048 * ((n + 1) % 4) + k.val; omega))
    (fun k => blk2_1_apply V c ⟨n + 2, hc⟩ k q ⟨4096 + k.val, by omega⟩ (by show 4096 + k.val = 2048 * ((n + 2) % 4) + k.val; omega))
    (fun k => blk2_1_apply V c ⟨n + 3, ht⟩ k q ⟨6144 + k.val, by omega⟩ (by show 6144 + k.val = 2048 * ((n + 3) % 4) + k.val; omega))

/-! ## What a row block's last point writes back, the cover, and the array -/

/-- What a point t with t % 4 = 3 writes back is its block of the product of the two arrays the region read. -/
theorem flushed2_eq (c : Dev nD) (t : Fin cfg2.N) (hf : t.val % 4 = 3) :
    (dat2 (F := Ideal) V c).flushed 2 t
      = ((cfg2.win 2).blk t).view.read (Elt Ideal) (mmG (V c (Pipeline.arrRef spec2 0)) (V c (Pipeline.arrRef spec2 1))) := by
  show (cfg2.win 2).cut (cfg2.grid.coords t) ((dat2 (F := Ideal) V c).after 2 t) = _
  rw [after2_2]
  have hN : cfg2.N = 32 := N_2
  have hlt := t.isLt
  funext y
  obtain ⟨p, q, rfl⟩ : ∃ (p : Fin 1024) (q : Fin 512), y = ix2 p q := ⟨y 0, y 1, eq_ix2 y⟩
  obtain ⟨-, -, -, -, ea, eb⟩ := idx2_facts t
  have hemb : ((cfg2.win 2).blk t).view.emb (ix2 p q) = ix2 (⟨1024 * (t.val / 4) + p.val, by omega⟩ : Fin 8192) q := by
    funext a
    apply Fin.ext
    match a with
    | ⟨0, _⟩ => show win2_2.index t (0 : Fin 2) * 1024 + 1 * p.val = 1024 * (t.val / 4) + p.val; rw [ea]; omega
    | ⟨1, _⟩ => show win2_2.index t (1 : Fin 2) * 512 + 1 * q.val = q.val; rw [eb]; omega
  show acc2 (F := Ideal) V c t.val t.isLt (ix2 p q)
    = mmG (V c (Pipeline.arrRef spec2 0)) (V c (Pipeline.arrRef spec2 1)) (((cfg2.win 2).blk t).view.emb (ix2 p q))
  rw [hemb]
  exact acc2_apply V c t hf p q _ rfl

/-- An index of the result array is in point t's block iff each coordinate is in the block's range on its axis. -/
theorem mem_blk2 (t : Fin cfg2.N) (i : S8192x512.Idx) :
    i ∈ ((cfg2.win 2).blk t).view.set ↔ ∀ a : Fin 2, win2_2.index t a * S1024x512.size a ≤ (i a).val ∧ (i a).val < win2_2.index t a * S1024x512.size a + S1024x512.size a := by
  show i ∈ ((View.whole (Pipeline.arrRef spec2 2)).slice (win2_2.rect t)).set ↔ _
  rw [View.set_slice_whole, Rect.mem_set_unit]
  exact Iff.rfl

/-- Every entry of the result array is in the block of a point that writes back: row r is covered by the last point of
    row block r / 1024. -/
theorem cover2 (i : S8192x512.Idx) : ∃ t : Fin cfg2.N, (cfg2.win 2).flush t = true ∧ i ∈ ((cfg2.win 2).blk t).view.set := by
  have hN : cfg2.N = 32 := N_2
  have hr : (i 0).val < 8192 := (i 0).isLt
  have hq : (i 1).val < 512 := (i 1).isLt
  obtain ⟨t, ht⟩ : ∃ t : Fin cfg2.N, t.val = 4 * ((i 0).val / 1024) + 3 := ⟨⟨4 * ((i 0).val / 1024) + 3, by omega⟩, rfl⟩
  obtain ⟨-, -, -, -, ea, eb⟩ := idx2_facts t
  refine ⟨t, (flush2_2 t).mpr (by omega), ?_⟩
  rw [mem_blk2]
  intro a
  match a with
  | ⟨0, _⟩ => show win2_2.index t (0 : Fin 2) * 1024 ≤ (i 0).val ∧ (i 0).val < win2_2.index t (0 : Fin 2) * 1024 + 1024; rw [ea]; omega
  | ⟨1, _⟩ => show win2_2.index t (1 : Fin 2) * 512 ≤ (i 1).val ∧ (i 1).val < win2_2.index t (1 : Fin 2) * 512 + 512; rw [eb]; omega

/-- After the region the result array holds the matrix product of the two arrays the region read, entry by entry: the
    four stretches of 2048 the accumulator summed one after the other are the one sum over 8192. -/
theorem arr2_out (V : (c : Dev nD) → (b : Ref sig .tc) → Buf (Elt Ideal) ((c : Thread nD τ).loc b)) (c : Dev nD) :
    (dat2 (F := Ideal) V c).arrAt 2 cfg2.N = mmG (V c (Pipeline.arrRef spec2 0)) (V c (Pipeline.arrRef spec2 1)) :=
  (dat2 (F := Ideal) V c).arrAt_eq_of_cover 2 (mmG (V c (Pipeline.arrRef spec2 0)) (V c (Pipeline.arrRef spec2 1)))
    (fun t ht => flushed2_eq V c t ((flush2_2 t).mp ht)) cover2

end Cert.KernelIdeal.Hand

end
-- ==== Proof.ValueDiff3.lean ====
/-
  The value of region 3's result array: one diffusion hop, the product of the 8192x8192 normalized adjacency with an
  8192x512 matrix, on a grid of 8 row blocks by 4 column stretches. Point t = 4 i + k reads block (i, k) of the left
  factor (1024 rows, 2048 columns) and block k of the right factor (2048 rows); the accumulator is reset where k = 0,
  the block product is added at every point, and the last point of a row block (k = 3) writes the accumulator back as
  row block i of the result. Read at an entry, the accumulator there is zero plus four sums over 2048 consecutive
  columns, which together are the one sum over all 8192; the eight row blocks cover the result array.
-/
import proofs.«122622_j10385230921953_1_alg».proof.Proof.Diff3
import proofs.«122622_j10385230921953_1_alg».proof.Proof.Spec
import proofs.«122622_j10385230921953_1_alg».proof.Proof.SpecG
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The index maps over the grid -/

/-- The windows' index maps at point t: the left factor's block is (t / 4, t % 4), the right factor's is (t % 4, 0), the
    result's is (t / 4, 0). -/
theorem idx3_facts : ∀ t : Fin cfg3.N, win3_0.index t (0 : Fin 2) = t.val / 4 ∧ win3_0.index t (1 : Fin 2) = t.val % 4
    ∧ win3_1.index t (0 : Fin 2) = t.val % 4 ∧ win3_1.index t (1 : Fin 2) = 0
    ∧ win3_2.index t (0 : Fin 2) = t.val / 4 ∧ win3_2.index t (1 : Fin 2) = 0 :=
  (by decide +kernel : ∀ t : Fin grid3.N, _)

variable (V : (c : Dev nD) → (b : Ref sig .tc) → Buf (Elt Ideal) ((c : Thread nD τ).loc b))

/-! ## The two input blocks read at coordinates -/

/-- The left factor's block at point t, read at (p, kk), is the array's entry at row 1024 (t / 4) + p and column
    2048 (t % 4) + kk. -/
theorem blk3_0_apply (c : Dev nD) (t : Fin cfg3.N) (p : Fin 1024) (kk : Fin 2048) (r k : Fin 8192)
    (hr : r.val = 1024 * (t.val / 4) + p.val) (hk : k.val = 2048 * (t.val % 4) + kk.val) :
    iblk3 (F := Ideal) V c 0 t (ix2 p kk) = V c (Pipeline.arrRef spec3 0) (ix2 r k) := by
  unfold iblk3
  show V c (Pipeline.arrRef spec3 0) (((cfg3.win 0).blk t).view.emb (ix2 p kk)) = _
  obtain ⟨ea, eb, -, -, -, -⟩ := idx3_facts t
  congr 1
  funext a
  apply Fin.ext
  match a with
  | ⟨0, _⟩ => show win3_0.index t (0 : Fin 2) * 1024 + 1 * p.val = r.val; rw [ea, hr]; omega
  | ⟨1, _⟩ => show win3_0.index t (1 : Fin 2) * 2048 + 1 * kk.val = k.val; rw [eb, hk]; omega

/-- The right factor's block at point t, read at (kk, q), is the array's entry at row 2048 (t % 4) + kk and column q. -/
theorem blk3_1_apply (c : Dev nD) (t : Fin cfg3.N) (kk : Fin 2048) (q : Fin 512) (k : Fin 8192)
    (hk : k.val = 2048 * (t.val % 4) + kk.val) :
    iblk3 (F := Ideal) V c 1 t (ix2 kk q) = V c (Pipeline.arrRef spec3 1) (ix2 k q) := by
  unfold iblk3
  show V c (Pipeline.arrRef spec3 1) (((cfg3.win 1).blk t).view.emb (ix2 kk q)) = _
  obtain ⟨-, -, ea, eb, -, -⟩ := idx3_facts t
  congr 1
  funext a
  apply Fin.ext
  match a with
  | ⟨0, _⟩ => show win3_1.index t (0 : Fin 2) * 2048 + 1 * kk.val = k.val; rw [ea, hk]; omega
  | ⟨1, _⟩ => show win3_1.index t (1 : Fin 2) * 512 + 1 * q.val = q.val; rw [eb]; omega

/-! ## The accumulator where a row block's run ends -/

/-- Four accumulation steps from the reset value, read at entry (p, q), when the four left blocks are the four
    consecutive stretches of 2048 columns of row r of A and the four right blocks the matching stretches of rows of B:
    zero plus the four block products' entries, added in the order of the steps, is the entry (r, q) of A · B. -/
private theorem acc_entry (A : Vec Ideal S8192x8192 .bf16) (B : Vec Ideal S8192x512 .bf16)
    (xa xb xc xd : Vec Ideal S1024x2048 .bf16) (ya yb yc yd : Vec Ideal S2048x512 .bf16)
    (p : Fin 1024) (q : Fin 512) (r : Fin 8192)
    (hxa : ∀ k : Fin 2048, xa (ix2 p k) = A (ix2 r ⟨k.val, by omega⟩))
    (hxb : ∀ k : Fin 2048, xb (ix2 p k) = A (ix2 r ⟨2048 + k.val, by omega⟩))
    (hxc : ∀ k : Fin 2048, xc (ix2 p k) = A (ix2 r ⟨4096 + k.val, by omega⟩))
    (hxd : ∀ k : Fin 2048, xd (ix2 p k) = A (ix2 r ⟨6144 + k.val, by omega⟩))
    (hya : ∀ k : Fin 2048, ya (ix2 k q) = B (ix2 ⟨k.val, by omega⟩ q))
    (hyb : ∀ k : Fin 2048, yb (ix2 k q) = B (ix2 ⟨2048 + k.val, by omega⟩ q))
    (hyc : ∀ k : Fin 2048, yc (ix2 k q) = B (ix2 ⟨4096 + k.val, by omega⟩ q))
    (hyd : ∀ k : Fin 2048, yd (ix2 k q) = B (ix2 ⟨6144 + k.val, by omega⟩ q)) :
    k3_pay2 (F := Ideal) (k3_pay2 (F := Ideal) (k3_pay2 (F := Ideal) (k3_pay2 (F := Ideal) (k3_pay1 (F := Ideal)) xa ya) xb yb) xc yc) xd yd (ix2 p q)
      = mmG A B (ix2 r q) := by
  rw [diff3_pay_apply, diff3_pay_apply, diff3_pay_apply, diff3_pay_apply, zero3_pay_apply]
  simp only [hxa, hxb, hxc, hxd, hya, hyb, hyc, hyd]
  exact sum_four_blocks (fun kk : Fin 8192 => A (ix2 r kk) * B (ix2 kk q))

/-- The accumulator after the last of four consecutive points that begin at a multiple of 4: the reset and the four
    steps, spelled out. -/
private theorem acc_unroll (c : Dev nD) (n : ℕ) (hd : n + 3 < cfg3.N) (hm : n % 4 = 0) :
    acc3 (F := Ideal) V c (n + 3) hd
      = k3_pay2 (k3_pay2 (k3_pay2 (k3_pay2 (k3_pay1 (F := Ideal))
            (iblk3 V c 0 ⟨n, by omega⟩) (iblk3 V c 1 ⟨n, by omega⟩))
            (iblk3 V c 0 ⟨n + 1, by omega⟩) (iblk3 V c 1 ⟨n + 1, by omega⟩))
            (iblk3 V c 0 ⟨n + 2, by omega⟩) (iblk3 V c 1 ⟨n + 2, by omega⟩))
            (iblk3 V c 0 ⟨n + 3, hd⟩) (iblk3 V c 1 ⟨n + 3, hd⟩) := by
  have ha : n < cfg3.N := by omega
  have hb : n + 1 < cfg3.N := by omega
  have hc : n + 2 < cfg3.N := by omega
  have ed : acc3 (F := Ideal) V c (n + 3) hd = k3_pay2 (acc3 V c (n + 2) hc) (iblk3 V c 0 ⟨n + 3, hd⟩) (iblk3 V c 1 ⟨n + 3, hd⟩) :=
    acc3_step V c ⟨n + 3, hd⟩ (by show ¬(n + 3) % 4 = 0; omega)
  have ec : acc3 (F := Ideal) V c (n + 2) hc = k3_pay2 (acc3 V c (n + 1) hb) (iblk3 V c 0 ⟨n + 2, hc⟩) (iblk3 V c 1 ⟨n + 2, hc⟩) :=
    acc3_step V c ⟨n + 2, hc⟩ (by show ¬(n + 2) % 4 = 0; omega)
  have eb : acc3 (F := Ideal) V c (n + 1) hb = k3_pay2 (acc3 V c n ha) (iblk3 V c 0 ⟨n + 1, hb⟩) (iblk3 V c 1 ⟨n + 1, hb⟩) :=
    acc3_step V c ⟨n + 1, hb⟩ (by show ¬(n + 1) % 4 = 0; omega)
  have ea : acc3 (F := Ideal) V c n ha = k3_pay2 (k3_pay1 (F := Ideal)) (iblk3 V c 0 ⟨n, ha⟩) (iblk3 V c 1 ⟨n, ha⟩) :=
    acc3_reset V c ⟨n, ha⟩ hm
  rw [ed, ec, eb, ea]

/-- Where a row block's run ends (t % 4 = 3) the accumulator's entry (p, q) is the whole product's entry at row
    1024 (t / 4) + p and column q: the four stretches of 2048 summed one after the other are the one sum over 8192. -/
theorem acc3_apply (c : Dev nD) (t : Fin cfg3.N) (hf : t.val % 4 = 3) (p : Fin 1024) (q : Fin 512) (r : Fin 8192)
    (hr : r.val = 1024 * (t.val / 4) + p.val) :
    acc3 (F := Ideal) V c t.val t.isLt (ix2 p q) = mmG (V c (Pipeline.arrRef spec3 0)) (V c (Pipeline.arrRef spec3 1)) (ix2 r q) := by
  obtain ⟨tv, ht⟩ := t
  obtain ⟨n, rfl⟩ : ∃ n, tv = n + 3 := ⟨tv - 3, by have : tv % 4 = 3 := hf; omega⟩
  have hm : n % 4 = 0 := by have : (n + 3) % 4 = 3 := hf; omega
  have hrow : r.val = 1024 * ((n + 3) / 4) + p.val := hr
  have ha : n < cfg3.N := by omega
  have hb : n + 1 < cfg3.N := by omega
  have hc : n + 2 < cfg3.N := by omega
  show acc3 (F := Ideal) V c (n + 3) ht (ix2 p q) = _
  rw [acc_unroll V c n ht hm]
  exact acc_entry (V c (Pipeline.arrRef spec3 0)) (V c (Pipeline.arrRef spec3 1))
    (iblk3 V c 0 ⟨n, ha⟩) (iblk3 V c 0 ⟨n + 1, hb⟩) (iblk3 V c 0 ⟨n + 2, hc⟩) (iblk3 V c 0 ⟨n + 3, ht⟩)
    (iblk3 V c 1 ⟨n, ha⟩) (iblk3 V c 1 ⟨n + 1, hb⟩) (iblk3 V c 1 ⟨n + 2, hc⟩) (iblk3 V c 1 ⟨n + 3, ht⟩) p q r
    (fun k => blk3_0_apply V c ⟨n, ha⟩ p k r ⟨k.val, by omega⟩ (by show r.val = 1024 * (n / 4) + p.val; omega) (by show k.val = 2048 * (n % 4) + k.val; omega))
    (fun k => blk3_0_apply V c ⟨n + 1, hb⟩ p k r ⟨2048 + k.val, by omega⟩ (by show r.val = 1024 * ((n + 1) / 4) + p.val; omega) (by show 2048 + k.val = 2048 * ((n + 1) % 4) + k.val; omega))
    (fun k => blk3_0_apply V c ⟨n + 2, hc⟩ p k r ⟨4096 + k.val, by omega⟩ (by show r.val = 1024 * ((n + 2) / 4) + p.val; omega) (by show 4096 + k.val = 2048 * ((n + 2) % 4) + k.val; omega))
    (fun k => blk3_0_apply V c ⟨n + 3, ht⟩ p k r ⟨6144 + k.val, by omega⟩ (by show r.val = 1024 * ((n + 3) / 4) + p.val; omega) (by show 6144 + k.val = 2048 * ((n + 3) % 4) + k.val; omega))
    (fun k => blk3_1_apply V c ⟨n, ha⟩ k q ⟨k.val, by omega⟩ (by show k.val = 2048 * (n % 4) + k.val; omega))
    (fun k => blk3_1_apply V c ⟨n + 1, hb⟩ k q ⟨2048 + k.val, by omega⟩ (by show 2048 + k.val = 2048 * ((n + 1) % 4) + k.val; omega))
    (fun k => blk3_1_apply V c ⟨n + 2, hc⟩ k q ⟨4096 + k.val, by omega⟩ (by show 4096 + k.val = 2048 * ((n + 2) % 4) + k.val; omega))
    (fun k => blk3_1_apply V c ⟨n + 3, ht⟩ k q ⟨6144 + k.val, by omega⟩ (by show 6144 + k.val = 2048 * ((n + 3) % 4) + k.val; omega))

/-! ## What a row block's last point writes back, the cover, and the array -/

/-- What a point t with t % 4 = 3 writes back is its block of the product of the two arrays the region read. -/
theorem flushed3_eq (c : Dev nD) (t : Fin cfg3.N) (hf : t.val % 4 = 3) :
    (dat3 (F := Ideal) V c).flushed 2 t
      = ((cfg3.win 2).blk t).view.read (Elt Ideal) (mmG (V c (Pipeline.arrRef spec3 0)) (V c (Pipeline.arrRef spec3 1))) := by
  show (cfg3.win 2).cut (cfg3.grid.coords t) ((dat3 (F := Ideal) V c).after 2 t) = _
  rw [after3_2]
  have hN : cfg3.N = 32 := N_3
  have hlt := t.isLt
  funext y
  obtain ⟨p, q, rfl⟩ : ∃ (p : Fin 1024) (q : Fin 512), y = ix2 p q := ⟨y 0, y 1, eq_ix2 y⟩
  obtain ⟨-, -, -, -, ea, eb⟩ := idx3_facts t
  have hemb : ((cfg3.win 2).blk t).view.emb (ix2 p q) = ix2 (⟨1024 * (t.val / 4) + p.val, by omega⟩ : Fin 8192) q := by
    funext a
    apply Fin.ext
    match a with
    | ⟨0, _⟩ => show win3_2.index t (0 : Fin 2) * 1024 + 1 * p.val = 1024 * (t.val / 4) + p.val; rw [ea]; omega
    | ⟨1, _⟩ => show win3_2.index t (1 : Fin 2) * 512 + 1 * q.val = q.val; rw [eb]; omega
  show acc3 (F := Ideal) V c t.val t.isLt (ix2 p q)
    = mmG (V c (Pipeline.arrRef spec3 0)) (V c (Pipeline.arrRef spec3 1)) (((cfg3.win 2).blk t).view.emb (ix2 p q))
  rw [hemb]
  exact acc3_apply V c t hf p q _ rfl

/-- An index of the result array is in point t's block iff each coordinate is in the block's range on its axis. -/
theorem mem_blk3 (t : Fin cfg3.N) (i : S8192x512.Idx) :
    i ∈ ((cfg3.win 2).blk t).view.set ↔ ∀ a : Fin 2, win3_2.index t a * S1024x512.size a ≤ (i a).val ∧ (i a).val < win3_2.index t a * S1024x512.size a + S1024x512.size a := by
  show i ∈ ((View.whole (Pipeline.arrRef spec3 2)).slice (win3_2.rect t)).set ↔ _
  rw [View.set_slice_whole, Rect.mem_set_unit]
  exact Iff.rfl

/-- Every entry of the result array is in the block of a point that writes back: row r is covered by the last point of
    row block r / 1024. -/
theorem cover3 (i : S8192x512.Idx) : ∃ t : Fin cfg3.N, (cfg3.win 2).flush t = true ∧ i ∈ ((cfg3.win 2).blk t).view.set := by
  have hN : cfg3.N = 32 := N_3
  have hr : (i 0).val < 8192 := (i 0).isLt
  have hq : (i 1).val < 512 := (i 1).isLt
  obtain ⟨t, ht⟩ : ∃ t : Fin cfg3.N, t.val = 4 * ((i 0).val / 1024) + 3 := ⟨⟨4 * ((i 0).val / 1024) + 3, by omega⟩, rfl⟩
  obtain ⟨-, -, -, -, ea, eb⟩ := idx3_facts t
  refine ⟨t, (flush3_2 t).mpr (by omega), ?_⟩
  rw [mem_blk3]
  intro a
  match a with
  | ⟨0, _⟩ => show win3_2.index t (0 : Fin 2) * 1024 ≤ (i 0).val ∧ (i 0).val < win3_2.index t (0 : Fin 2) * 1024 + 1024; rw [ea]; omega
  | ⟨1, _⟩ => show win3_2.index t (1 : Fin 2) * 512 ≤ (i 1).val ∧ (i 1).val < win3_2.index t (1 : Fin 2) * 512 + 512; rw [eb]; omega

/-- After the region the result array holds the matrix product of the two arrays the region read, entry by entry: the
    four stretches of 2048 the accumulator summed one after the other are the one sum over 8192. -/
theorem arr3_out (V : (c : Dev nD) → (b : Ref sig .tc) → Buf (Elt Ideal) ((c : Thread nD τ).loc b)) (c : Dev nD) :
    (dat3 (F := Ideal) V c).arrAt 2 cfg3.N = mmG (V c (Pipeline.arrRef spec3 0)) (V c (Pipeline.arrRef spec3 1)) :=
  (dat3 (F := Ideal) V c).arrAt_eq_of_cover 2 (mmG (V c (Pipeline.arrRef spec3 0)) (V c (Pipeline.arrRef spec3 1)))
    (fun t ht => flushed3_eq V c t ((flush3_2 t).mp ht)) cover3

end Cert.KernelIdeal.Hand

end
-- ==== Proof.RefBridge.lean ====
/-
  The reference program's four matrix stages are the kernel side's two whole-array functions at the reference's own
  operands: the linear layer x · W + b (the bias a 1 x 512 row) and one diffusion hop A · h. At the ideal instance a
  change of float format is the identity and an entry of a dot_general is the plain sum over the contracted index,
  so each equality compares two finite sums term by term; no finiteness of any entry is used.
-/
import proofs.«122622_j10385230921953_1_alg».proof.Proof.SpecG
import proofs.«122622_j10385230921953_1_alg».proof.Proof.Gen.ReferenceIdeal.Read
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Idealize.ShloMosaic Idealize.ShloMosaic.ValueIdx

/-- The linear layer: the kernel side's x · W + b with the bias as a 1x512 row is the reference's dot_general plus
    the bias broadcast twice. Entry (r, q) of either side is the sum over k of x(r, k) · W(k, q), plus b(q). -/
theorem lin_eq_ref
    (x0 : (⟨Cert.ReferenceIdeal.S8192x512, .f32⟩ : BufTy).Contents (Elt Ideal))
    (x2 : (⟨Cert.ReferenceIdeal.S512x512, .f32⟩ : BufTy).Contents (Elt Ideal))
    (x3 : (⟨Cert.ReferenceIdeal.S512, .f32⟩ : BufTy).Contents (Elt Ideal))
    (h : Cert.KernelIdeal.S512.ShapeCasts Cert.KernelIdeal.S1x512) :
    linG (truncf (F := Ideal) (φ := .f32) .bf16 x0 (by decide))
        (truncf (F := Ideal) (φ := .f32) .bf16 x2 (by decide)) (shapeCast Cert.KernelIdeal.S1x512 x3 h)
      = Cert.ReferenceIdeal.Read.val_main_v3 (F := Ideal) x0 x2 x3 := by
  funext i
  unfold linG
  rw [Cert.ReferenceIdeal.Read.val_main_v3_apply, Cert.ReferenceIdeal.Read.val_main_v0_apply,
    Cert.ReferenceIdeal.Read.val_main_v2_apply, Cert.ReferenceIdeal.Read.val_main_v1_apply]
  rw [shapeCast_a_1a_apply x3 h 0 (i 1)]
  have el : ∀ k : Fin 512, ix2 (i 0) k = Cert.ReferenceIdeal.Read.lidx_main_v0 i k := fun k =>
    funext fun a => by match a with | ⟨0, _⟩ => rfl | ⟨1, _⟩ => rfl
  have er : ∀ k : Fin 512, ix2 k (i 1) = Cert.ReferenceIdeal.Read.ridx_main_v0 i k := fun k =>
    funext fun a => by match a with | ⟨0, _⟩ => rfl | ⟨1, _⟩ => rfl
  have eb : ix1 (i 1) = Cert.ReferenceIdeal.Read.idx_main_v1 (Cert.ReferenceIdeal.Read.idx_main_v2 i) :=
    funext fun a => by match a with | ⟨0, _⟩ => rfl
  exact congrArg₂ (· + ·)
    (Finset.sum_congr rfl fun k _ => congrArg₂ (· * ·) (congrArg x0 (el k)) (congrArg x2 (er k)))
    (congrArg x3 eb)

/-- The first diffusion hop: the kernel side's matrix product of the (narrowed) adjacency with the (narrowed) linear layer's output
    is the reference's dot_general of the two. Entry (r, q) of either side is the sum over k of A(r, k) · h(k, q). -/
theorem hop1_eq_ref
    (x0 : (⟨Cert.ReferenceIdeal.S8192x512, .f32⟩ : BufTy).Contents (Elt Ideal))
    (x1 : (⟨Cert.ReferenceIdeal.S2x262144, .i32⟩ : BufTy).Contents (Elt Ideal))
    (x2 : (⟨Cert.ReferenceIdeal.S512x512, .f32⟩ : BufTy).Contents (Elt Ideal))
    (x3 : (⟨Cert.ReferenceIdeal.S512, .f32⟩ : BufTy).Contents (Elt Ideal)) :
    mmG (truncf (F := Ideal) (φ := .f32) .bf16 (Cert.ReferenceIdeal.Read.val_main_v51 (F := Ideal) x1) (by decide))
        (truncf (F := Ideal) (φ := .f32) .bf16 (Cert.ReferenceIdeal.Read.val_main_v3 (F := Ideal) x0 x2 x3) (by decide))
      = Cert.ReferenceIdeal.Read.val_main_v56 (F := Ideal) x0 x1 x2 x3 := by
  funext i
  unfold mmG
  rw [Cert.ReferenceIdeal.Read.val_main_v56_apply]
  have el : ∀ k : Fin 8192, ix2 (i 0) k = Cert.ReferenceIdeal.Read.lidx_main_v56 i k := fun k =>
    funext fun a => by match a with | ⟨0, _⟩ => rfl | ⟨1, _⟩ => rfl
  have er : ∀ k : Fin 8192, ix2 k (i 1) = Cert.ReferenceIdeal.Read.ridx_main_v56 i k := fun k =>
    funext fun a => by match a with | ⟨0, _⟩ => rfl | ⟨1, _⟩ => rfl
  exact Finset.sum_congr rfl fun k _ =>
    congrArg₂ (· * ·) (congrArg (Cert.ReferenceIdeal.Read.val_main_v51 (F := Ideal) x1) (el k))
      (congrArg (Cert.ReferenceIdeal.Read.val_main_v3 (F := Ideal) x0 x2 x3) (er k))

/-- The second diffusion hop: the kernel side's matrix product of the (narrowed) adjacency with the (narrowed) first hop's output
    is the reference's dot_general of the two. Entry (r, q) of either side is the sum over k of A(r, k) · h(k, q). -/
theorem hop2_eq_ref
    (x0 : (⟨Cert.ReferenceIdeal.S8192x512, .f32⟩ : BufTy).Contents (Elt Ideal))
    (x1 : (⟨Cert.ReferenceIdeal.S2x262144, .i32⟩ : BufTy).Contents (Elt Ideal))
    (x2 : (⟨Cert.ReferenceIdeal.S512x512, .f32⟩ : BufTy).Contents (Elt Ideal))
    (x3 : (⟨Cert.ReferenceIdeal.S512, .f32⟩ : BufTy).Contents (Elt Ideal)) :
    mmG (truncf (F := Ideal) (φ := .f32) .bf16 (Cert.ReferenceIdeal.Read.val_main_v51 (F := Ideal) x1) (by decide))
        (truncf (F := Ideal) (φ := .f32) .bf16 (Cert.ReferenceIdeal.Read.val_main_v56 (F := Ideal) x0 x1 x2 x3) (by decide))
      = Cert.ReferenceIdeal.Read.val_main_v62 (F := Ideal) x0 x1 x2 x3 := by
  funext i
  unfold mmG
  rw [Cert.ReferenceIdeal.Read.val_main_v62_apply]
  have el : ∀ k : Fin 8192, ix2 (i 0) k = Cert.ReferenceIdeal.Read.lidx_main_v62 i k := fun k =>
    funext fun a => by match a with | ⟨0, _⟩ => rfl | ⟨1, _⟩ => rfl
  have er : ∀ k : Fin 8192, ix2 k (i 1) = Cert.ReferenceIdeal.Read.ridx_main_v62 i k := fun k =>
    funext fun a => by match a with | ⟨0, _⟩ => rfl | ⟨1, _⟩ => rfl
  exact Finset.sum_congr rfl fun k _ =>
    congrArg₂ (· * ·) (congrArg (Cert.ReferenceIdeal.Read.val_main_v51 (F := Ideal) x1) (el k))
      (congrArg (Cert.ReferenceIdeal.Read.val_main_v56 (F := Ideal) x0 x1 x2 x3) (er k))

/-- The third diffusion hop: the kernel side's matrix product of the (narrowed) adjacency with the (narrowed) second hop's output
    is the reference's dot_general of the two. Entry (r, q) of either side is the sum over k of A(r, k) · h(k, q). -/
theorem hop3_eq_ref
    (x0 : (⟨Cert.ReferenceIdeal.S8192x512, .f32⟩ : BufTy).Contents (Elt Ideal))
    (x1 : (⟨Cert.ReferenceIdeal.S2x262144, .i32⟩ : BufTy).Contents (Elt Ideal))
    (x2 : (⟨Cert.ReferenceIdeal.S512x512, .f32⟩ : BufTy).Contents (Elt Ideal))
    (x3 : (⟨Cert.ReferenceIdeal.S512, .f32⟩ : BufTy).Contents (Elt Ideal)) :
    mmG (truncf (F := Ideal) (φ := .f32) .bf16 (Cert.ReferenceIdeal.Read.val_main_v51 (F := Ideal) x1) (by decide))
        (truncf (F := Ideal) (φ := .f32) .bf16 (Cert.ReferenceIdeal.Read.val_main_v62 (F := Ideal) x0 x1 x2 x3) (by decide))
      = Cert.ReferenceIdeal.Read.val_main_v68 (F := Ideal) x0 x1 x2 x3 := by
  funext i
  unfold mmG
  rw [Cert.ReferenceIdeal.Read.val_main_v68_apply]
  have el : ∀ k : Fin 8192, ix2 (i 0) k = Cert.ReferenceIdeal.Read.lidx_main_v68 i k := fun k =>
    funext fun a => by match a with | ⟨0, _⟩ => rfl | ⟨1, _⟩ => rfl
  have er : ∀ k : Fin 8192, ix2 k (i 1) = Cert.ReferenceIdeal.Read.ridx_main_v68 i k := fun k =>
    funext fun a => by match a with | ⟨0, _⟩ => rfl | ⟨1, _⟩ => rfl
  exact Finset.sum_congr rfl fun k _ =>
    congrArg₂ (· * ·) (congrArg (Cert.ReferenceIdeal.Read.val_main_v51 (F := Ideal) x1) (el k))
      (congrArg (Cert.ReferenceIdeal.Read.val_main_v62 (F := Ideal) x0 x1 x2 x3) (er k))

end Cert.KernelIdeal.Hand

end
-- ==== Proof.Value.lean ====
/-
  The value of the idealized kernel program's result at the ideal instance: followed through the eleven segments, the
  result buffer ends holding the reference's last stage of the five argument arrays. The host stretches apply the
  reference's own operations (a narrowing to bf16 being the identity on the extended reals); the linear region leaves
  x · W + b and each diffusion region the product of the normalized adjacency with the stage before it, which are the
  reference's dot_general stages entry by entry.
-/
import proofs.«122622_j10385230921953_1_alg».proof.Proof.Run
import proofs.«122622_j10385230921953_1_alg».proof.Proof.HostStages
import proofs.«122622_j10385230921953_1_alg».proof.Proof.ValueLin
import proofs.«122622_j10385230921953_1_alg».proof.Proof.ValueDiff1
import proofs.«122622_j10385230921953_1_alg».proof.Proof.ValueDiff2
import proofs.«122622_j10385230921953_1_alg».proof.Proof.ValueDiff3
import proofs.«122622_j10385230921953_1_alg».proof.Proof.RefBridge

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-! ## Up to the linear layer -/

theorem W1_v0 : W1 m ρ c (Proc.devRef .tc main_v0) = (truncf .bf16 ((m ((c : Thread nD τ).loc main_arg0)) : FVec Ideal S8192x512 .f32) bitsLt_bf16_f32 : FVec Ideal S8192x512 .bf16) := stageA_v0 (W0 m ρ c)
theorem W1_v1 : W1 m ρ c (Proc.devRef .tc main_v1) = (truncf .bf16 ((m ((c : Thread nD τ).loc main_arg2)) : FVec Ideal S512x512 .f32) bitsLt_bf16_f32 : FVec Ideal S512x512 .bf16) := stageA_v1 (W0 m ρ c)
theorem W1_v2 : W1 m ρ c (Proc.devRef .tc main_v2) = shapeCast S1x512 (m ((c : Thread nD τ).loc main_arg3)) shapeCasts_S512_S1x512 := stageA_v2 (W0 m ρ c)

/-- The linear region leaves the reference's linear stage. -/
theorem W2_v3 : W2 m ρ c (Proc.devRef .tc main_v3) = Cert.ReferenceIdeal.Read.val_main_v3 (F := Ideal) (m ((c : Thread nD τ).loc main_arg0)) (m ((c : Thread nD τ).loc main_arg2)) (m ((c : Thread nD τ).loc main_arg3)) :=
  (W2_arr m ρ c 3).trans ((arr0_out (V1 m ρ) c).trans
    ((congr (congr (congrArg linG (W1_v0 m ρ c)) (W1_v1 m ρ c)) (W1_v2 m ρ c)).trans (lin_eq_ref _ _ _ _)))

/-! ## The normalized adjacency and the first weighted term -/

theorem W3_v45 : W3 m ρ c (Proc.devRef .tc main_v45) = Cert.ReferenceIdeal.Read.val_main_v45 (F := Ideal) (m ((c : Thread nD τ).loc main_arg1)) :=
  (stageB_v45 (W2 m ρ c)).trans (congrArg (Cert.ReferenceIdeal.Read.val_main_v45 (F := Ideal)) (W2_main_arg1 m ρ c))
theorem W3_v46 : W3 m ρ c (Proc.devRef .tc main_v46) = Cert.ReferenceIdeal.Read.val_main_v46 (F := Ideal) (m ((c : Thread nD τ).loc main_arg1)) :=
  (stageB_v46 (W2 m ρ c)).trans (congrArg (Cert.ReferenceIdeal.Read.val_main_v46 (F := Ideal)) (W2_main_arg1 m ρ c))
theorem W3_v3 : W3 m ρ c (Proc.devRef .tc main_v3) = Cert.ReferenceIdeal.Read.val_main_v3 (F := Ideal) (m ((c : Thread nD τ).loc main_arg0)) (m ((c : Thread nD τ).loc main_arg2)) (m ((c : Thread nD τ).loc main_arg3)) :=
  (W3_of m ρ c main_v3 (by decide)).trans (W2_v3 m ρ c)
theorem W4_v52 : W4 m ρ c (Proc.devRef .tc main_v52) = (truncf .bf16 (Cert.ReferenceIdeal.Read.val_main_v51 (F := Ideal) (m ((c : Thread nD τ).loc main_arg1)) : FVec Ideal S8192x8192 .f32) bitsLt_bf16_f32 : FVec Ideal S8192x8192 .bf16) :=
  stageC_v52 (W3 m ρ c) _ (W3_v45 m ρ c) (W3_v46 m ρ c)
theorem W4_v56 : W4 m ρ c (Proc.devRef .tc main_v56) = Cert.ReferenceIdeal.Read.val_main_v55 (F := Ideal) (m ((c : Thread nD τ).loc main_arg0)) (m ((c : Thread nD τ).loc main_arg2)) (m ((c : Thread nD τ).loc main_arg3)) (m ((c : Thread nD τ).loc main_arg4)) :=
  stageC_v56 (W3 m ρ c) _ _ _ _ (W3_v3 m ρ c) (W3_main_arg4 m ρ c)
theorem W4_v57 : W4 m ρ c (Proc.devRef .tc main_v57) = (truncf .bf16 (Cert.ReferenceIdeal.Read.val_main_v3 (F := Ideal) (m ((c : Thread nD τ).loc main_arg0)) (m ((c : Thread nD τ).loc main_arg2)) (m ((c : Thread nD τ).loc main_arg3)) : FVec Ideal S8192x512 .f32) bitsLt_bf16_f32 : FVec Ideal S8192x512 .bf16) :=
  (stageC_v57 (W3 m ρ c)).trans (by rw [W3_v3 m ρ c])

/-! ## The first hop -/

theorem W5_v58 : W5 m ρ c (Proc.devRef .tc main_v58) = Cert.ReferenceIdeal.Read.val_main_v56 (F := Ideal) (m ((c : Thread nD τ).loc main_arg0)) (m ((c : Thread nD τ).loc main_arg1)) (m ((c : Thread nD τ).loc main_arg2)) (m ((c : Thread nD τ).loc main_arg3)) :=
  (W5_arr m ρ c 2).trans ((arr1_out (V4 m ρ) c).trans
    ((congr (congrArg mmG (W4_v52 m ρ c)) (W4_v57 m ρ c)).trans (hop1_eq_ref _ _ _ _)))
theorem W5_v52 : W5 m ρ c (Proc.devRef .tc main_v52) = (truncf .bf16 (Cert.ReferenceIdeal.Read.val_main_v51 (F := Ideal) (m ((c : Thread nD τ).loc main_arg1)) : FVec Ideal S8192x8192 .f32) bitsLt_bf16_f32 : FVec Ideal S8192x8192 .bf16) :=
  (W5_arr m ρ c 0).trans (((dat1 (V4 m ρ) c).arrAt_in 0 rfl _).trans ((A_eq1 (V4 m ρ) c 0).trans (W4_v52 m ρ c)))
theorem W5_v56 : W5 m ρ c (Proc.devRef .tc main_v56) = Cert.ReferenceIdeal.Read.val_main_v55 (F := Ideal) (m ((c : Thread nD τ).loc main_arg0)) (m ((c : Thread nD τ).loc main_arg2)) (m ((c : Thread nD τ).loc main_arg3)) (m ((c : Thread nD τ).loc main_arg4)) :=
  (W5_of_ne m ρ c main_v56 (by decide)).trans (W4_v56 m ρ c)
theorem W6_v63 : W6 m ρ c (Proc.devRef .tc main_v63) = Cert.ReferenceIdeal.Read.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  stageD_v63 (W5 m ρ c) _ _ _ _ _ (W5_v56 m ρ c) (W5_v58 m ρ c) (W5_main_arg4 m ρ c)
theorem W6_v64 : W6 m ρ c (Proc.devRef .tc main_v64) = (truncf .bf16 (Cert.ReferenceIdeal.Read.val_main_v56 (F := Ideal) (m ((c : Thread nD τ).loc main_arg0)) (m ((c : Thread nD τ).loc main_arg1)) (m ((c : Thread nD τ).loc main_arg2)) (m ((c : Thread nD τ).loc main_arg3)) : FVec Ideal S8192x512 .f32) bitsLt_bf16_f32 : FVec Ideal S8192x512 .bf16) :=
  (stageD_v64 (W5 m ρ c)).trans (by rw [W5_v58 m ρ c])
theorem W6_v52 : W6 m ρ c (Proc.devRef .tc main_v52) = (truncf .bf16 (Cert.ReferenceIdeal.Read.val_main_v51 (F := Ideal) (m ((c : Thread nD τ).loc main_arg1)) : FVec Ideal S8192x8192 .f32) bitsLt_bf16_f32 : FVec Ideal S8192x8192 .bf16) :=
  (W6_of m ρ c main_v52 (by decide)).trans (W5_v52 m ρ c)

/-! ## The second hop -/

theorem W7_v65 : W7 m ρ c (Proc.devRef .tc main_v65) = Cert.ReferenceIdeal.Read.val_main_v62 (F := Ideal) (m ((c : Thread nD τ).loc main_arg0)) (m ((c : Thread nD τ).loc main_arg1)) (m ((c : Thread nD τ).loc main_arg2)) (m ((c : Thread nD τ).loc main_arg3)) :=
  (W7_arr m ρ c 2).trans ((arr2_out (V6 m ρ) c).trans
    ((congr (congrArg mmG (W6_v52 m ρ c)) (W6_v64 m ρ c)).trans (hop2_eq_ref _ _ _ _)))
theorem W7_v52 : W7 m ρ c (Proc.devRef .tc main_v52) = (truncf .bf16 (Cert.ReferenceIdeal.Read.val_main_v51 (F := Ideal) (m ((c : Thread nD τ).loc main_arg1)) : FVec Ideal S8192x8192 .f32) bitsLt_bf16_f32 : FVec Ideal S8192x8192 .bf16) :=
  (W7_arr m ρ c 0).trans (((dat2 (V6 m ρ) c).arrAt_in 0 rfl _).trans ((A_eq2 (V6 m ρ) c 0).trans (W6_v52 m ρ c)))
theorem W7_v63 : W7 m ρ c (Proc.devRef .tc main_v63) = Cert.ReferenceIdeal.Read.val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W7_of_ne m ρ c main_v63 (by decide)).trans (W6_v63 m ρ c)
theorem W8_v70 : W8 m ρ c (Proc.devRef .tc main_v70) = Cert.ReferenceIdeal.Read.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  stageE_v70 (W7 m ρ c) _ _ _ _ _ (W7_v63 m ρ c) (W7_v65 m ρ c) (W7_main_arg4 m ρ c)
theorem W8_v71 : W8 m ρ c (Proc.devRef .tc main_v71) = (truncf .bf16 (Cert.ReferenceIdeal.Read.val_main_v62 (F := Ideal) (m ((c : Thread nD τ).loc main_arg0)) (m ((c : Thread nD τ).loc main_arg1)) (m ((c : Thread nD τ).loc main_arg2)) (m ((c : Thread nD τ).loc main_arg3)) : FVec Ideal S8192x512 .f32) bitsLt_bf16_f32 : FVec Ideal S8192x512 .bf16) :=
  (stageE_v71 (W7 m ρ c)).trans (by rw [W7_v65 m ρ c])
theorem W8_v52 : W8 m ρ c (Proc.devRef .tc main_v52) = (truncf .bf16 (Cert.ReferenceIdeal.Read.val_main_v51 (F := Ideal) (m ((c : Thread nD τ).loc main_arg1)) : FVec Ideal S8192x8192 .f32) bitsLt_bf16_f32 : FVec Ideal S8192x8192 .bf16) :=
  (W8_of m ρ c main_v52 (by decide)).trans (W7_v52 m ρ c)

/-! ## The third hop, the last weighted sum and the rectifier -/

theorem W9_v72 : W9 m ρ c (Proc.devRef .tc main_v72) = Cert.ReferenceIdeal.Read.val_main_v68 (F := Ideal) (m ((c : Thread nD τ).loc main_arg0)) (m ((c : Thread nD τ).loc main_arg1)) (m ((c : Thread nD τ).loc main_arg2)) (m ((c : Thread nD τ).loc main_arg3)) :=
  (W9_arr m ρ c 2).trans ((arr3_out (V8 m ρ) c).trans
    ((congr (congrArg mmG (W8_v52 m ρ c)) (W8_v71 m ρ c)).trans (hop3_eq_ref _ _ _ _)))
theorem W9_v70 : W9 m ρ c (Proc.devRef .tc main_v70) = Cert.ReferenceIdeal.Read.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W9_of_ne m ρ c main_v70 (by decide)).trans (W8_v70 m ρ c)
theorem W10_v77 : W10 m ρ c (Proc.devRef .tc main_v77) = Cert.ReferenceIdeal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  stageF_v77 (W9 m ρ c) _ _ _ _ _ (W9_v70 m ρ c) (W9_v72 m ρ c) (W9_main_arg4 m ρ c)

/-- At the return the result buffer holds the reference's last stage of the five argument arrays. -/
theorem W11_v78 : W11 m ρ c (Proc.devRef .tc main_v78) = Cert.ReferenceIdeal.Read.val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  stageG_v78 (W10 m ρ c) _ _ _ _ _ (W10_v77 m ρ c)

end Cert.KernelIdeal.Hand

end
-- ==== Proof.lean ====
/-
  The certificate's claim: the kernel program as printed and its idealization both run to the end, faulting nowhere
  and leaving their five argument arrays unchanged; so does the reference; the idealization rewrote nothing; and at
  the ideal instance the idealized kernel program and the reference, run from memories that agree on the arguments,
  end with equal results.
  The kernel program is four pipelined regions among host operations: a linear layer x · W + b and three diffusion
  hops adj · cur, each hop accumulating its product over four stretches of the contracted index in a scratch buffer.
  Its run is composed segment by segment (Proof/Run.lean at the ideal instance, Proof/BitsRun.lean as printed); its
  result is followed through the segments in Proof/Value.lean. The two sides differ only by narrowings to bf16, which
  are the identity on the extended reals, by the bias entering as a 1x512 row, and by the grouping of each hop's sum
  into four stretches: commutativity and associativity of addition on the extended reals, no finiteness assumed.
-/
import proofs.«122622_j10385230921953_1_alg».proof.Defs
import proofs.«122622_j10385230921953_1_alg».proof.Proof.Gen.Kernel
import proofs.«122622_j10385230921953_1_alg».proof.Proof.Gen.KernelIdeal
import proofs.«122622_j10385230921953_1_alg».proof.Proof.Gen.ReferenceIdeal
import proofs.«122622_j10385230921953_1_alg».proof.Proof.Gen.Pre_finite_inputs
import proofs.«122622_j10385230921953_1_alg».proof.Proof.Gen.ReferenceIdeal.Run
import proofs.«122622_j10385230921953_1_alg».proof.Proof.Gen.ReferenceIdeal.Read
import proofs.«122622_j10385230921953_1_alg».proof.Proof.BitsRun
import proofs.«122622_j10385230921953_1_alg».proof.Proof.Run
import proofs.«122622_j10385230921953_1_alg».proof.Proof.Value
import Idealize.ShloMosaic.Adequacy
import Idealize.ShloMosaic.Init

noncomputable section

namespace Cert.Proof

open Idealize.ShloMosaic Idealize.SL.Sem

/-- The printed kernel program runs and leaves its arguments unchanged: its run read at the word-level instance. -/
theorem frame_k : Cert.frame_Kernel := fun m ρ _ => Cert.Kernel.Hand.frame (F := Bits) m ρ

/-- The idealized kernel program runs and leaves its arguments unchanged: the same run read at the ideal instance. -/
theorem frame_ki : Cert.frame_KernelIdeal := fun m ρ _ => Cert.KernelIdeal.Hand.frame (F := Ideal) m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal instance the idealized kernel program ends with its result buffer at the reference's last stage of
    the argument arrays, and the reference ends with its result at the same stage of arguments that agree. -/
theorem algebraic : Cert.algebraic_KernelIdeal_ReferenceIdeal := by
  intro m ρ m' ρ' _ hagree
  refine ⟨fun c => Cert.KernelIdeal.Hand.W11 m ρ c (Proc.devRef .tc Cert.KernelIdeal.main_v78), ?_, ?_⟩
  · refine (θ_run Cert.KernelIdeal.defs _ _).mono (fun r h c => ?_) (Cert.KernelIdeal.Hand.run_main (F := Ideal) m ρ)
    exact ⟨h c _ (Cert.KernelIdeal.Hand.mem_uc Cert.KernelIdeal.main_v78 (by decide)),
      (h c _ (Cert.KernelIdeal.Hand.mem_uc Cert.KernelIdeal.main_arg0 (by decide))).trans (Cert.KernelIdeal.Hand.W11_main_arg0 m ρ c),
      (h c _ (Cert.KernelIdeal.Hand.mem_uc Cert.KernelIdeal.main_arg1 (by decide))).trans (Cert.KernelIdeal.Hand.W11_main_arg1 m ρ c),
      (h c _ (Cert.KernelIdeal.Hand.mem_uc Cert.KernelIdeal.main_arg2 (by decide))).trans (Cert.KernelIdeal.Hand.W11_main_arg2 m ρ c),
      (h c _ (Cert.KernelIdeal.Hand.mem_uc Cert.KernelIdeal.main_arg3 (by decide))).trans (Cert.KernelIdeal.Hand.W11_main_arg3 m ρ c),
      (h c _ (Cert.KernelIdeal.Hand.mem_uc Cert.KernelIdeal.main_arg4 (by decide))).trans (Cert.KernelIdeal.Hand.W11_main_arg4 m ρ c)⟩
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v74_eq, (hagree c).1, (hagree c).2.1, (hagree c).2.2.1, (hagree c).2.2.2.1, (hagree c).2.2.2.2]
    exact (Cert.KernelIdeal.Hand.W11_v78 m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
